-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x500x92 : Shape := ⟨3, ![32, 500, 92]⟩
abbrev S32x500x16x2 : Shape := ⟨4, ![32, 500, 16, 2]⟩
abbrev S32x200 : Shape := ⟨2, ![32, 200]⟩
abbrev S32x200x16x2 : Shape := ⟨4, ![32, 200, 16, 2]⟩
abbrev S_ : Shape := ⟨0, ![]⟩

class Facts : Prop where
  bcast_S_S32x500x92 : S_.BroadcastsInDim S32x500x92 (![] : Fin 0 → Fin S32x500x92.rank)
  reducesTo_S32x500x92_S_d0_1_2 : S32x500x92.ReducesTo [0, 1, 2] S_
  h_S_ : 0 < S_.numel
  bcast_S_S32x500x16x2 : S_.BroadcastsInDim S32x500x16x2 (![] : Fin 0 → Fin S32x500x16x2.rank)
  reducesTo_S32x500x16x2_S_d0_1_2_3 : S32x500x16x2.ReducesTo [0, 1, 2, 3] S_
  bcast_S_S32x200x16x2 : S_.BroadcastsInDim S32x200x16x2 (![] : Fin 0 → Fin S32x200x16x2.rank)
  reducesTo_S32x200x16x2_S_d0_1_2_3 : S32x200x16x2.ReducesTo [0, 1, 2, 3] S_
  bcast_S_S32x200 : S_.BroadcastsInDim S32x200 (![] : Fin 0 → Fin S32x200.rank)
  reducesTo_S32x200_S_d0_1 : S32x200.ReducesTo [0, 1] S_

variable [Facts]

def fn_part1 {F : FTy → Type} [FloatOps F] (main_arg2 : IVec S32x200 32) (main_v13 : IVec S_ 1) (main_v15 : IVec S32x200 1) (main_c_5 : IVec S_ 32) : IVec S_ 1 :=
  let main_v16 : IVec S32x200 32 := broadcastInDim S32x200 ![] bcast_S_S32x200 main_c_5
  let main_v17 : IVec S32x200 1 := cmpi .slt main_arg2 main_v16
  let main_v18 : IVec S32x200 1 := andi main_v15 main_v17
  let main_c_6 : IVec S_ 1 := constantI S_ 1 1#1
  let main_v19 : IVec S_ 1 := (fun x v => Host.reduce IntOp.andi x v reducesTo_S32x200_S_d0_1 h_S_) main_v18 main_c_6
  let main_v20 : IVec S_ 1 := andi main_v13 main_v19
  main_v20

def fn {F : FTy → Type} [FloatOps F] (main_arg0 : FVec F S32x500x92 .f32) (main_arg1 : FVec F S32x500x16x2 .f32) (main_arg2 : IVec S32x200 32) (main_arg3 : FVec F S32x200x16x2 .f32) : IVec S_ 1 :=
  let main_v0 : FVec F S32x500x92 .f32 := Host.absf main_arg0
  let main_cst : FVec F S_ .f32 := constant S_ .f32 0x7F800000#32
  let main_v1 : FVec F S32x500x92 .f32 := broadcastInDim S32x500x92 ![] bcast_S_S32x500x92 main_cst
  let main_v2 : IVec S32x500x92 1 := cmpf .olt main_v0 main_v1
  let main_c : IVec S_ 1 := constantI S_ 1 1#1
  let main_v3 : IVec S_ 1 := (fun x v => Host.reduce IntOp.andi x v reducesTo_S32x500x92_S_d0_1_2 h_S_) main_v2 main_c
  let main_v4 : FVec F S32x500x16x2 .f32 := Host.absf main_arg1
  let main_cst_0 : FVec F S_ .f32 := constant S_ .f32 0x7F800000#32
  let main_v5 : FVec F S32x500x16x2 .f32 := broadcastInDim S32x500x16x2 ![] bcast_S_S32x500x16x2 main_cst_0
  let main_v6 : IVec S32x500x16x2 1 := cmpf .olt main_v4 main_v5
  let main_c_1 : IVec S_ 1 := constantI S_ 1 1#1
  let main_v7 : IVec S_ 1 := (fun x v => Host.reduce IntOp.andi x v reducesTo_S32x500x16x2_S_d0_1_2_3 h_S_) main_v6 main_c_1
  let main_v8 : IVec S_ 1 := andi main_v3 main_v7
  let main_v9 : FVec F S32x200x16x2 .f32 := Host.absf main_arg3
  let main_cst_2 : FVec F S_ .f32 := constant S_ .f32 0x7F800000#32
  let main_v10 : FVec F S32x200x16x2 .f32 := broadcastInDim S32x200x16x2 ![] bcast_S_S32x200x16x2 main_cst_2
  let main_v11 : IVec S32x200x16x2 1 := cmpf .olt main_v9 main_v10
  let main_c_3 : IVec S_ 1 := constantI S_ 1 1#1
  let main_v12 : IVec S_ 1 := (fun x v => Host.reduce IntOp.andi x v reducesTo_S32x200x16x2_S_d0_1_2_3 h_S_) main_v11 main_c_3
  let main_v13 : IVec S_ 1 := andi main_v8 main_v12
  let main_c_4 : IVec S_ 32 := constantI S_ 32 0#32
  let main_v14 : IVec S32x200 32 := broadcastInDim S32x200 ![] bcast_S_S32x200 main_c_4
  let main_v15 : IVec S32x200 1 := cmpi .sge main_arg2 main_v14
  let main_c_5 : IVec S_ 32 := constantI S_ 32 92#32
  fn_part1 (F := F) main_arg2 main_v13 main_v15 main_c_5
-- ==== Kernel.lean ====
abbrev S32x500x92 : Shape := ⟨3, ![32, 500, 92]⟩
abbrev S32x500x16x2 : Shape := ⟨4, ![32, 500, 16, 2]⟩
abbrev S32x200 : Shape := ⟨2, ![32, 200]⟩
abbrev S32x200x16x2 : Shape := ⟨4, ![32, 200, 16, 2]⟩
abbrev S32x500x32 : Shape := ⟨3, ![32, 500, 32]⟩
abbrev S32x200x32 : Shape := ⟨3, ![32, 200, 32]⟩
abbrev S32x32x200 : Shape := ⟨3, ![32, 32, 200]⟩
abbrev S32x500x16x1 : Shape := ⟨4, ![32, 500, 16, 1]⟩
abbrev S32x500x16 : Shape := ⟨3, ![32, 500, 16]⟩
abbrev S32x200x16x1 : Shape := ⟨4, ![32, 200, 16, 1]⟩
abbrev S32x200x16 : Shape := ⟨3, ![32, 200, 16]⟩
abbrev S_ : Shape := ⟨0, ![]⟩
abbrev S32x500 : Shape := ⟨2, ![32, 500]⟩
abbrev S32x500x1 : Shape := ⟨3, ![32, 500, 1]⟩
abbrev S32x500x4 : Shape := ⟨3, ![32, 500, 4]⟩
abbrev S32x200x1 : Shape := ⟨3, ![32, 200, 1]⟩
abbrev S32x200x4 : Shape := ⟨3, ![32, 200, 4]⟩
abbrev S32x500x200 : Shape := ⟨3, ![32, 500, 200]⟩
abbrev S1x500x92 : Shape := ⟨3, ![1, 500, 92]⟩
abbrev S1x500x32 : Shape := ⟨3, ![1, 500, 32]⟩
abbrev S1x32x200 : Shape := ⟨3, ![1, 32, 200]⟩
abbrev S1x500x4 : Shape := ⟨3, ![1, 500, 4]⟩
abbrev S1x200x4 : Shape := ⟨3, ![1, 200, 4]⟩
abbrev S1x200x1 : Shape := ⟨3, ![1, 200, 1]⟩
abbrev S1x500x200 : Shape := ⟨3, ![1, 500, 200]⟩
abbrev S1x500 : Shape := ⟨2, ![1, 500]⟩
abbrev S1x500x1 : Shape := ⟨3, ![1, 500, 1]⟩
abbrev S1x200x92 : Shape := ⟨3, ![1, 200, 92]⟩
abbrev S1x1x200 : Shape := ⟨3, ![1, 1, 200]⟩
abbrev S1x200 : Shape := ⟨2, ![1, 200]⟩

abbrev nBuf : Space → Nat
  | .hbm => 46
  | .vmem => 16
  | .smem => 0
  | _ => 0

abbrev bufTy : (tb : Table) → Fin (tcTables nBuf tb) → BufTy
  | .hbm, ⟨0, _⟩ => ⟨S32x500x92, .f32⟩
  | .hbm, ⟨1, _⟩ => ⟨S32x500x16x2, .f32⟩
  | .hbm, ⟨2, _⟩ => ⟨S32x200, .i32⟩
  | .hbm, ⟨3, _⟩ => ⟨S32x200x16x2, .f32⟩
  | .hbm, ⟨4, _⟩ => ⟨S32x500x32, .f32⟩
  | .hbm, ⟨5, _⟩ => ⟨S32x200x32, .f32⟩
  | .hbm, ⟨6, _⟩ => ⟨S32x200x16x2, .f32⟩
  | .hbm, ⟨7, _⟩ => ⟨S32x200x32, .f32⟩
  | .hbm, ⟨8, _⟩ => ⟨S32x32x200, .f32⟩
  | .hbm, ⟨9, _⟩ => ⟨S32x32x200, .f32⟩
  | .hbm, ⟨10, _⟩ => ⟨S32x500x16x1, .f32⟩
  | .hbm, ⟨11, _⟩ => ⟨S32x500x16, .f32⟩
  | .hbm, ⟨12, _⟩ => ⟨S32x500x16x1, .f32⟩
  | .hbm, ⟨13, _⟩ => ⟨S32x500x16, .f32⟩
  | .hbm, ⟨14, _⟩ => ⟨S32x200x16x1, .f32⟩
  | .hbm, ⟨15, _⟩ => ⟨S32x200x16, .f32⟩
  | .hbm, ⟨16, _⟩ => ⟨S32x200x16x1, .f32⟩
  | .hbm, ⟨17, _⟩ => ⟨S32x200x16, .f32⟩
  | .hbm, ⟨18, _⟩ => ⟨S_, .f32⟩
  | .hbm, ⟨19, _⟩ => ⟨S32x500, .f32⟩
  | .hbm, ⟨20, _⟩ => ⟨S_, .f32⟩
  | .hbm, ⟨21, _⟩ => ⟨S32x500, .f32⟩
  | .hbm, ⟨22, _⟩ => ⟨S_, .f32⟩
  | .hbm, ⟨23, _⟩ => ⟨S32x500, .f32⟩
  | .hbm, ⟨24, _⟩ => ⟨S_, .f32⟩
  | .hbm, ⟨25, _⟩ => ⟨S32x500, .f32⟩
  | .hbm, ⟨26, _⟩ => ⟨S32x500x1, .f32⟩
  | .hbm, ⟨27, _⟩ => ⟨S32x500x1, .f32⟩
  | .hbm, ⟨28, _⟩ => ⟨S32x500x1, .f32⟩
  | .hbm, ⟨29, _⟩ => ⟨S32x500x1, .f32⟩
  | .hbm, ⟨30, _⟩ => ⟨S32x500x4, .f32⟩
  | .hbm, ⟨31, _⟩ => ⟨S_, .f32⟩
  | .hbm, ⟨32, _⟩ => ⟨S32x200, .f32⟩
  | .hbm, ⟨33, _⟩ => ⟨S_, .f32⟩
  | .hbm, ⟨34, _⟩ => ⟨S32x200, .f32⟩
  | .hbm, ⟨35, _⟩ => ⟨S_, .f32⟩
  | .hbm, ⟨36, _⟩ => ⟨S32x200, .f32⟩
  | .hbm, ⟨37, _⟩ => ⟨S_, .f32⟩
  | .hbm, ⟨38, _⟩ => ⟨S32x200, .f32⟩
  | .hbm, ⟨39, _⟩ => ⟨S32x200x1, .f32⟩
  | .hbm, ⟨40, _⟩ => ⟨S32x200x1, .f32⟩
  | .hbm, ⟨41, _⟩ => ⟨S32x200x1, .f32⟩
  | .hbm, ⟨42, _⟩ => ⟨S32x200x1, .f32⟩
  | .hbm, ⟨43, _⟩ => ⟨S32x200x4, .f32⟩
  | .hbm, ⟨44, _⟩ => ⟨S32x200x1, .i32⟩
  | .hbm, ⟨45, _⟩ => ⟨S32x500x200, .f32⟩
  | .local _ .vmem, ⟨0, _⟩ => ⟨S1x500x92, .f32⟩
  | .local _ .vmem, ⟨1, _⟩ => ⟨S1x500x92, .f32⟩
  | .local _ .vmem, ⟨2, _⟩ => ⟨S1x500x32, .f32⟩
  | .local _ .vmem, ⟨3, _⟩ => ⟨S1x500x32, .f32⟩
  | .local _ .vmem, ⟨4, _⟩ => ⟨S1x32x200, .f32⟩
  | .local _ .vmem, ⟨5, _⟩ => ⟨S1x32x200, .f32⟩
  | .local _ .vmem, ⟨6, _⟩ => ⟨S1x32x200, .f32⟩
  | .local _ .vmem, ⟨7, _⟩ => ⟨S1x32x200, .f32⟩
  | .local _ .vmem, ⟨8, _⟩ => ⟨S1x500x4, .f32⟩
  | .local _ .vmem, ⟨9, _⟩ => ⟨S1x500x4, .f32⟩
  | .local _ .vmem, ⟨10, _⟩ => ⟨S1x200x4, .f32⟩
  | .local _ .vmem, ⟨11, _⟩ => ⟨S1x200x4, .f32⟩
  | .local _ .vmem, ⟨12, _⟩ => ⟨S1x200x1, .i32⟩
  | .local _ .vmem, ⟨13, _⟩ => ⟨S1x200x1, .i32⟩
  | .local _ .vmem, ⟨14, _⟩ => ⟨S1x500x200, .f32⟩
  | .local _ .vmem, ⟨15, _⟩ => ⟨S1x500x200, .f32⟩
  | _, _ => ⟨S32x500x92, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x500x92 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x500x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x500x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x200x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x200x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x500x200 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S32x500x16x2_S32x500x32 : S32x500x16x2.ShapeCasts S32x500x32
  shapeCasts_S32x200x16x2_S32x200x32 : S32x200x16x2.ShapeCasts S32x200x32
  transposes_S32x200x32_S32x32x200_0_2_1 : S32x200x32.Transposes [0, 2, 1] S32x32x200
  slices_S32x500x16x2_S32x500x16x1_0_0_0_0 : S32x500x16x2.Slices ![0, 0, 0, 0] S32x500x16x1
  shapeCasts_S32x500x16x1_S32x500x16 : S32x500x16x1.ShapeCasts S32x500x16
  slices_S32x500x16x2_S32x500x16x1_0_0_0_1 : S32x500x16x2.Slices ![0, 0, 0, 1] S32x500x16x1
  slices_S32x200x16x2_S32x200x16x1_0_0_0_0 : S32x200x16x2.Slices ![0, 0, 0, 0] S32x200x16x1
  shapeCasts_S32x200x16x1_S32x200x16 : S32x200x16x1.ShapeCasts S32x200x16
  slices_S32x200x16x2_S32x200x16x1_0_0_0_1 : S32x200x16x2.Slices ![0, 0, 0, 1] S32x200x16x1
  reducesTo_S32x500x16_S32x500_d2 : S32x500x16.ReducesTo [2] S32x500
  h_S_ : 0 < S_.numel
  bcast_S32x500_S32x500x1_0_1 : S32x500.BroadcastsInDim S32x500x1 (![0, 1] : Fin 2 → Fin S32x500x1.rank)
  concatenates_S32x500x1_S32x500x1_S32x500x1_S32x500x1_S32x500x4_d2 : Shape.Concatenates [S32x500x1, S32x500x1, S32x500x1, S32x500x1] S32x500x4 2
  reducesTo_S32x200x16_S32x200_d2 : S32x200x16.ReducesTo [2] S32x200
  bcast_S32x200_S32x200x1_0_1 : S32x200.BroadcastsInDim S32x200x1 (![0, 1] : Fin 2 → Fin S32x200x1.rank)
  concatenates_S32x200x1_S32x200x1_S32x200x1_S32x200x1_S32x200x4_d2 : Shape.Concatenates [S32x200x1, S32x200x1, S32x200x1, S32x200x1] S32x200x4 2
  inb_S1x500x92_S1x500x92_0_0_0 : ∀ a, (![0, 0, 0] : Fin 3 → Nat) a + S1x500x92.size a ≤ S1x500x92.size a
  h_S1x500x92 : 0 < S1x500x92.numel
  inb_S1x500x32_S1x500x32_0_0_0 : ∀ a, (![0, 0, 0] : Fin 3 → Nat) a + S1x500x32.size a ≤ S1x500x32.size a
  h_S1x500x32 : 0 < S1x500x32.numel
  shapeCasts_S1x500x32_S1x500x32 : S1x500x32.ShapeCasts S1x500x32
  inb_S1x32x200_S1x32x200_0_0_0 : ∀ a, (![0, 0, 0] : Fin 3 → Nat) a + S1x32x200.size a ≤ S1x32x200.size a
  h_S1x32x200 : 0 < S1x32x200.numel
  shapeCasts_S1x32x200_S1x32x200 : S1x32x200.ShapeCasts S1x32x200
  inb_S1x500x4_S1x500x4_0_0_0 : ∀ a, (![0, 0, 0] : Fin 3 → Nat) a + S1x500x4.size a ≤ S1x500x4.size a
  h_S1x500x4 : 0 < S1x500x4.numel
  shapeCasts_S1x500x4_S1x500x4 : S1x500x4.ShapeCasts S1x500x4
  inb_S1x200x4_S1x200x4_0_0_0 : ∀ a, (![0, 0, 0] : Fin 3 → Nat) a + S1x200x4.size a ≤ S1x200x4.size a
  h_S1x200x4 : 0 < S1x200x4.numel
  shapeCasts_S1x200x4_S1x200x4 : S1x200x4.ShapeCasts S1x200x4
  inb_S1x200x1_S1x200x1_0_0_0 : ∀ a, (![0, 0, 0] : Fin 3 → Nat) a + S1x200x1.size a ≤ S1x200x1.size a
  h_S1x200x1 : 0 < S1x200x1.numel
  shapeCasts_S1x200x1_S1x200x1 : S1x200x1.ShapeCasts S1x200x1
  reduces_S1x500x92_S1x500 : S1x500x92.Reduces [2] S1x500
  shapeCasts_S1x500_S1x500x1 : S1x500.ShapeCasts S1x500x1
  broadcasts_S1x500x1_S1x500x92 : S1x500x1.Broadcasts S1x500x92
  iota_S1x200x92_d2_w32 : S1x200x92.Iotas .tc 32 [2]
  broadcasts_S1x200x1_S1x200x92 : S1x200x1.Broadcasts S1x200x92
  natLt_1_32 : 1 < 32
  slices_S1x500x32_o0_0_0_S1x500x1 : S1x500x32.Slices ![0, 0, 0] S1x500x1
  slices_S1x32x200_o0_0_0_S1x1x200 : S1x32x200.Slices ![0, 0, 0] S1x1x200
  broadcasts_S1x500x1_S1x500x200 : S1x500x1.Broadcasts S1x500x200
  broadcasts_S1x1x200_S1x500x200 : S1x1x200.Broadcasts S1x500x200
  slices_S1x500x32_o0_0_1_S1x500x1 : S1x500x32.Slices ![0, 0, 1] S1x500x1
  slices_S1x32x200_o0_1_0_S1x1x200 : S1x32x200.Slices ![0, 1, 0] S1x1x200
  slices_S1x500x32_o0_0_2_S1x500x1 : S1x500x32.Slices ![0, 0, 2] S1x500x1
  slices_S1x32x200_o0_2_0_S1x1x200 : S1x32x200.Slices ![0, 2, 0] S1x1x200
  slices_S1x500x32_o0_0_3_S1x500x1 : S1x500x32.Slices ![0, 0, 3] S1x500x1
  slices_S1x32x200_o0_3_0_S1x1x200 : S1x32x200.Slices ![0, 3, 0] S1x1x200
  slices_S1x500x32_o0_0_4_S1x500x1 : S1x500x32.Slices ![0, 0, 4] S1x500x1
  slices_S1x32x200_o0_4_0_S1x1x200 : S1x32x200.Slices ![0, 4, 0] S1x1x200
  slices_S1x500x32_o0_0_5_S1x500x1 : S1x500x32.Slices ![0, 0, 5] S1x500x1
  slices_S1x32x200_o0_5_0_S1x1x200 : S1x32x200.Slices ![0, 5, 0] S1x1x200
  slices_S1x500x32_o0_0_6_S1x500x1 : S1x500x32.Slices ![0, 0, 6] S1x500x1
  slices_S1x32x200_o0_6_0_S1x1x200 : S1x32x200.Slices ![0, 6, 0] S1x1x200
  slices_S1x500x32_o0_0_7_S1x500x1 : S1x500x32.Slices ![0, 0, 7] S1x500x1
  slices_S1x32x200_o0_7_0_S1x1x200 : S1x32x200.Slices ![0, 7, 0] S1x1x200
  slices_S1x500x32_o0_0_8_S1x500x1 : S1x500x32.Slices ![0, 0, 8] S1x500x1
  slices_S1x32x200_o0_8_0_S1x1x200 : S1x32x200.Slices ![0, 8, 0] S1x1x200
  slices_S1x500x32_o0_0_9_S1x500x1 : S1x500x32.Slices ![0, 0, 9] S1x500x1
  slices_S1x32x200_o0_9_0_S1x1x200 : S1x32x200.Slices ![0, 9, 0] S1x1x200
  slices_S1x500x32_o0_0_10_S1x500x1 : S1x500x32.Slices ![0, 0, 10] S1x500x1
  slices_S1x32x200_o0_10_0_S1x1x200 : S1x32x200.Slices ![0, 10, 0] S1x1x200
  slices_S1x500x32_o0_0_11_S1x500x1 : S1x500x32.Slices ![0, 0, 11] S1x500x1
  slices_S1x32x200_o0_11_0_S1x1x200 : S1x32x200.Slices ![0, 11, 0] S1x1x200
  slices_S1x500x32_o0_0_12_S1x500x1 : S1x500x32.Slices ![0, 0, 12] S1x500x1
  slices_S1x32x200_o0_12_0_S1x1x200 : S1x32x200.Slices ![0, 12, 0] S1x1x200
  slices_S1x500x32_o0_0_13_S1x500x1 : S1x500x32.Slices ![0, 0, 13] S1x500x1
  slices_S1x32x200_o0_13_0_S1x1x200 : S1x32x200.Slices ![0, 13, 0] S1x1x200
  slices_S1x500x32_o0_0_14_S1x500x1 : S1x500x32.Slices ![0, 0, 14] S1x500x1
  slices_S1x32x200_o0_14_0_S1x1x200 : S1x32x200.Slices ![0, 14, 0] S1x1x200
  slices_S1x500x32_o0_0_15_S1x500x1 : S1x500x32.Slices ![0, 0, 15] S1x500x1
  slices_S1x32x200_o0_15_0_S1x1x200 : S1x32x200.Slices ![0, 15, 0] S1x1x200
  slices_S1x500x32_o0_0_16_S1x500x1 : S1x500x32.Slices ![0, 0, 16] S1x500x1
  slices_S1x32x200_o0_16_0_S1x1x200 : S1x32x200.Slices ![0, 16, 0] S1x1x200
  slices_S1x500x32_o0_0_17_S1x500x1 : S1x500x32.Slices ![0, 0, 17] S1x500x1
  slices_S1x32x200_o0_17_0_S1x1x200 : S1x32x200.Slices ![0, 17, 0] S1x1x200
  slices_S1x500x32_o0_0_18_S1x500x1 : S1x500x32.Slices ![0, 0, 18] S1x500x1
  slices_S1x32x200_o0_18_0_S1x1x200 : S1x32x200.Slices ![0, 18, 0] S1x1x200
  slices_S1x500x32_o0_0_19_S1x500x1 : S1x500x32.Slices ![0, 0, 19] S1x500x1
  slices_S1x32x200_o0_19_0_S1x1x200 : S1x32x200.Slices ![0, 19, 0] S1x1x200
  slices_S1x500x32_o0_0_20_S1x500x1 : S1x500x32.Slices ![0, 0, 20] S1x500x1
  slices_S1x32x200_o0_20_0_S1x1x200 : S1x32x200.Slices ![0, 20, 0] S1x1x200
  slices_S1x500x32_o0_0_21_S1x500x1 : S1x500x32.Slices ![0, 0, 21] S1x500x1
  slices_S1x32x200_o0_21_0_S1x1x200 : S1x32x200.Slices ![0, 21, 0] S1x1x200
  slices_S1x500x32_o0_0_22_S1x500x1 : S1x500x32.Slices ![0, 0, 22] S1x500x1
  slices_S1x32x200_o0_22_0_S1x1x200 : S1x32x200.Slices ![0, 22, 0] S1x1x200
  slices_S1x500x32_o0_0_23_S1x500x1 : S1x500x32.Slices ![0, 0, 23] S1x500x1
  slices_S1x32x200_o0_23_0_S1x1x200 : S1x32x200.Slices ![0, 23, 0] S1x1x200
  slices_S1x500x32_o0_0_24_S1x500x1 : S1x500x32.Slices ![0, 0, 24] S1x500x1
  slices_S1x32x200_o0_24_0_S1x1x200 : S1x32x200.Slices ![0, 24, 0] S1x1x200
  slices_S1x500x32_o0_0_25_S1x500x1 : S1x500x32.Slices ![0, 0, 25] S1x500x1
  slices_S1x32x200_o0_25_0_S1x1x200 : S1x32x200.Slices ![0, 25, 0] S1x1x200
  slices_S1x500x32_o0_0_26_S1x500x1 : S1x500x32.Slices ![0, 0, 26] S1x500x1
  slices_S1x32x200_o0_26_0_S1x1x200 : S1x32x200.Slices ![0, 26, 0] S1x1x200
  slices_S1x500x32_o0_0_27_S1x500x1 : S1x500x32.Slices ![0, 0, 27] S1x500x1
  slices_S1x32x200_o0_27_0_S1x1x200 : S1x32x200.Slices ![0, 27, 0] S1x1x200
  slices_S1x500x32_o0_0_28_S1x500x1 : S1x500x32.Slices ![0, 0, 28] S1x500x1
  slices_S1x32x200_o0_28_0_S1x1x200 : S1x32x200.Slices ![0, 28, 0] S1x1x200
  slices_S1x500x32_o0_0_29_S1x500x1 : S1x500x32.Slices ![0, 0, 29] S1x500x1
  slices_S1x32x200_o0_29_0_S1x1x200 : S1x32x200.Slices ![0, 29, 0] S1x1x200
  slices_S1x500x32_o0_0_30_S1x500x1 : S1x500x32.Slices ![0, 0, 30] S1x500x1
  slices_S1x32x200_o0_30_0_S1x1x200 : S1x32x200.Slices ![0, 30, 0] S1x1x200
  slices_S1x500x32_o0_0_31_S1x500x1 : S1x500x32.Slices ![0, 0, 31] S1x500x1
  slices_S1x32x200_o0_31_0_S1x1x200 : S1x32x200.Slices ![0, 31, 0] S1x1x200
  slices_S1x500x4_o0_0_0_S1x500x1 : S1x500x4.Slices ![0, 0, 0] S1x500x1
  slices_S1x500x4_o0_0_1_S1x500x1 : S1x500x4.Slices ![0, 0, 1] S1x500x1
  slices_S1x500x4_o0_0_2_S1x500x1 : S1x500x4.Slices ![0, 0, 2] S1x500x1
  slices_S1x500x4_o0_0_3_S1x500x1 : S1x500x4.Slices ![0, 0, 3] S1x500x1
  slices_S1x200x4_o0_0_0_S1x200x1 : S1x200x4.Slices ![0, 0, 0] S1x200x1
  shapeCasts_S1x200x1_S1x200 : S1x200x1.ShapeCasts S1x200
  shapeCasts_S1x200_S1x1x200 : S1x200.ShapeCasts S1x1x200
  slices_S1x200x4_o0_0_1_S1x200x1 : S1x200x4.Slices ![0, 0, 1] S1x200x1
  slices_S1x200x4_o0_0_2_S1x200x1 : S1x200x4.Slices ![0, 0, 2] S1x200x1
  slices_S1x200x4_o0_0_3_S1x200x1 : S1x200x4.Slices ![0, 0, 3] S1x200x1
  inb_S1x500x200_S1x500x200_0_0_0 : ∀ a, (![0, 0, 0] : Fin 3 → Nat) a + S1x500x200.size a ≤ S1x500x200.size a
  h_S1x500x200 : 0 < S1x500x200.numel
  dot_S1x500x92_S1x200x92_S1x500x200_2_2_1_1_0_0_wf : DotDims.WF S1x500x92 S1x200x92 S1x500x200 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x500x92.size a ≤ S32x500x92.size a
  hwx0_0 : ∀ i : grid0.Coords, EltTy.bits .f32 = 32 ∨ (Rect.block (s := S32x500x92) S1x500x92.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x500x32.size a ≤ S32x500x32.size a
  hwx0_1 : ∀ i : grid0.Coords, EltTy.bits .f32 = 32 ∨ (Rect.block (s := S32x500x32) S1x500x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x200.size a ≤ S32x32x200.size a
  hwx0_2 : ∀ i : grid0.Coords, EltTy.bits .f32 = 32 ∨ (Rect.block (s := S32x32x200) S1x32x200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x200.size a ≤ S32x32x200.size a
  hwx0_3 : ∀ i : grid0.Coords, EltTy.bits .f32 = 32 ∨ (Rect.block (s := S32x32x200) S1x32x200.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x500x4.size a ≤ S32x500x4.size a
  hwx0_4 : ∀ i : grid0.Coords, EltTy.bits .f32 = 32 ∨ (Rect.block (s := S32x500x4) S1x500x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x200x4.size a ≤ S32x200x4.size a
  hwx0_5 : ∀ i : grid0.Coords, EltTy.bits .f32 = 32 ∨ (Rect.block (s := S32x200x4) S1x200x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x200x1.size a ≤ S32x200x1.size a
  hwx0_6 : ∀ i : grid0.Coords, EltTy.bits .i32 = 32 ∨ (Rect.block (s := S32x200x1) S1x200x1.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x500x200.size a ≤ S32x500x200.size a
  hwx0_7 : ∀ i : grid0.Coords, EltTy.bits .f32 = 32 ∨ (Rect.block (s := S32x500x200) S1x500x200.size (cc0_transform_7 i) (hinb0_7 i)).WholeWords (EltTy.packing .f32)

variable [Facts₀]

def dot_S1x500x92_S1x200x92_S1x500x200_2_2_1_1_0_0 : DotDims S1x500x92 S1x200x92 S1x500x200 where
  lhsContracting := [2]
  rhsContracting := [2]
  lhsNonContracting := [1]
  rhsNonContracting := [1]
  lhsBatch := [0]
  rhsBatch := [0]
  wf := dot_S1x500x92_S1x200x92_S1x500x200_2_2_1_1_0_0_wf

abbrev win0_0 : Pipeline.Window sig grid0 :=
  Pipeline.Window.ofSpec (Memref.whole main_arg0) S1x500x92.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x500x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x32x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x32x200.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x500x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1x200x4.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x200x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v33) S1x500x200.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x500x92 : Shape := ⟨3, ![32, 500, 92]⟩
abbrev S32x500x16x2 : Shape := ⟨4, ![32, 500, 16, 2]⟩
abbrev S32x200 : Shape := ⟨2, ![32, 200]⟩
abbrev S32x200x16x2 : Shape := ⟨4, ![32, 200, 16, 2]⟩
abbrev S_ : Shape := ⟨0, ![]⟩
abbrev S32x500 : Shape := ⟨2, ![32, 500]⟩
abbrev S32x500x1 : Shape := ⟨3, ![32, 500, 1]⟩
abbrev S32x1x200 : Shape := ⟨3, ![32, 1, 200]⟩
abbrev S32x500x200 : Shape := ⟨3, ![32, 500, 200]⟩
abbrev S32x500x200x1 : Shape := ⟨4, ![32, 500, 200, 1]⟩
abbrev S1 : Shape := ⟨1, ![1]⟩
abbrev S1x1x1x1 : Shape := ⟨4, ![1, 1, 1, 1]⟩
abbrev S32x500x32 : Shape := ⟨3, ![32, 500, 32]⟩
abbrev S32x200x32 : Shape := ⟨3, ![32, 200, 32]⟩
abbrev S32x500x1x32 : Shape := ⟨4, ![32, 500, 1, 32]⟩
abbrev S32x1x200x32 : Shape := ⟨4, ![32, 1, 200, 32]⟩
abbrev S32x500x200x32 : Shape := ⟨4, ![32, 500, 200, 32]⟩
abbrev S32x500x16x1 : Shape := ⟨4, ![32, 500, 16, 1]⟩
abbrev S32x500x16 : Shape := ⟨3, ![32, 500, 16]⟩
abbrev S32x500x4 : Shape := ⟨3, ![32, 500, 4]⟩
abbrev S32x200x16x1 : Shape := ⟨4, ![32, 200, 16, 1]⟩
abbrev S32x200x16 : Shape := ⟨3, ![32, 200, 16]⟩
abbrev S32x200x1 : Shape := ⟨3, ![32, 200, 1]⟩
abbrev S32x200x4 : Shape := ⟨3, ![32, 200, 4]⟩
abbrev S32x500x2 : Shape := ⟨3, ![32, 500, 2]⟩
abbrev S32x500x1x2 : Shape := ⟨4, ![32, 500, 1, 2]⟩
abbrev S32x200x2 : Shape := ⟨3, ![32, 200, 2]⟩
abbrev S32x1x200x2 : Shape := ⟨4, ![32, 1, 200, 2]⟩
abbrev S32x500x200x2 : Shape := ⟨4, ![32, 500, 200, 2]⟩

abbrev nBuf : Space → Nat
  | .hbm => 218
  | .vmem => 0
  | .smem => 0
  | _ => 0

abbrev hbmTy0_0 (i : Nat) : BufTy := match i % 128 with
  | 0 => ⟨S32x500x92, .f32⟩
  | 1 => ⟨S32x500x16x2, .f32⟩
  | 2 => ⟨S32x200, .i32⟩
  | 3 => ⟨S32x200x16x2, .f32⟩
  | 4 => ⟨S_, .f32⟩
  | 5 => ⟨S32x500, .f32⟩
  | 6 => ⟨S_, .f32⟩
  | 7 => ⟨S32x500, .f32⟩
  | 8 => ⟨S32x500, .f32⟩
  | 9 => ⟨S32x500x1, .f32⟩
  | 10 => ⟨S32x500x92, .f32⟩
  | 11 => ⟨S32x500x92, .f32⟩
  | 12 => ⟨S32x500x92, .f32⟩
  | 13 => ⟨S_, .f32⟩
  | 14 => ⟨S32x500, .f32⟩
  | 15 => ⟨S32x500x1, .f32⟩
  | 16 => ⟨S32x500x92, .f32⟩
  | 17 => ⟨S32x500x92, .f32⟩
  | 18 => ⟨S32x1x200, .i32⟩
  | 19 => ⟨S32x500x200, .i32⟩
  | 20 => ⟨S_, .i32⟩
  | 21 => ⟨S32x500x200, .i32⟩
  | 22 => ⟨S32x500x200, .i1⟩
  | 23 => ⟨S_, .i32⟩
  | 24 => ⟨S32x500x200, .i32⟩
  | 25 => ⟨S32x500x200, .i32⟩
  | 26 => ⟨S32x500x200, .i32⟩
  | 27 => ⟨S32x500x200x1, .i32⟩
  | 28 => ⟨S1, .i32⟩
  | 29 => ⟨S_, .i32⟩
  | 30 => ⟨S32x500x200x1, .i32⟩
  | 31 => ⟨S32x500x200x1, .i1⟩
  | 32 => ⟨S1x1x1x1, .i32⟩
  | 33 => ⟨S32x500x200x1, .i32⟩
  | 34 => ⟨S32x500x200x1, .i1⟩
  | 35 => ⟨S32x500x200x1, .i1⟩
  | 36 => ⟨S_, .i1⟩
  | 37 => ⟨S32x500x200, .i1⟩
  | 38 => ⟨S32x500x200, .f32⟩
  | 39 => ⟨S_, .f32⟩
  | 40 => ⟨S32x500x200, .f32⟩
  | 41 => ⟨S32x500x200, .f32⟩
  | 42 => ⟨S32x500x200, .f32⟩
  | 43 => ⟨S32x500x32, .f32⟩
  | 44 => ⟨S32x200x32, .f32⟩
  | 45 => ⟨S32x200x16x2, .f32⟩
  | 46 => ⟨S32x200x32, .f32⟩
  | 47 => ⟨S32x500x1x32, .f32⟩
  | 48 => ⟨S32x1x200x32, .f32⟩
  | 49 => ⟨S32x500x200x32, .f32⟩
  | 50 => ⟨S32x500x200x32, .f32⟩
  | 51 => ⟨S32x500x200x32, .f32⟩
  | 52 => ⟨S32x500x200x32, .f32⟩
  | 53 => ⟨S_, .f32⟩
  | 54 => ⟨S32x500x200, .f32⟩
  | 55 => ⟨S_, .f32⟩
  | 56 => ⟨S32x500x200, .f32⟩
  | 57 => ⟨S32x500x200, .f32⟩
  | 58 => ⟨S32x500x1x32, .f32⟩
  | 59 => ⟨S32x1x200x32, .f32⟩
  | 60 => ⟨S32x500x200x32, .f32⟩
  | 61 => ⟨S32x500x200x32, .f32⟩
  | 62 => ⟨S32x500x200x32, .f32⟩
  | 63 => ⟨S32x500x200x32, .f32⟩
  | 64 => ⟨S_, .f32⟩
  | 65 => ⟨S32x500x200, .f32⟩
  | 66 => ⟨S_, .f32⟩
  | 67 => ⟨S32x500x200, .f32⟩
  | 68 => ⟨S32x500x200, .f32⟩
  | 69 => ⟨S32x500x200, .f32⟩
  | 70 => ⟨S32x500x16x1, .f32⟩
  | 71 => ⟨S32x500x16, .f32⟩
  | 72 => ⟨S32x500x16x1, .f32⟩
  | 73 => ⟨S32x500x16, .f32⟩
  | 74 => ⟨S_, .f32⟩
  | 75 => ⟨S32x500, .f32⟩
  | 76 => ⟨S_, .f32⟩
  | 77 => ⟨S32x500, .f32⟩
  | 78 => ⟨S_, .f32⟩
  | 79 => ⟨S32x500, .f32⟩
  | 80 => ⟨S_, .f32⟩
  | 81 => ⟨S32x500, .f32⟩
  | 82 => ⟨S32x500x1, .f32⟩
  | 83 => ⟨S32x500x1, .f32⟩
  | 84 => ⟨S32x500x1, .f32⟩
  | 85 => ⟨S32x500x1, .f32⟩
  | 86 => ⟨S32x500x4, .f32⟩
  | 87 => ⟨S32x200x16x1, .f32⟩
  | 88 => ⟨S32x200x16, .f32⟩
  | 89 => ⟨S32x200x16x1, .f32⟩
  | 90 => ⟨S32x200x16, .f32⟩
  | 91 => ⟨S_, .f32⟩
  | 92 => ⟨S32x200, .f32⟩
  | 93 => ⟨S_, .f32⟩
  | 94 => ⟨S32x200, .f32⟩
  | 95 => ⟨S_, .f32⟩
  | 96 => ⟨S32x200, .f32⟩
  | 97 => ⟨S_, .f32⟩
  | 98 => ⟨S32x200, .f32⟩
  | 99 => ⟨S32x200x1, .f32⟩
  | 100 => ⟨S32x200x1, .f32⟩
  | 101 => ⟨S32x200x1, .f32⟩
  | 102 => ⟨S32x200x1, .f32⟩
  | 103 => ⟨S32x200x4, .f32⟩
  | 104 => ⟨S32x500x1, .f32⟩
  | 105 => ⟨S32x500, .f32⟩
  | 106 => ⟨S32x500x1, .f32⟩
  | 107 => ⟨S32x500, .f32⟩
  | 108 => ⟨S32x500, .f32⟩
  | 109 => ⟨S_, .i32⟩
  | 110 => ⟨S_, .f32⟩
  | 111 => ⟨S32x500, .f32⟩
  | 112 => ⟨S32x500, .f32⟩
  | 113 => ⟨S32x500x1, .f32⟩
  | 114 => ⟨S32x500, .f32⟩
  | 115 => ⟨S32x500x1, .f32⟩
  | 116 => ⟨S32x500, .f32⟩
  | 117 => ⟨S32x500, .f32⟩
  | 118 => ⟨S_, .i32⟩
  | 119 => ⟨S_, .f32⟩
  | 120 => ⟨S32x500, .f32⟩
  | 121 => ⟨S32x500, .f32⟩
  | 122 => ⟨S32x500, .f32⟩
  | 123 => ⟨S32x200x1, .f32⟩
  | 124 => ⟨S32x200, .f32⟩
  | 125 => ⟨S32x200x1, .f32⟩
  | 126 => ⟨S32x200, .f32⟩
  | 127 => ⟨S32x200, .f32⟩
  | _ => ⟨S32x500x92, .f32⟩

abbrev hbmTy0_1 (i : Nat) : BufTy := match i % 128 with
  | 0 => ⟨S_, .i32⟩
  | 1 => ⟨S_, .f32⟩
  | 2 => ⟨S32x200, .f32⟩
  | 3 => ⟨S32x200, .f32⟩
  | 4 => ⟨S32x200x1, .f32⟩
  | 5 => ⟨S32x200, .f32⟩
  | 6 => ⟨S32x200x1, .f32⟩
  | 7 => ⟨S32x200, .f32⟩
  | 8 => ⟨S32x200, .f32⟩
  | 9 => ⟨S_, .i32⟩
  | 10 => ⟨S_, .f32⟩
  | 11 => ⟨S32x200, .f32⟩
  | 12 => ⟨S32x200, .f32⟩
  | 13 => ⟨S32x200, .f32⟩
  | 14 => ⟨S32x500x2, .f32⟩
  | 15 => ⟨S32x500x1x2, .f32⟩
  | 16 => ⟨S32x200x2, .f32⟩
  | 17 => ⟨S32x1x200x2, .f32⟩
  | 18 => ⟨S32x500x200x2, .f32⟩
  | 19 => ⟨S32x500x200x2, .f32⟩
  | 20 => ⟨S32x500x200x2, .f32⟩
  | 21 => ⟨S32x500x2, .f32⟩
  | 22 => ⟨S32x500x1x2, .f32⟩
  | 23 => ⟨S32x200x2, .f32⟩
  | 24 => ⟨S32x1x200x2, .f32⟩
  | 25 => ⟨S32x500x200x2, .f32⟩
  | 26 => ⟨S32x500x200x2, .f32⟩
  | 27 => ⟨S32x500x200x2, .f32⟩
  | 28 => ⟨S32x500x200x2, .f32⟩
  | 29 => ⟨S_, .i32⟩
  | 30 => ⟨S_, .f32⟩
  | 31 => ⟨S32x500x200x2, .f32⟩
  | 32 => ⟨S32x500x200x2, .f32⟩
  | 33 => ⟨S32x500x200x1, .f32⟩
  | 34 => ⟨S32x500x200, .f32⟩
  | 35 => ⟨S32x500x200x1, .f32⟩
  | 36 => ⟨S32x500x200, .f32⟩
  | 37 => ⟨S32x500x200, .f32⟩
  | 38 => ⟨S32x500x1, .f32⟩
  | 39 => ⟨S32x1x200, .f32⟩
  | 40 => ⟨S32x500x200, .f32⟩
  | 41 => ⟨S32x500x200, .f32⟩
  | 42 => ⟨S32x500x200, .f32⟩
  | 43 => ⟨S32x500x200, .f32⟩
  | 44 => ⟨S_, .f32⟩
  | 45 => ⟨S32x500x200, .f32⟩
  | 46 => ⟨S32x500x200, .f32⟩
  | 47 => ⟨S32x500x200, .f32⟩
  | 48 => ⟨S32x500x2, .f32⟩
  | 49 => ⟨S32x500x1x2, .f32⟩
  | 50 => ⟨S32x200x2, .f32⟩
  | 51 => ⟨S32x1x200x2, .f32⟩
  | 52 => ⟨S32x500x200x2, .f32⟩
  | 53 => ⟨S32x500x200x2, .f32⟩
  | 54 => ⟨S32x500x200x2, .f32⟩
  | 55 => ⟨S32x500x2, .f32⟩
  | 56 => ⟨S32x500x1x2, .f32⟩
  | 57 => ⟨S32x200x2, .f32⟩
  | 58 => ⟨S32x1x200x2, .f32⟩
  | 59 => ⟨S32x500x200x2, .f32⟩
  | 60 => ⟨S32x500x200x2, .f32⟩
  | 61 => ⟨S32x500x200x2, .f32⟩
  | 62 => ⟨S32x500x200x2, .f32⟩
  | 63 => ⟨S_, .i32⟩
  | 64 => ⟨S_, .f32⟩
  | 65 => ⟨S32x500x200x2, .f32⟩
  | 66 => ⟨S32x500x200x2, .f32⟩
  | 67 => ⟨S32x500x200x1, .f32⟩
  | 68 => ⟨S32x500x200, .f32⟩
  | 69 => ⟨S32x500x200x1, .f32⟩
  | 70 => ⟨S32x500x200, .f32⟩
  | 71 => ⟨S32x500x200, .f32⟩
  | 72 => ⟨S32x500x200, .f32⟩
  | 73 => ⟨S_, .f32⟩
  | 74 => ⟨S32x500x200, .f32⟩
  | 75 => ⟨S32x500x200, .f32⟩
  | 76 => ⟨S32x500x200, .f32⟩
  | 77 => ⟨S32x500x200, .f32⟩
  | 78 => ⟨S32x500x200, .f32⟩
  | 79 => ⟨S_, .f32⟩
  | 80 => ⟨S32x500x200, .f32⟩
  | 81 => ⟨S32x500x200, .f32⟩
  | 82 => ⟨S_, .f32⟩
  | 83 => ⟨S32x500x200, .f32⟩
  | 84 => ⟨S32x500x200, .f32⟩
  | 85 => ⟨S32x500x200, .f32⟩
  | 86 => ⟨S_, .f32⟩
  | 87 => ⟨S32x500x200, .f32⟩
  | 88 => ⟨S32x500x200, .f32⟩
  | 89 => ⟨S32x500x200, .f32⟩
  | _ => ⟨S32x500x92, .f32⟩

abbrev hbmTy (i : Nat) : BufTy := match i / 128 with
  | 0 => hbmTy0_0 i
  | 1 => hbmTy0_1 i
  | _ => ⟨S32x500x92, .f32⟩

abbrev bufTy : (tb : Table) → Fin (tcTables nBuf tb) → BufTy
  | .hbm, ⟨i, _⟩ => hbmTy i
  | _, _ => ⟨S32x500x92, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_2 : Ref sig .tc := ⟨.hbm, 53, rfl⟩
abbrev main_v25 : Ref sig .tc := ⟨.hbm, 54, rfl⟩
abbrev main_cst_3 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_4 : Ref sig .tc := ⟨.hbm, 64, rfl⟩
abbrev main_v34 : Ref sig .tc := ⟨.hbm, 65, rfl⟩
abbrev main_cst_5 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_6 : Ref sig .tc := ⟨.hbm, 74, rfl⟩
abbrev main_v42 : Ref sig .tc := ⟨.hbm, 75, rfl⟩
abbrev main_cst_7 : Ref sig .tc := ⟨.hbm, 76, rfl⟩
abbrev main_v43 : Ref sig .tc := ⟨.hbm, 77, rfl⟩
abbrev main_cst_8 : Ref sig .tc := ⟨.hbm, 78, rfl⟩
abbrev main_v44 : Ref sig .tc := ⟨.hbm, 79, rfl⟩
abbrev main_cst_9 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_10 : Ref sig .tc := ⟨.hbm, 91, rfl⟩
abbrev main_v55 : Ref sig .tc := ⟨.hbm, 92, rfl⟩
abbrev main_cst_11 : Ref sig .tc := ⟨.hbm, 93, rfl⟩
abbrev main_v56 : Ref sig .tc := ⟨.hbm, 94, rfl⟩
abbrev main_cst_12 : Ref sig .tc := ⟨.hbm, 95, rfl⟩
abbrev main_v57 : Ref sig .tc := ⟨.hbm, 96, rfl⟩
abbrev main_cst_13 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_c : Ref sig .tc := ⟨.hbm, 109, rfl⟩
abbrev main_call2_v0 : Ref sig .tc := ⟨.hbm, 110, rfl⟩
abbrev main_call2_v1 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_c_14 : Ref sig .tc := ⟨.hbm, 118, rfl⟩
abbrev main_call3_v0 : Ref sig .tc := ⟨.hbm, 119, rfl⟩
abbrev main_call3_v1 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_c_15 : Ref sig .tc := ⟨.hbm, 128, rfl⟩
abbrev main_call4_v0 : Ref sig .tc := ⟨.hbm, 129, rfl⟩
abbrev main_call4_v1 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_c_16 : Ref sig .tc := ⟨.hbm, 137, rfl⟩
abbrev main_call5_v0 : Ref sig .tc := ⟨.hbm, 138, rfl⟩
abbrev main_call5_v1 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_c_17 : Ref sig .tc := ⟨.hbm, 157, rfl⟩
abbrev main_call6_v0 : Ref sig .tc := ⟨.hbm, 158, rfl⟩
abbrev main_call6_v1 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_cst_18 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_c_19 : Ref sig .tc := ⟨.hbm, 191, rfl⟩
abbrev main_call7_v0 : Ref sig .tc := ⟨.hbm, 192, rfl⟩
abbrev main_call7_v1 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_cst_20 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_cst_21 : Ref sig .tc := ⟨.hbm, 207, rfl⟩
abbrev main_v147 : Ref sig .tc := ⟨.hbm, 208, rfl⟩
abbrev main_v148 : Ref sig .tc := ⟨.hbm, 209, rfl⟩
abbrev main_cst_22 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_cst_23 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩

abbrev nD : Nat := 1
abbrev τ : Topo := Topo.v7x

variable {F : FTy → Type} [FloatOps F]

class Facts₀ : Prop where
  reducesTo_S32x500x92_S32x500_d2 : S32x500x92.ReducesTo [2] S32x500
  h_S_ : 0 < S_.numel
  bcast_S_S32x500 : S_.BroadcastsInDim S32x500 (![] : Fin 0 → Fin S32x500.rank)
  bcast_S32x500_S32x500x1_0_1 : S32x500.BroadcastsInDim S32x500x1 (![0, 1] : Fin 2 → Fin S32x500x1.rank)
  bcast_S32x500x1_S32x500x92_0_1_2 : S32x500x1.BroadcastsInDim S32x500x92 (![0, 1, 2] : Fin 3 → Fin S32x500x92.rank)
  bcast_S32x200_S32x1x200_0_2 : S32x200.BroadcastsInDim S32x1x200 (![0, 2] : Fin 2 → Fin S32x1x200.rank)
  bcast_S32x1x200_S32x500x200_0_1_2 : S32x1x200.BroadcastsInDim S32x500x200 (![0, 1, 2] : Fin 3 → Fin S32x500x200.rank)
  bcast_S_S32x500x200 : S_.BroadcastsInDim S32x500x200 (![] : Fin 0 → Fin S32x500x200.rank)
  shapeCasts_S32x500x200_S32x500x200x1 : S32x500x200.ShapeCasts S32x500x200x1
  bcast_S_S32x500x200x1 : S_.BroadcastsInDim S32x500x200x1 (![] : Fin 0 → Fin S32x500x200x1.rank)
  bcast_S1_S1x1x1x1_3 : S1.BroadcastsInDim S1x1x1x1 (![3] : Fin 1 → Fin S1x1x1x1.rank)
  bcast_S1x1x1x1_S32x500x200x1_0_1_2_3 : S1x1x1x1.BroadcastsInDim S32x500x200x1 (![0, 1, 2, 3] : Fin 4 → Fin S32x500x200x1.rank)
  reducesTo_S32x500x200x1_S32x500x200_d3 : S32x500x200x1.ReducesTo [3] S32x500x200
  shapeCasts_S32x500x16x2_S32x500x32 : S32x500x16x2.ShapeCasts S32x500x32
  shapeCasts_S32x200x16x2_S32x200x32 : S32x200x16x2.ShapeCasts S32x200x32
  bcast_S32x500x32_S32x500x1x32_0_1_3 : S32x500x32.BroadcastsInDim S32x500x1x32 (![0, 1, 3] : Fin 3 → Fin S32x500x1x32.rank)
  bcast_S32x200x32_S32x1x200x32_0_2_3 : S32x200x32.BroadcastsInDim S32x1x200x32 (![0, 2, 3] : Fin 3 → Fin S32x1x200x32.rank)
  bcast_S32x500x1x32_S32x500x200x32_0_1_2_3 : S32x500x1x32.BroadcastsInDim S32x500x200x32 (![0, 1, 2, 3] : Fin 4 → Fin S32x500x200x32.rank)
  bcast_S32x1x200x32_S32x500x200x32_0_1_2_3 : S32x1x200x32.BroadcastsInDim S32x500x200x32 (![0, 1, 2, 3] : Fin 4 → Fin S32x500x200x32.rank)
  reducesTo_S32x500x200x32_S32x500x200_d3 : S32x500x200x32.ReducesTo [3] S32x500x200
  slices_S32x500x16x2_S32x500x16x1_0_0_0_0 : S32x500x16x2.Slices ![0, 0, 0, 0] S32x500x16x1
  shapeCasts_S32x500x16x1_S32x500x16 : S32x500x16x1.ShapeCasts S32x500x16
  slices_S32x500x16x2_S32x500x16x1_0_0_0_1 : S32x500x16x2.Slices ![0, 0, 0, 1] S32x500x16x1
  reducesTo_S32x500x16_S32x500_d2 : S32x500x16.ReducesTo [2] S32x500
  concatenates_S32x500x1_S32x500x1_S32x500x1_S32x500x1_S32x500x4_d2 : Shape.Concatenates [S32x500x1, S32x500x1, S32x500x1, S32x500x1] S32x500x4 2
  slices_S32x200x16x2_S32x200x16x1_0_0_0_0 : S32x200x16x2.Slices ![0, 0, 0, 0] S32x200x16x1
  shapeCasts_S32x200x16x1_S32x200x16 : S32x200x16x1.ShapeCasts S32x200x16
  slices_S32x200x16x2_S32x200x16x1_0_0_0_1 : S32x200x16x2.Slices ![0, 0, 0, 1] S32x200x16x1
  reducesTo_S32x200x16_S32x200_d2 : S32x200x16.ReducesTo [2] S32x200
  bcast_S32x200_S32x200x1_0_1 : S32x200.BroadcastsInDim S32x200x1 (![0, 1] : Fin 2 → Fin S32x200x1.rank)
  concatenates_S32x200x1_S32x200x1_S32x200x1_S32x200x1_S32x200x4_d2 : Shape.Concatenates [S32x200x1, S32x200x1, S32x200x1, S32x200x1] S32x200x4 2
  slices_S32x500x4_S32x500x1_0_0_2 : S32x500x4.Slices ![0, 0, 2] S32x500x1
  shapeCasts_S32x500x1_S32x500 : S32x500x1.ShapeCasts S32x500
  slices_S32x500x4_S32x500x1_0_0_0 : S32x500x4.Slices ![0, 0, 0] S32x500x1
  slices_S32x500x4_S32x500x1_0_0_3 : S32x500x4.Slices ![0, 0, 3] S32x500x1
  slices_S32x500x4_S32x500x1_0_0_1 : S32x500x4.Slices ![0, 0, 1] S32x500x1
  slices_S32x200x4_S32x200x1_0_0_2 : S32x200x4.Slices ![0, 0, 2] S32x200x1
  shapeCasts_S32x200x1_S32x200 : S32x200x1.ShapeCasts S32x200
  slices_S32x200x4_S32x200x1_0_0_0 : S32x200x4.Slices ![0, 0, 0] S32x200x1
  bcast_S_S32x200 : S_.BroadcastsInDim S32x200 (![] : Fin 0 → Fin S32x200.rank)
  slices_S32x200x4_S32x200x1_0_0_3 : S32x200x4.Slices ![0, 0, 3] S32x200x1
  slices_S32x200x4_S32x200x1_0_0_1 : S32x200x4.Slices ![0, 0, 1] S32x200x1
  slices_S32x500x4_S32x500x2_0_0_0 : S32x500x4.Slices ![0, 0, 0] S32x500x2
  bcast_S32x500x2_S32x500x1x2_0_1_3 : S32x500x2.BroadcastsInDim S32x500x1x2 (![0, 1, 3] : Fin 3 → Fin S32x500x1x2.rank)
  slices_S32x200x4_S32x200x2_0_0_0 : S32x200x4.Slices ![0, 0, 0] S32x200x2
  bcast_S32x200x2_S32x1x200x2_0_2_3 : S32x200x2.BroadcastsInDim S32x1x200x2 (![0, 2, 3] : Fin 3 → Fin S32x1x200x2.rank)
  bcast_S32x500x1x2_S32x500x200x2_0_1_2_3 : S32x500x1x2.BroadcastsInDim S32x500x200x2 (![0, 1, 2, 3] : Fin 4 → Fin S32x500x200x2.rank)
  bcast_S32x1x200x2_S32x500x200x2_0_1_2_3 : S32x1x200x2.BroadcastsInDim S32x500x200x2 (![0, 1, 2, 3] : Fin 4 → Fin S32x500x200x2.rank)
  slices_S32x500x4_S32x500x2_0_0_2 : S32x500x4.Slices ![0, 0, 2] S32x500x2
  slices_S32x200x4_S32x200x2_0_0_2 : S32x200x4.Slices ![0, 0, 2] S32x200x2
  bcast_S_S32x500x200x2 : S_.BroadcastsInDim S32x500x200x2 (![] : Fin 0 → Fin S32x500x200x2.rank)
  slices_S32x500x200x2_S32x500x200x1_0_0_0_0 : S32x500x200x2.Slices ![0, 0, 0, 0] S32x500x200x1
  shapeCasts_S32x500x200x1_S32x500x200 : S32x500x200x1.ShapeCasts S32x500x200
  slices_S32x500x200x2_S32x500x200x1_0_0_0_1 : S32x500x200x2.Slices ![0, 0, 0, 1] S32x500x200x1
  bcast_S32x500x1_S32x500x200_0_1_2 : S32x500x1.BroadcastsInDim S32x500x200 (![0, 1, 2] : Fin 3 → Fin S32x500x200.rank)
  gather_S32x500x92_S32x500x200x1_S32x500x200_n_2_01_01_2_3_111_wf : GatherDims.WF S32x500x92 S32x500x200x1 S32x500x200 [] [2] [0, 1] [2] [0, 1] 3 ![1, 1, 1]

variable [Facts₀]

def gather_S32x500x92_S32x500x200x1_S32x500x200_n_2_01_01_2_3_111 : GatherDims S32x500x92 S32x500x200x1 S32x500x200 where
  offsetDims := []
  collapsedSliceDims := [2]
  operandBatchingDims := [0, 1]
  startIndicesBatchingDims := [0, 1]
  startIndexMap := [2]
  indexVectorDim := 3
  sliceSizes := ![1, 1, 1]
  wf := gather_S32x500x92_S32x500x200x1_S32x500x200_n_2_01_01_2_3_111_wf

class Facts : Prop extends Facts₀ where

variable [Facts]
-- ==== Proof.FrameBits.lean ====
/-
  The frame of the cost-matrix program: it runs to the end, faults nowhere and leaves its four argument arrays as they
  were. The program is host operations (reshapes, a reversal, transposes, slices, row minima and maxima, two
  concatenations, a broadcast of the labels), then one grid of 32 points, one batch element each. At a point the body
  loads the whole block of each of its seven input windows, computes, and stores the whole block [1, 500, 200] of its
  one output window: the block's contents after the body are one pure function (`bodyVal`) of the seven input blocks.
  Everything here holds at any number format `F`.
-/
import proofs.«402434_j86990267613642_3_alg».proof.Proof.Gen.Kernel.Launch
import proofs.«402434_j86990267613642_3_alg».proof.Proof.Gen.Kernel.Skeleton
import proofs.«402434_j86990267613642_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one grid -/

/-- Core `c`'s buffers when the grid is entered: the launch memory after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program is its host operations, stretch by stretch, then the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whenever the body leaves the block in
    place: every input window is fetched at every point, none is cut or idle. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the grid -/

/-- The logits' array is window 0's, an input the grid only reads; the other three arguments are staged by no window and
    written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## What the body stores -/

abbrev rLogits : Rect S1x500x92 := Rect.unit (s := S1x500x92) ![0, 0, 0] S1x500x92.size inb_S1x500x92_S1x500x92_0_0_0
abbrev rPred : Rect S1x500x32 := Rect.unit (s := S1x500x32) ![0, 0, 0] S1x500x32.size inb_S1x500x32_S1x500x32_0_0_0
abbrev rTgt : Rect S1x32x200 := Rect.unit (s := S1x32x200) ![0, 0, 0] S1x32x200.size inb_S1x32x200_S1x32x200_0_0_0
abbrev rPBox : Rect S1x500x4 := Rect.unit (s := S1x500x4) ![0, 0, 0] S1x500x4.size inb_S1x500x4_S1x500x4_0_0_0
abbrev rTBox : Rect S1x200x4 := Rect.unit (s := S1x200x4) ![0, 0, 0] S1x200x4.size inb_S1x200x4_S1x200x4_0_0_0
abbrev rLab : Rect S1x200x1 := Rect.unit (s := S1x200x1) ![0, 0, 0] S1x200x1.size inb_S1x200x1_S1x200x1_0_0_0
abbrev rOut : Rect S1x500x200 := Rect.unit (s := S1x500x200) ![0, 0, 0] S1x500x200.size inb_S1x500x200_S1x500x200_0_0_0

/-- The smaller of the two mean absolute differences, from the query polylines' block `v2` [1, 500, 32] and the target
    polylines' blocks `v4` (as given) and `v6` (point order reversed), both [1, 32, 200]: each running sum of absolute
    differences is carried from one stretch of coordinates to the next, then divided by 32. -/
def polyVal (v2 : FVec F S1x500x32 .f32) (v4 : FVec F S1x32x200 .f32) (v6 : FVec F S1x32x200 .f32) : FVec F S1x500x200 .f32 :=
  let cst_24 : F .f32 := Scalar.ofBits .f32 0x00000000#32
  let v79 := k0_pay11 v2 v4 cst_24
  let v85 := k0_pay12 v2 v6
  let v86 := k0_pay13 v2
  let v90 := k0_pay14 v2 v4
  let v144 := k0_pay19 v2 v4 v79 v90
  let v150 := k0_pay20 v2 v6 v85 v86
  let v202 := k0_pay25 v2 v6 v150
  let v203 := k0_pay26 v2
  let v209 := k0_pay27 v2 v4 v144
  let v210 := k0_pay28 v6
  let v261 := k0_pay33 v2 v4 v209
  let v267 := k0_pay34 v2 v6 v202 v203 v210
  let v268 := k0_pay35 v2
  let v269 := k0_pay36 v4
  let v270 := k0_pay37 v2
  let v319 := k0_pay41 v2 v6 v267 v268
  let v326 := k0_pay43 v2 v4 v261 v269 v270
  let v330 := k0_pay44 v2 v6
  let v378 := k0_pay49 v2 v4 v326
  let v384 := k0_pay50 v2 v6 v319 v330
  let v385 := k0_pay51 v2
  let v390 := k0_pay52 v2 v4
  let cst_26 : F .f32 := Scalar.ofBits .f32 0x42000000#32
  let v443 := k0_pay57 v2 v4 v378 v390
  let v449 := k0_pay58 v2 v6 v384 v385
  k0_pay59 v443 v449 cst_26

/-- The value the body stores, from the seven blocks it loaded (logits, query polylines, target polylines, reversed
    target polylines, query boxes, target boxes, labels): the class term, the polyline term, the box term, and their
    weighted sum. -/
def bodyVal (v0 : Vec F S1x500x92 .f32) (v1 : Vec F S1x500x32 .f32) (v3 : Vec F S1x32x200 .f32) (v5 : Vec F S1x32x200 .f32)
    (v7 : Vec F S1x500x4 .f32) (v9 : Vec F S1x200x4 .f32) (v11 : Vec F S1x200x1 .i32) : FVec F S1x500x200 .f32 :=
  let v8 := k0_pay4 v7
  let v10 := k0_pay5 v9
  k0_pay72 (k0_pay6 v0 v11) (polyVal (k0_pay1 v1) (k0_pay2 v3) (k0_pay3 v5)) (k0_pay60 v8) (k0_pay61 v8) (k0_pay62 v8) (k0_pay63 v8) (k0_pay64 v10) (k0_pay65 v10)
    (k0_pay66 v10) (k0_pay67 v10) (k0_pay68 v8) (k0_pay69 v10) (k0_pay70 v8 v10) (k0_pay71 v8 v10)

/-- The output window's staging buffer after the body: its one store, of the whole block. -/
def out7 (x0 : Vec F S1x500x92 .f32) (x1 : Vec F S1x500x32 .f32) (x2 : Vec F S1x32x200 .f32) (x3 : Vec F S1x32x200 .f32) (x4 : Vec F S1x500x4 .f32) (x5 : Vec F S1x200x4 .f32) (x6 : Vec F S1x200x1 .i32) : Vec F S1x500x200 .f32 :=
  View.canon [⟨rOut, bodyVal (View.ld x0 rLogits) (View.ld x1 rPred) (View.ld x2 rTgt) (View.ld x3 rTgt) (View.ld x4 rPBox) (View.ld x5 rTBox) (View.ld x6 rLab)⟩]

/-- The one store covers the block. -/
theorem cover7 (p0 : Vec F S1x500x200 .f32) (y : S1x500x200.Idx) :
    ∃ pc ∈ ([⟨rOut, p0⟩] : List (View.Piece (Elt F) S1x500x200 .f32)), y ∈ pc.1.set :=
  View.cover_of_tiled [⟨rOut, p0⟩] S1x500x200.size (by rfl) y

/-! ## The body's triple -/

set_option maxHeartbeats 4000000 in
/-- The body on whole staging buffers, the inputs' at known contents and the output's at anything, runs to the end with
    the inputs' as they were and the output's at `out7` of the inputs'. -/
theorem sound_kernel (c : Dev nD) (E : Set ℕ) (i : grid0.Coords) (arg1 : Memref sig .tc .vmem S1x500x92 .f32) (harg1 : arg1.IsWhole) (arg2 : Memref sig .tc .vmem S1x500x32 .f32) (harg2 : arg2.IsWhole) (arg3 : Memref sig .tc .vmem S1x32x200 .f32) (harg3 : arg3.IsWhole) (arg4 : Memref sig .tc .vmem S1x32x200 .f32) (harg4 : arg4.IsWhole) (arg5 : Memref sig .tc .vmem S1x500x4 .f32) (harg5 : arg5.IsWhole) (arg6 : Memref sig .tc .vmem S1x200x4 .f32) (harg6 : arg6.IsWhole) (arg7 : Memref sig .tc .vmem S1x200x1 .i32) (harg7 : arg7.IsWhole) (arg8 : Memref sig .tc .vmem S1x500x200 .f32) (harg8 : arg8.IsWhole)
    (x0 : Vec F S1x500x92 .f32) (x1 : Vec F S1x500x32 .f32) (x2 : Vec F S1x32x200 .f32) (x3 : Vec F S1x32x200 .f32) (x4 : Vec F S1x500x4 .f32) (x5 : Vec F S1x200x4 .f32) (x6 : Vec F S1x200x1 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__cost_kernel i arg1 harg1 arg2 harg2 arg3 harg3 arg4 harg4 arg5 harg5 arg6 harg6 arg7 harg7 arg8 harg8) K := by
  simp only [cc0__cost_kernel_eq_skeleton]; unfold cc0__cost_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

/-! ## The grid's proof data -/

/-- On core `c`: the arrays as the grid finds them; after the body at point `t` each input's buffer at its block and
    the output's at `out7` of the input blocks; nothing else is touched, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and in every final state each window's array holds what the
    write-backs of the proof data leave in it and every other buffer what the grid found there. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frm

end
-- ==== Proof.FrameIdeal.lean ====
/-
  The frame of the cost-matrix program: it runs to the end, faults nowhere and leaves its four argument arrays as they
  were. The program is host operations (reshapes, a reversal, transposes, slices, row minima and maxima, two
  concatenations, a broadcast of the labels), then one grid of 32 points, one batch element each. At a point the body
  loads the whole block of each of its seven input windows, computes, and stores the whole block [1, 500, 200] of its
  one output window: the block's contents after the body are one pure function (`bodyVal`) of the seven input blocks.
  Everything here holds at any number format `F`.
-/
import proofs.«402434_j86990267613642_3_alg».proof.Proof.Gen.KernelIdeal.Launch
import proofs.«402434_j86990267613642_3_alg».proof.Proof.Gen.KernelIdeal.Skeleton
import proofs.«402434_j86990267613642_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one grid -/

/-- Core `c`'s buffers when the grid is entered: the launch memory after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program is its host operations, stretch by stretch, then the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whenever the body leaves the block in
    place: every input window is fetched at every point, none is cut or idle. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the grid -/

/-- The logits' array is window 0's, an input the grid only reads; the other three arguments are staged by no window and
    written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## What the body stores -/

abbrev rLogits : Rect S1x500x92 := Rect.unit (s := S1x500x92) ![0, 0, 0] S1x500x92.size inb_S1x500x92_S1x500x92_0_0_0
abbrev rPred : Rect S1x500x32 := Rect.unit (s := S1x500x32) ![0, 0, 0] S1x500x32.size inb_S1x500x32_S1x500x32_0_0_0
abbrev rTgt : Rect S1x32x200 := Rect.unit (s := S1x32x200) ![0, 0, 0] S1x32x200.size inb_S1x32x200_S1x32x200_0_0_0
abbrev rPBox : Rect S1x500x4 := Rect.unit (s := S1x500x4) ![0, 0, 0] S1x500x4.size inb_S1x500x4_S1x500x4_0_0_0
abbrev rTBox : Rect S1x200x4 := Rect.unit (s := S1x200x4) ![0, 0, 0] S1x200x4.size inb_S1x200x4_S1x200x4_0_0_0
abbrev rLab : Rect S1x200x1 := Rect.unit (s := S1x200x1) ![0, 0, 0] S1x200x1.size inb_S1x200x1_S1x200x1_0_0_0
abbrev rOut : Rect S1x500x200 := Rect.unit (s := S1x500x200) ![0, 0, 0] S1x500x200.size inb_S1x500x200_S1x500x200_0_0_0

/-- The smaller of the two mean absolute differences, from the query polylines' block `v2` [1, 500, 32] and the target
    polylines' blocks `v4` (as given) and `v6` (point order reversed), both [1, 32, 200]: each running sum of absolute
    differences is carried from one stretch of coordinates to the next, then divided by 32. -/
def polyVal (v2 : FVec F S1x500x32 .f32) (v4 : FVec F S1x32x200 .f32) (v6 : FVec F S1x32x200 .f32) : FVec F S1x500x200 .f32 :=
  let cst_24 : F .f32 := Scalar.ofBits .f32 0x00000000#32
  let v79 := k0_pay11 v2 v4 cst_24
  let v85 := k0_pay12 v2 v6
  let v86 := k0_pay13 v2
  let v90 := k0_pay14 v2 v4
  let v144 := k0_pay19 v2 v4 v79 v90
  let v150 := k0_pay20 v2 v6 v85 v86
  let v202 := k0_pay25 v2 v6 v150
  let v203 := k0_pay26 v2
  let v209 := k0_pay27 v2 v4 v144
  let v210 := k0_pay28 v6
  let v261 := k0_pay33 v2 v4 v209
  let v267 := k0_pay34 v2 v6 v202 v203 v210
  let v268 := k0_pay35 v2
  let v269 := k0_pay36 v4
  let v270 := k0_pay37 v2
  let v319 := k0_pay41 v2 v6 v267 v268
  let v326 := k0_pay43 v2 v4 v261 v269 v270
  let v330 := k0_pay44 v2 v6
  let v378 := k0_pay49 v2 v4 v326
  let v384 := k0_pay50 v2 v6 v319 v330
  let v385 := k0_pay51 v2
  let v390 := k0_pay52 v2 v4
  let cst_26 : F .f32 := Scalar.ofBits .f32 0x42000000#32
  let v443 := k0_pay57 v2 v4 v378 v390
  let v449 := k0_pay58 v2 v6 v384 v385
  k0_pay59 v443 v449 cst_26

/-- The value the body stores, from the seven blocks it loaded (logits, query polylines, target polylines, reversed
    target polylines, query boxes, target boxes, labels): the class term, the polyline term, the box term, and their
    weighted sum. -/
def bodyVal (v0 : Vec F S1x500x92 .f32) (v1 : Vec F S1x500x32 .f32) (v3 : Vec F S1x32x200 .f32) (v5 : Vec F S1x32x200 .f32)
    (v7 : Vec F S1x500x4 .f32) (v9 : Vec F S1x200x4 .f32) (v11 : Vec F S1x200x1 .i32) : FVec F S1x500x200 .f32 :=
  let v8 := k0_pay4 v7
  let v10 := k0_pay5 v9
  k0_pay72 (k0_pay6 v0 v11) (polyVal (k0_pay1 v1) (k0_pay2 v3) (k0_pay3 v5)) (k0_pay60 v8) (k0_pay61 v8) (k0_pay62 v8) (k0_pay63 v8) (k0_pay64 v10) (k0_pay65 v10)
    (k0_pay66 v10) (k0_pay67 v10) (k0_pay68 v8) (k0_pay69 v10) (k0_pay70 v8 v10) (k0_pay71 v8 v10)

/-- The output window's staging buffer after the body: its one store, of the whole block. -/
def out7 (x0 : Vec F S1x500x92 .f32) (x1 : Vec F S1x500x32 .f32) (x2 : Vec F S1x32x200 .f32) (x3 : Vec F S1x32x200 .f32) (x4 : Vec F S1x500x4 .f32) (x5 : Vec F S1x200x4 .f32) (x6 : Vec F S1x200x1 .i32) : Vec F S1x500x200 .f32 :=
  View.canon [⟨rOut, bodyVal (View.ld x0 rLogits) (View.ld x1 rPred) (View.ld x2 rTgt) (View.ld x3 rTgt) (View.ld x4 rPBox) (View.ld x5 rTBox) (View.ld x6 rLab)⟩]

/-- The one store covers the block. -/
theorem cover7 (p0 : Vec F S1x500x200 .f32) (y : S1x500x200.Idx) :
    ∃ pc ∈ ([⟨rOut, p0⟩] : List (View.Piece (Elt F) S1x500x200 .f32)), y ∈ pc.1.set :=
  View.cover_of_tiled [⟨rOut, p0⟩] S1x500x200.size (by rfl) y

/-! ## The body's triple -/

set_option maxHeartbeats 4000000 in
/-- The body on whole staging buffers, the inputs' at known contents and the output's at anything, runs to the end with
    the inputs' as they were and the output's at `out7` of the inputs'. -/
theorem sound_kernel (c : Dev nD) (E : Set ℕ) (i : grid0.Coords) (arg1 : Memref sig .tc .vmem S1x500x92 .f32) (harg1 : arg1.IsWhole) (arg2 : Memref sig .tc .vmem S1x500x32 .f32) (harg2 : arg2.IsWhole) (arg3 : Memref sig .tc .vmem S1x32x200 .f32) (harg3 : arg3.IsWhole) (arg4 : Memref sig .tc .vmem S1x32x200 .f32) (harg4 : arg4.IsWhole) (arg5 : Memref sig .tc .vmem S1x500x4 .f32) (harg5 : arg5.IsWhole) (arg6 : Memref sig .tc .vmem S1x200x4 .f32) (harg6 : arg6.IsWhole) (arg7 : Memref sig .tc .vmem S1x200x1 .i32) (harg7 : arg7.IsWhole) (arg8 : Memref sig .tc .vmem S1x500x200 .f32) (harg8 : arg8.IsWhole)
    (x0 : Vec F S1x500x92 .f32) (x1 : Vec F S1x500x32 .f32) (x2 : Vec F S1x32x200 .f32) (x3 : Vec F S1x32x200 .f32) (x4 : Vec F S1x500x4 .f32) (x5 : Vec F S1x200x4 .f32) (x6 : Vec F S1x200x1 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__cost_kernel i arg1 harg1 arg2 harg2 arg3 harg3 arg4 harg4 arg5 harg5 arg6 harg6 arg7 harg7 arg8 harg8) K := by
  simp only [cc0__cost_kernel_eq_skeleton]; unfold cc0__cost_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

/-! ## The grid's proof data -/

/-- On core `c`: the arrays as the grid finds them; after the body at point `t` each input's buffer at its block and
    the output's at `out7` of the input blocks; nothing else is touched, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and in every final state each window's array holds what the
    write-backs of the proof data leave in it and every other buffer what the grid found there. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frm

end
-- ==== Proof.RefRunStages.lean ====
/-
  The reference program's run, proved stretch by stretch. @main's 214 operations are cut into twelve consecutive
  stretches, each ending where a value that several later operations read has just been written. For each stretch and
  an arbitrary incoming valuation: every buffer a later stretch reads holds, after the stretch, the stage `val_…` of
  the read module, provided the buffers the stretch reads held their stages before it; and a buffer written earlier
  that is read later passes through unchanged. Threading the twelve stretches gives the whole list's value at the
  result buffer, and the run follows from the straight-line rule.
-/
import proofs.«402434_j86990267613642_3_alg».proof.Proof.RefRead
import Idealize.ShloMosaic.Lib.StableHlo.Run
import Idealize.ShloMosaic.Lib.Pipeline.Frame

set_option maxRecDepth 16384

noncomputable section

namespace Cert.ReferenceIdeal.Stages

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-! ### The twelve stretches of the operation list -/

/-- Operations 1 to 16: the softmax of the logits (row maximum, exponentials, row sum, quotient %10) and the labels broadcast over the queries (%12). -/
abbrev ops1 : List (HloOp τ sig (Elt F)) :=
  [ nullary main_cst (constant S_ .f32 0xFF800000#32),
    binary main_arg0 main_cst main_v0 ((fun x v => Host.reduce FloatOps.maximumf x v reducesTo_S32x500x92_S32x500_d2 h_S_) : (⟨S32x500x92, .f32⟩ : BufTy).Contents (Elt F) → (⟨S_, .f32⟩ : BufTy).Contents (Elt F) → (⟨S32x500, .f32⟩ : BufTy).Contents (Elt F)),
    nullary main_cst_0 (constant S_ .f32 0xFF800000#32),
    unary main_cst_0 main_v1 (broadcastInDim S32x500 ![] bcast_S_S32x500 : (⟨S_, .f32⟩ : BufTy).Contents (Elt F) → (⟨S32x500, .f32⟩ : BufTy).Contents (Elt F)),
    binary main_v1 main_v0 main_v2 (maximumf : (⟨S32x500, .f32⟩ : BufTy).Contents (Elt F) → (⟨S32x500, .f32⟩ : BufTy).Contents (Elt F) → (⟨S32x500, .f32⟩ : BufTy).Contents (Elt F)),
    unary main_v2 main_v3 (broadcastInDim S32x500x1 ![0, 1] bcast_S32x500_S32x500x1_0_1 : (⟨S32x500, .f32⟩ : BufTy).Contents (Elt F) → (⟨S32x500x1, .f32⟩ : BufTy).Contents (Elt F)),
    unary main_v3 main_v4 (broadcastInDim S32x500x92 ![0, 1, 2] bcast_S32x500x1_S32x500x92_0_1_2 : (⟨S32x500x1, .f32⟩ : BufTy).Contents (Elt F) → (⟨S32x500x92, .f32⟩ : BufTy).Contents (Elt F)),
    binary main_arg0 main_v4 main_v5 (subf : (⟨S32x500x92, .f32⟩ : BufTy).Contents (Elt F) → (⟨S32x500x92, .f32⟩ : BufTy).Contents (Elt F) → (⟨S32x500x92, .f32⟩ : BufTy).Contents (Elt F)),
    unary main_v5 main_v6 (Host.exp : (⟨S32x500x92, .f32⟩ : BufTy).Contents (Elt F) → (⟨S32x500x92, .f32⟩ : BufTy).Contents (Elt F)),
    nullary main_cst_1 (constant S_ .f32 0x00000000#32),
    binary main_v6 main_cst_1 main_v7 ((fun x v => Host.reduceAdd x v reducesTo_S32x500x92_S32x500_d2 h_S_) : (⟨S32x500x92, .f32⟩ : BufTy).Contents (Elt F) → (⟨S_, .f32⟩ : BufTy).Contents (Elt F) → (⟨S32x500, .f32⟩ : BufTy).Contents (Elt F)),
    unary main_v7 main_v8 (broadcastInDim S32x500x1 ![0, 1] bcast_S32x500_S32x500x1_0_1 : (⟨S32x500, .f32⟩ : BufTy).Contents (Elt F) → (⟨S32x500x1, .f32⟩ : BufTy).Contents (Elt F)),
    unary main_v8 main_v9 (broadcastInDim S32x500x92 ![0, 1, 2] bcast_S32x500x1_S32x500x92_0_1_2 : (⟨S32x500x1, .f32⟩ : BufTy).Contents (Elt F) → (⟨S32x500x92, .f32⟩ : BufTy).Contents (Elt F)),
    binary main_v6 main_v9 main_v10 (Host.divf : (⟨S32x500x92, .f32⟩ : BufTy).Contents (Elt F) → (⟨S32x500x92, .f32⟩ : BufTy).Contents (Elt F) → (⟨S32x500x92, .f32⟩ : BufTy).Contents (Elt F)),
    unary main_arg2 main_v11 (broadcastInDim S32x1x200 ![0, 2] bcast_S32x200_S32x1x200_0_2 : (⟨S32x200, .i32⟩ : BufTy).Contents (Elt F) → (⟨S32x1x200, .i32⟩ : BufTy).Contents (Elt F)),
    unary main_v11 main_v12 (broadcastInDim S32x500x200 ![0, 1, 2] bcast_S32x1x200_S32x500x200_0_1_2 : (⟨S32x1x200, .i32⟩ : BufTy).Contents (Elt F) → (⟨S32x500x200, .i32⟩ : BufTy).Contents (Elt F)) ]

/-- Operations 17 to 39: the probability of each target's label, gathered from %10 at the labels %12 brought into range, with the fill constant where a label is out of range (%13), and its negation, the class term %14. -/
abbrev ops2 : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S32x500x200, .i32⟩) main_call0_v0) (broadcastInDim S32x500x200 ![] bcast_S_S32x500x200),
    TRef.binary (TRef.of (T := ⟨S32x500x200, .i32⟩) main_v12) (TRef.of (T := ⟨S32x500x200, .i32⟩) main_call0_v0) (TRef.of (T := ⟨S32x500x200, .i1⟩) main_call0_v1) (cmpi .slt),
    TRef.nullary (TRef.of (T := ⟨S_, .i32⟩) main_call0_c_0) (constantI S_ 32 92#32),
    TRef.unary (TRef.of (T := ⟨S_, .i32⟩) main_call0_c_0) (TRef.of (T := ⟨S32x500x200, .i32⟩) main_call0_v2) (broadcastInDim S32x500x200 ![] bcast_S_S32x500x200),
    TRef.binary (TRef.of (T := ⟨S32x500x200, .i32⟩) main_v12) (TRef.of (T := ⟨S32x500x200, .i32⟩) main_call0_v2) (TRef.of (T := ⟨S32x500x200, .i32⟩) main_call0_v3) addi,
    TRef.ternary (TRef.of (T := ⟨S32x500x200, .i1⟩) main_call0_v1) (TRef.of (T := ⟨S32x500x200, .i32⟩) main_call0_v3) (TRef.of (T := ⟨S32x500x200, .i32⟩) main_v12) (TRef.of (T := ⟨S32x500x200, .i32⟩) main_call0_v4) select,
    TRef.reshape (TRef.of (T := ⟨S32x500x200, .i32⟩) main_call0_v4) (TRef.of (T := ⟨S32x500x200x1, .i32⟩) main_call0_v5) rfl shapeCasts_S32x500x200_S32x500x200x1,
    TRef.nullary (TRef.of (T := ⟨S1, .i32⟩) main_call0_c_1) (constantI S1 32 91#32),
    TRef.nullary (TRef.of (T := ⟨S_, .i32⟩) main_call0_c_2) (constantI S_ 32 0#32),
    TRef.unary (TRef.of (T := ⟨S_, .i32⟩) main_call0_c_2) (TRef.of (T := ⟨S32x500x200x1, .i32⟩) main_call0_v6) (broadcastInDim S32x500x200x1 ![] bcast_S_S32x500x200x1),
    TRef.binary (TRef.of (T := ⟨S32x500x200x1, .i32⟩) main_call0_v5) (TRef.of (T := ⟨S32x500x200x1, .i32⟩) main_call0_v6) (TRef.of (T := ⟨S32x500x200x1, .i1⟩) main_call0_v7) (cmpi .sge),
    TRef.unary (TRef.of (T := ⟨S1, .i32⟩) main_call0_c_1) (TRef.of (T := ⟨S1x1x1x1, .i32⟩) main_call0_v8) (broadcastInDim S1x1x1x1 ![3] bcast_S1_S1x1x1x1_3),
    TRef.unary (TRef.of (T := ⟨S1x1x1x1, .i32⟩) main_call0_v8) (TRef.of (T := ⟨S32x500x200x1, .i32⟩) main_call0_v9) (broadcastInDim S32x500x200x1 ![0, 1, 2, 3] bcast_S1x1x1x1_S32x500x200x1_0_1_2_3),
    TRef.binary (TRef.of (T := ⟨S32x500x200x1, .i32⟩) main_call0_v5) (TRef.of (T := ⟨S32x500x200x1, .i32⟩) main_call0_v9) (TRef.of (T := ⟨S32x500x200x1, .i1⟩) main_call0_v10) (cmpi .sle),
    TRef.binary (TRef.of (T := ⟨S32x500x200x1, .i1⟩) main_call0_v7) (TRef.of (T := ⟨S32x500x200x1, .i1⟩) main_call0_v10) (TRef.of (T := ⟨S32x500x200x1, .i1⟩) main_call0_v11) andi,
    TRef.nullary (TRef.of (T := ⟨S_, .i1⟩) main_call0_c_3) (constantI S_ 1 1#1),
    TRef.binary (TRef.of (T := ⟨S32x500x200x1, .i1⟩) main_call0_v11) (TRef.of (T := ⟨S_, .i1⟩) main_call0_c_3) (TRef.of (T := ⟨S32x500x200, .i1⟩) main_call0_v12) (fun x v => Host.reduce IntOp.andi x v reducesTo_S32x500x200x1_S32x500x200_d3 h_S_),
    TRef.binary (TRef.of (T := ⟨S32x500x92, .f32⟩) main_v10) (TRef.of (T := ⟨S32x500x200x1, .i32⟩) main_call0_v5) (TRef.of (T := ⟨S32x500x200, .f32⟩) main_call0_v13) (fun x i => Host.gather gather_S32x500x92_S32x500x200x1_S32x500x200_n_2_01_01_2_3_111 x i),
    TRef.nullary (TRef.of (T := ⟨S_, .f32⟩) main_call0_cst) (constant S_ .f32 0x7FC00000#32),
    TRef.unary (TRef.of (T := ⟨S_, .f32⟩) main_call0_cst) (TRef.of (T := ⟨S32x500x200, .f32⟩) main_call0_v14) (broadcastInDim S32x500x200 ![] bcast_S_S32x500x200),
    TRef.ternary (TRef.of (T := ⟨S32x500x200, .i1⟩) main_call0_v12) (TRef.of (T := ⟨S32x500x200, .f32⟩) main_call0_v13) (TRef.of (T := ⟨S32x500x200, .f32⟩) main_call0_v14) (TRef.of (T := ⟨S32x500x200, .f32⟩) main_v13) select,
    unary main_v13 main_v14 (Host.negf : (⟨S32x500x200, .f32⟩ : BufTy).Contents (Elt F) → (⟨S32x500x200, .f32⟩ : BufTy).Contents (Elt F)) ]

/-- Operations 40 to 66: the polyline term %37: the mean absolute coordinate difference against the target's points in given and in reversed order, and the smaller of the two. -/
abbrev ops3 : List (HloOp τ sig (Elt F)) :=
  [ reshape main_arg1 main_v15 rfl shapeCasts_S32x500x16x2_S32x500x32,
    reshape main_arg3 main_v16 rfl shapeCasts_S32x200x16x2_S32x200x32,
    TRef.unary (TRef.of (T := ⟨S32x200x16x2, .f32⟩) main_arg3) (TRef.of (T := ⟨S32x200x16x2, .f32⟩) main_v17) (Host.reverse [2]),
    reshape main_v17 main_v18 rfl shapeCasts_S32x200x16x2_S32x200x32,
    unary main_v15 main_v19 (broadcastInDim S32x500x1x32 ![0, 1, 3] bcast_S32x500x32_S32x500x1x32_0_1_3 : (⟨S32x500x32, .f32⟩ : BufTy).Contents (Elt F) → (⟨S32x500x1x32, .f32⟩ : BufTy).Contents (Elt F)),
    unary main_v16 main_v20 (broadcastInDim S32x1x200x32 ![0, 2, 3] bcast_S32x200x32_S32x1x200x32_0_2_3 : (⟨S32x200x32, .f32⟩ : BufTy).Contents (Elt F) → (⟨S32x1x200x32, .f32⟩ : BufTy).Contents (Elt F)),
    unary main_v19 main_v21 (broadcastInDim S32x500x200x32 ![0, 1, 2, 3] bcast_S32x500x1x32_S32x500x200x32_0_1_2_3 : (⟨S32x500x1x32, .f32⟩ : BufTy).Contents (Elt F) → (⟨S32x500x200x32, .f32⟩ : BufTy).Contents (Elt F)),
    unary main_v20 main_v22 (broadcastInDim S32x500x200x32 ![0, 1, 2, 3] bcast_S32x1x200x32_S32x500x200x32_0_1_2_3 : (⟨S32x1x200x32, .f32⟩ : BufTy).Contents (Elt F) → (⟨S32x500x200x32, .f32⟩ : BufTy).Contents (Elt F)),
    binary main_v21 main_v22 main_v23 (subf : (⟨S32x500x200x32, .f32⟩ : BufTy).Contents (Elt F) → (⟨S32x500x200x32, .f32⟩ : BufTy).Contents (Elt F) → (⟨S32x500x200x32, .f32⟩ : BufTy).Contents (Elt F)),
    unary main_v23 main_v24 (Host.absf : (⟨S32x500x200x32, .f32⟩ : BufTy).Contents (Elt F) → (⟨S32x500x200x32, .f32⟩ : BufTy).Contents (Elt F)),
    nullary main_cst_2 (constant S_ .f32 0x00000000#32),
    binary main_v24 main_cst_2 main_v25 ((fun x v => Host.reduceAdd x v reducesTo_S32x500x200x32_S32x500x200_d3 h_S_) : (⟨S32x500x200x32, .f32⟩ : BufTy).Contents (Elt F) → (⟨S_, .f32⟩ : BufTy).Contents (Elt F) → (⟨S32x500x200, .f32⟩ : BufTy).Contents (Elt F)),
    nullary main_cst_3 (constant S_ .f32 0x42000000#32),
    unary main_cst_3 main_v26 (broadcastInDim S32x500x200 ![] bcast_S_S32x500x200 : (⟨S_, .f32⟩ : BufTy).Contents (Elt F) → (⟨S32x500x200, .f32⟩ : BufTy).Contents (Elt F)),
    binary main_v25 main_v26 main_v27 (Host.divf : (⟨S32x500x200, .f32⟩ : BufTy).Contents (Elt F) → (⟨S32x500x200, .f32⟩ : BufTy).Contents (Elt F) → (⟨S32x500x200, .f32⟩ : BufTy).Contents (Elt F)),
    unary main_v15 main_v28 (broadcastInDim S32x500x1x32 ![0, 1, 3] bcast_S32x500x32_S32x500x1x32_0_1_3 : (⟨S32x500x32, .f32⟩ : BufTy).Contents (Elt F) → (⟨S32x500x1x32, .f32⟩ : BufTy).Contents (Elt F)),
    unary main_v18 main_v29 (broadcastInDim S32x1x200x32 ![0, 2, 3] bcast_S32x200x32_S32x1x200x32_0_2_3 : (⟨S32x200x32, .f32⟩ : BufTy).Contents (Elt F) → (⟨S32x1x200x32, .f32⟩ : BufTy).Contents (Elt F)),
    unary main_v28 main_v30 (broadcastInDim S32x500x200x32 ![0, 1, 2, 3] bcast_S32x500x1x32_S32x500x200x32_0_1_2_3 : (⟨S32x500x1x32, .f32⟩ : BufTy).Contents (Elt F) → (⟨S32x500x200x32, .f32⟩ : BufTy).Contents (Elt F)),
    unary main_v29 main_v31 (broadcastInDim S32x500x200x32 ![0, 1, 2, 3] bcast_S32x1x200x32_S32x500x200x32_0_1_2_3 : (⟨S32x1x200x32, .f32⟩ : BufTy).Contents (Elt F) → (⟨S32x500x200x32, .f32⟩ : BufTy).Contents (Elt F)),
    binary main_v30 main_v31 main_v32 (subf : (⟨S32x500x200x32, .f32⟩ : BufTy).Contents (Elt F) → (⟨S32x500x200x32, .f32⟩ : BufTy).Contents (Elt F) → (⟨S32x500x200x32, .f32⟩ : BufTy).Contents (Elt F)),
    unary main_v32 main_v33 (Host.absf : (⟨S32x500x200x32, .f32⟩ : BufTy).Contents (Elt F) → (⟨S32x500x200x32, .f32⟩ : BufTy).Contents (Elt F)),
    nullary main_cst_4 (constant S_ .f32 0x00000000#32),
    binary main_v33 main_cst_4 main_v34 ((fun x v => Host.reduceAdd x v reducesTo_S32x500x200x32_S32x500x200_d3 h_S_) : (⟨S32x500x200x32, .f32⟩ : BufTy).Contents (Elt F) → (⟨S_, .f32⟩ : BufTy).Contents (Elt F) → (⟨S32x500x200, .f32⟩ : BufTy).Contents (Elt F)),
    nullary main_cst_5 (constant S_ .f32 0x42000000#32),
    unary main_cst_5 main_v35 (broadcastInDim S32x500x200 ![] bcast_S_S32x500x200 : (⟨S_, .f32⟩ : BufTy).Contents (Elt F) → (⟨S32x500x200, .f32⟩ : BufTy).Contents (Elt F)),
    binary main_v34 main_v35 main_v36 (Host.divf : (⟨S32x500x200, .f32⟩ : BufTy).Contents (Elt F) → (⟨S32x500x200, .f32⟩ : BufTy).Contents (Elt F) → (⟨S32x500x200, .f32⟩ : BufTy).Contents (Elt F)),
    binary main_v27 main_v36 main_v37 (minimumf : (⟨S32x500x200, .f32⟩ : BufTy).Contents (Elt F) → (⟨S32x500x200, .f32⟩ : BufTy).Contents (Elt F) → (⟨S32x500x200, .f32⟩ : BufTy).Contents (Elt F)) ]

/-- Operations 67 to 82: the query boxes' four sides %46 to %49, each a least or greatest coordinate over a polyline's points. -/
abbrev ops4 : List (HloOp τ sig (Elt F)) :=
  [ unary main_arg1 main_v38 ((extractStridedSlice S32x500x16x1 ![0, 0, 0, 0] · slices_S32x500x16x2_S32x500x16x1_0_0_0_0) : (⟨S32x500x16x2, .f32⟩ : BufTy).Contents (Elt F) → (⟨S32x500x16x1, .f32⟩ : BufTy).Contents (Elt F)),
    reshape main_v38 main_v39 rfl shapeCasts_S32x500x16x1_S32x500x16,
    unary main_arg1 main_v40 ((extractStridedSlice S32x500x16x1 ![0, 0, 0, 1] · slices_S32x500x16x2_S32x500x16x1_0_0_0_1) : (⟨S32x500x16x2, .f32⟩ : BufTy).Contents (Elt F) → (⟨S32x500x16x1, .f32⟩ : BufTy).Contents (Elt F)),
    reshape main_v40 main_v41 rfl shapeCasts_S32x500x16x1_S32x500x16,
    nullary main_cst_6 (constant S_ .f32 0x7F800000#32),
    binary main_v39 main_cst_6 main_v42 ((fun x v => Host.reduce FloatOps.minimumf x v reducesTo_S32x500x16_S32x500_d2 h_S_) : (⟨S32x500x16, .f32⟩ : BufTy).Contents (Elt F) → (⟨S_, .f32⟩ : BufTy).Contents (Elt F) → (⟨S32x500, .f32⟩ : BufTy).Contents (Elt F)),
    nullary main_cst_7 (constant S_ .f32 0x7F800000#32),
    binary main_v41 main_cst_7 main_v43 ((fun x v => Host.reduce FloatOps.minimumf x v reducesTo_S32x500x16_S32x500_d2 h_S_) : (⟨S32x500x16, .f32⟩ : BufTy).Contents (Elt F) → (⟨S_, .f32⟩ : BufTy).Contents (Elt F) → (⟨S32x500, .f32⟩ : BufTy).Contents (Elt F)),
    nullary main_cst_8 (constant S_ .f32 0xFF800000#32),
    binary main_v39 main_cst_8 main_v44 ((fun x v => Host.reduce FloatOps.maximumf x v reducesTo_S32x500x16_S32x500_d2 h_S_) : (⟨S32x500x16, .f32⟩ : BufTy).Contents (Elt F) → (⟨S_, .f32⟩ : BufTy).Contents (Elt F) → (⟨S32x500, .f32⟩ : BufTy).Contents (Elt F)),
    nullary main_cst_9 (constant S_ .f32 0xFF800000#32),
    binary main_v41 main_cst_9 main_v45 ((fun x v => Host.reduce FloatOps.maximumf x v reducesTo_S32x500x16_S32x500_d2 h_S_) : (⟨S32x500x16, .f32⟩ : BufTy).Contents (Elt F) → (⟨S_, .f32⟩ : BufTy).Contents (Elt F) → (⟨S32x500, .f32⟩ : BufTy).Contents (Elt F)),
    unary main_v42 main_v46 (broadcastInDim S32x500x1 ![0, 1] bcast_S32x500_S32x500x1_0_1 : (⟨S32x500, .f32⟩ : BufTy).Contents (Elt F) → (⟨S32x500x1, .f32⟩ : BufTy).Contents (Elt F)),
    unary main_v43 main_v47 (broadcastInDim S32x500x1 ![0, 1] bcast_S32x500_S32x500x1_0_1 : (⟨S32x500, .f32⟩ : BufTy).Contents (Elt F) → (⟨S32x500x1, .f32⟩ : BufTy).Contents (Elt F)),
    unary main_v44 main_v48 (broadcastInDim S32x500x1 ![0, 1] bcast_S32x500_S32x500x1_0_1 : (⟨S32x500, .f32⟩ : BufTy).Contents (Elt F) → (⟨S32x500x1, .f32⟩ : BufTy).Contents (Elt F)),
    unary main_v45 main_v49 (broadcastInDim S32x500x1 ![0, 1] bcast_S32x500_S32x500x1_0_1 : (⟨S32x500, .f32⟩ : BufTy).Contents (Elt F) → (⟨S32x500x1, .f32⟩ : BufTy).Contents (Elt F)) ]

/-- Operations 83 to 99: the query box array %50 (the four sides joined) and the target boxes' four sides %59 to %62. -/
abbrev ops5 : List (HloOp τ sig (Elt F)) :=
  [ nary ![main_v46, main_v47, main_v48, main_v49] main_v50 (fun u => concatenate S32x500x4 2 [⟨S32x500x1, u 0⟩, ⟨S32x500x1, u 1⟩, ⟨S32x500x1, u 2⟩, ⟨S32x500x1, u 3⟩] concatenates_S32x500x1_S32x500x1_S32x500x1_S32x500x1_S32x500x4_d2),
    unary main_arg3 main_v51 ((extractStridedSlice S32x200x16x1 ![0, 0, 0, 0] · slices_S32x200x16x2_S32x200x16x1_0_0_0_0) : (⟨S32x200x16x2, .f32⟩ : BufTy).Contents (Elt F) → (⟨S32x200x16x1, .f32⟩ : BufTy).Contents (Elt F)),
    reshape main_v51 main_v52 rfl shapeCasts_S32x200x16x1_S32x200x16,
    unary main_arg3 main_v53 ((extractStridedSlice S32x200x16x1 ![0, 0, 0, 1] · slices_S32x200x16x2_S32x200x16x1_0_0_0_1) : (⟨S32x200x16x2, .f32⟩ : BufTy).Contents (Elt F) → (⟨S32x200x16x1, .f32⟩ : BufTy).Contents (Elt F)),
    reshape main_v53 main_v54 rfl shapeCasts_S32x200x16x1_S32x200x16,
    nullary main_cst_10 (constant S_ .f32 0x7F800000#32),
    binary main_v52 main_cst_10 main_v55 ((fun x v => Host.reduce FloatOps.minimumf x v reducesTo_S32x200x16_S32x200_d2 h_S_) : (⟨S32x200x16, .f32⟩ : BufTy).Contents (Elt F) → (⟨S_, .f32⟩ : BufTy).Contents (Elt F) → (⟨S32x200, .f32⟩ : BufTy).Contents (Elt F)),
    nullary main_cst_11 (constant S_ .f32 0x7F800000#32),
    binary main_v54 main_cst_11 main_v56 ((fun x v => Host.reduce FloatOps.minimumf x v reducesTo_S32x200x16_S32x200_d2 h_S_) : (⟨S32x200x16, .f32⟩ : BufTy).Contents (Elt F) → (⟨S_, .f32⟩ : BufTy).Contents (Elt F) → (⟨S32x200, .f32⟩ : BufTy).Contents (Elt F)),
    nullary main_cst_12 (constant S_ .f32 0xFF800000#32),
    binary main_v52 main_cst_12 main_v57 ((fun x v => Host.reduce FloatOps.maximumf x v reducesTo_S32x200x16_S32x200_d2 h_S_) : (⟨S32x200x16, .f32⟩ : BufTy).Contents (Elt F) → (⟨S_, .f32⟩ : BufTy).Contents (Elt F) → (⟨S32x200, .f32⟩ : BufTy).Contents (Elt F)),
    nullary main_cst_13 (constant S_ .f32 0xFF800000#32),
    binary main_v54 main_cst_13 main_v58 ((fun x v => Host.reduce FloatOps.maximumf x v reducesTo_S32x200x16_S32x200_d2 h_S_) : (⟨S32x200x16, .f32⟩ : BufTy).Contents (Elt F) → (⟨S_, .f32⟩ : BufTy).Contents (Elt F) → (⟨S32x200, .f32⟩ : BufTy).Contents (Elt F)),
    unary main_v55 main_v59 (broadcastInDim S32x200x1 ![0, 1] bcast_S32x200_S32x200x1_0_1 : (⟨S32x200, .f32⟩ : BufTy).Contents (Elt F) → (⟨S32x200x1, .f32⟩ : BufTy).Contents (Elt F)),
    unary main_v56 main_v60 (broadcastInDim S32x200x1 ![0, 1] bcast_S32x200_S32x200x1_0_1 : (⟨S32x200, .f32⟩ : BufTy).Contents (Elt F) → (⟨S32x200x1, .f32⟩ : BufTy).Contents (Elt F)),
    unary main_v57 main_v61 (broadcastInDim S32x200x1 ![0, 1] bcast_S32x200_S32x200x1_0_1 : (⟨S32x200, .f32⟩ : BufTy).Contents (Elt F) → (⟨S32x200x1, .f32⟩ : BufTy).Contents (Elt F)),
    unary main_v58 main_v62 (broadcastInDim S32x200x1 ![0, 1] bcast_S32x200_S32x200x1_0_1 : (⟨S32x200, .f32⟩ : BufTy).Contents (Elt F) → (⟨S32x200x1, .f32⟩ : BufTy).Contents (Elt F)) ]

/-- Operations 100 to 119: the target box array %63 and the query boxes' areas %76. -/
abbrev ops6 : List (HloOp τ sig (Elt F)) :=
  [ nary ![main_v59, main_v60, main_v61, main_v62] main_v63 (fun u => concatenate S32x200x4 2 [⟨S32x200x1, u 0⟩, ⟨S32x200x1, u 1⟩, ⟨S32x200x1, u 2⟩, ⟨S32x200x1, u 3⟩] concatenates_S32x200x1_S32x200x1_S32x200x1_S32x200x1_S32x200x4_d2),
    unary main_v50 main_v64 ((extractStridedSlice S32x500x1 ![0, 0, 2] · slices_S32x500x4_S32x500x1_0_0_2) : (⟨S32x500x4, .f32⟩ : BufTy).Contents (Elt F) → (⟨S32x500x1, .f32⟩ : BufTy).Contents (Elt F)),
    reshape main_v64 main_v65 rfl shapeCasts_S32x500x1_S32x500,
    unary main_v50 main_v66 ((extractStridedSlice S32x500x1 ![0, 0, 0] · slices_S32x500x4_S32x500x1_0_0_0) : (⟨S32x500x4, .f32⟩ : BufTy).Contents (Elt F) → (⟨S32x500x1, .f32⟩ : BufTy).Contents (Elt F)),
    reshape main_v66 main_v67 rfl shapeCasts_S32x500x1_S32x500,
    binary main_v65 main_v67 main_v68 (subf : (⟨S32x500, .f32⟩ : BufTy).Contents (Elt F) → (⟨S32x500, .f32⟩ : BufTy).Contents (Elt F) → (⟨S32x500, .f32⟩ : BufTy).Contents (Elt F)),
    nullary main_c (constantI S_ 32 0#32),
    TRef.unary (TRef.of (T := ⟨S_, .i32⟩) main_c) (TRef.of (T := ⟨S_, .f32⟩) main_call2_v0) (sitofp .f32),
    TRef.unary (TRef.of (T := ⟨S_, .f32⟩) main_call2_v0) (TRef.of (T := ⟨S32x500, .f32⟩) main_call2_v1) (broadcastInDim S32x500 ![] bcast_S_S32x500),
    TRef.binary (TRef.of (T := ⟨S32x500, .f32⟩) main_call2_v1) (TRef.of (T := ⟨S32x500, .f32⟩) main_v68) (TRef.of (T := ⟨S32x500, .f32⟩) main_v69) maximumf,
    unary main_v50 main_v70 ((extractStridedSlice S32x500x1 ![0, 0, 3] · slices_S32x500x4_S32x500x1_0_0_3) : (⟨S32x500x4, .f32⟩ : BufTy).Contents (Elt F) → (⟨S32x500x1, .f32⟩ : BufTy).Contents (Elt F)),
    reshape main_v70 main_v71 rfl shapeCasts_S32x500x1_S32x500,
    unary main_v50 main_v72 ((extractStridedSlice S32x500x1 ![0, 0, 1] · slices_S32x500x4_S32x500x1_0_0_1) : (⟨S32x500x4, .f32⟩ : BufTy).Contents (Elt F) → (⟨S32x500x1, .f32⟩ : BufTy).Contents (Elt F)),
    reshape main_v72 main_v73 rfl shapeCasts_S32x500x1_S32x500,
    binary main_v71 main_v73 main_v74 (subf : (⟨S32x500, .f32⟩ : BufTy).Contents (Elt F) → (⟨S32x500, .f32⟩ : BufTy).Contents (Elt F) → (⟨S32x500, .f32⟩ : BufTy).Contents (Elt F)),
    nullary main_c_14 (constantI S_ 32 0#32),
    TRef.unary (TRef.of (T := ⟨S_, .i32⟩) main_c_14) (TRef.of (T := ⟨S_, .f32⟩) main_call3_v0) (sitofp .f32),
    TRef.unary (TRef.of (T := ⟨S_, .f32⟩) main_call3_v0) (TRef.of (T := ⟨S32x500, .f32⟩) main_call3_v1) (broadcastInDim S32x500 ![] bcast_S_S32x500),
    TRef.binary (TRef.of (T := ⟨S32x500, .f32⟩) main_call3_v1) (TRef.of (T := ⟨S32x500, .f32⟩) main_v74) (TRef.of (T := ⟨S32x500, .f32⟩) main_v75) maximumf,
    binary main_v69 main_v75 main_v76 (mulf : (⟨S32x500, .f32⟩ : BufTy).Contents (Elt F) → (⟨S32x500, .f32⟩ : BufTy).Contents (Elt F) → (⟨S32x500, .f32⟩ : BufTy).Contents (Elt F)) ]

/-- Operations 120 to 138: the target boxes' areas %89. -/
abbrev ops7 : List (HloOp τ sig (Elt F)) :=
  [ unary main_v63 main_v77 ((extractStridedSlice S32x200x1 ![0, 0, 2] · slices_S32x200x4_S32x200x1_0_0_2) : (⟨S32x200x4, .f32⟩ : BufTy).Contents (Elt F) → (⟨S32x200x1, .f32⟩ : BufTy).Contents (Elt F)),
    reshape main_v77 main_v78 rfl shapeCasts_S32x200x1_S32x200,
    unary main_v63 main_v79 ((extractStridedSlice S32x200x1 ![0, 0, 0] · slices_S32x200x4_S32x200x1_0_0_0) : (⟨S32x200x4, .f32⟩ : BufTy).Contents (Elt F) → (⟨S32x200x1, .f32⟩ : BufTy).Contents (Elt F)),
    reshape main_v79 main_v80 rfl shapeCasts_S32x200x1_S32x200,
    binary main_v78 main_v80 main_v81 (subf : (⟨S32x200, .f32⟩ : BufTy).Contents (Elt F) → (⟨S32x200, .f32⟩ : BufTy).Contents (Elt F) → (⟨S32x200, .f32⟩ : BufTy).Contents (Elt F)),
    nullary main_c_15 (constantI S_ 32 0#32),
    TRef.unary (TRef.of (T := ⟨S_, .i32⟩) main_c_15) (TRef.of (T := ⟨S_, .f32⟩) main_call4_v0) (sitofp .f32),
    TRef.unary (TRef.of (T := ⟨S_, .f32⟩) main_call4_v0) (TRef.of (T := ⟨S32x200, .f32⟩) main_call4_v1) (broadcastInDim S32x200 ![] bcast_S_S32x200),
    TRef.binary (TRef.of (T := ⟨S32x200, .f32⟩) main_call4_v1) (TRef.of (T := ⟨S32x200, .f32⟩) main_v81) (TRef.of (T := ⟨S32x200, .f32⟩) main_v82) maximumf,
    unary main_v63 main_v83 ((extractStridedSlice S32x200x1 ![0, 0, 3] · slices_S32x200x4_S32x200x1_0_0_3) : (⟨S32x200x4, .f32⟩ : BufTy).Contents (Elt F) → (⟨S32x200x1, .f32⟩ : BufTy).Contents (Elt F)),
    reshape main_v83 main_v84 rfl shapeCasts_S32x200x1_S32x200,
    unary main_v63 main_v85 ((extractStridedSlice S32x200x1 ![0, 0, 1] · slices_S32x200x4_S32x200x1_0_0_1) : (⟨S32x200x4, .f32⟩ : BufTy).Contents (Elt F) → (⟨S32x200x1, .f32⟩ : BufTy).Contents (Elt F)),
    reshape main_v85 main_v86 rfl shapeCasts_S32x200x1_S32x200,
    binary main_v84 main_v86 main_v87 (subf : (⟨S32x200, .f32⟩ : BufTy).Contents (Elt F) → (⟨S32x200, .f32⟩ : BufTy).Contents (Elt F) → (⟨S32x200, .f32⟩ : BufTy).Contents (Elt F)),
    nullary main_c_16 (constantI S_ 32 0#32),
    TRef.unary (TRef.of (T := ⟨S_, .i32⟩) main_c_16) (TRef.of (T := ⟨S_, .f32⟩) main_call5_v0) (sitofp .f32),
    TRef.unary (TRef.of (T := ⟨S_, .f32⟩) main_call5_v0) (TRef.of (T := ⟨S32x200, .f32⟩) main_call5_v1) (broadcastInDim S32x200 ![] bcast_S_S32x200),
    TRef.binary (TRef.of (T := ⟨S32x200, .f32⟩) main_call5_v1) (TRef.of (T := ⟨S32x200, .f32⟩) main_v87) (TRef.of (T := ⟨S32x200, .f32⟩) main_v88) maximumf,
    binary main_v82 main_v88 main_v89 (mulf : (⟨S32x200, .f32⟩ : BufTy).Contents (Elt F) → (⟨S32x200, .f32⟩ : BufTy).Contents (Elt F) → (⟨S32x200, .f32⟩ : BufTy).Contents (Elt F)) ]

/-- Operations 139 to 162: the intersections' areas %110. -/
abbrev ops8 : List (HloOp τ sig (Elt F)) :=
  [ unary main_v50 main_v90 ((extractStridedSlice S32x500x2 ![0, 0, 0] · slices_S32x500x4_S32x500x2_0_0_0) : (⟨S32x500x4, .f32⟩ : BufTy).Contents (Elt F) → (⟨S32x500x2, .f32⟩ : BufTy).Contents (Elt F)),
    unary main_v90 main_v91 (broadcastInDim S32x500x1x2 ![0, 1, 3] bcast_S32x500x2_S32x500x1x2_0_1_3 : (⟨S32x500x2, .f32⟩ : BufTy).Contents (Elt F) → (⟨S32x500x1x2, .f32⟩ : BufTy).Contents (Elt F)),
    unary main_v63 main_v92 ((extractStridedSlice S32x200x2 ![0, 0, 0] · slices_S32x200x4_S32x200x2_0_0_0) : (⟨S32x200x4, .f32⟩ : BufTy).Contents (Elt F) → (⟨S32x200x2, .f32⟩ : BufTy).Contents (Elt F)),
    unary main_v92 main_v93 (broadcastInDim S32x1x200x2 ![0, 2, 3] bcast_S32x200x2_S32x1x200x2_0_2_3 : (⟨S32x200x2, .f32⟩ : BufTy).Contents (Elt F) → (⟨S32x1x200x2, .f32⟩ : BufTy).Contents (Elt F)),
    unary main_v91 main_v94 (broadcastInDim S32x500x200x2 ![0, 1, 2, 3] bcast_S32x500x1x2_S32x500x200x2_0_1_2_3 : (⟨S32x500x1x2, .f32⟩ : BufTy).Contents (Elt F) → (⟨S32x500x200x2, .f32⟩ : BufTy).Contents (Elt F)),
    unary main_v93 main_v95 (broadcastInDim S32x500x200x2 ![0, 1, 2, 3] bcast_S32x1x200x2_S32x500x200x2_0_1_2_3 : (⟨S32x1x200x2, .f32⟩ : BufTy).Contents (Elt F) → (⟨S32x500x200x2, .f32⟩ : BufTy).Contents (Elt F)),
    binary main_v94 main_v95 main_v96 (maximumf : (⟨S32x500x200x2, .f32⟩ : BufTy).Contents (Elt F) → (⟨S32x500x200x2, .f32⟩ : BufTy).Contents (Elt F) → (⟨S32x500x200x2, .f32⟩ : BufTy).Contents (Elt F)),
    unary main_v50 main_v97 ((extractStridedSlice S32x500x2 ![0, 0, 2] · slices_S32x500x4_S32x500x2_0_0_2) : (⟨S32x500x4, .f32⟩ : BufTy).Contents (Elt F) → (⟨S32x500x2, .f32⟩ : BufTy).Contents (Elt F)),
    unary main_v97 main_v98 (broadcastInDim S32x500x1x2 ![0, 1, 3] bcast_S32x500x2_S32x500x1x2_0_1_3 : (⟨S32x500x2, .f32⟩ : BufTy).Contents (Elt F) → (⟨S32x500x1x2, .f32⟩ : BufTy).Contents (Elt F)),
    unary main_v63 main_v99 ((extractStridedSlice S32x200x2 ![0, 0, 2] · slices_S32x200x4_S32x200x2_0_0_2) : (⟨S32x200x4, .f32⟩ : BufTy).Contents (Elt F) → (⟨S32x200x2, .f32⟩ : BufTy).Contents (Elt F)),
    unary main_v99 main_v100 (broadcastInDim S32x1x200x2 ![0, 2, 3] bcast_S32x200x2_S32x1x200x2_0_2_3 : (⟨S32x200x2, .f32⟩ : BufTy).Contents (Elt F) → (⟨S32x1x200x2, .f32⟩ : BufTy).Contents (Elt F)),
    unary main_v98 main_v101 (broadcastInDim S32x500x200x2 ![0, 1, 2, 3] bcast_S32x500x1x2_S32x500x200x2_0_1_2_3 : (⟨S32x500x1x2, .f32⟩ : BufTy).Contents (Elt F) → (⟨S32x500x200x2, .f32⟩ : BufTy).Contents (Elt F)),
    unary main_v100 main_v102 (broadcastInDim S32x500x200x2 ![0, 1, 2, 3] bcast_S32x1x200x2_S32x500x200x2_0_1_2_3 : (⟨S32x1x200x2, .f32⟩ : BufTy).Contents (Elt F) → (⟨S32x500x200x2, .f32⟩ : BufTy).Contents (Elt F)),
    binary main_v101 main_v102 main_v103 (minimumf : (⟨S32x500x200x2, .f32⟩ : BufTy).Contents (Elt F) → (⟨S32x500x200x2, .f32⟩ : BufTy).Contents (Elt F) → (⟨S32x500x200x2, .f32⟩ : BufTy).Contents (Elt F)),
    binary main_v103 main_v96 main_v104 (subf : (⟨S32x500x200x2, .f32⟩ : BufTy).Contents (Elt F) → (⟨S32x500x200x2, .f32⟩ : BufTy).Contents (Elt F) → (⟨S32x500x200x2, .f32⟩ : BufTy).Contents (Elt F)),
    nullary main_c_17 (constantI S_ 32 0#32),
    TRef.unary (TRef.of (T := ⟨S_, .i32⟩) main_c_17) (TRef.of (T := ⟨S_, .f32⟩) main_call6_v0) (sitofp .f32),
    TRef.unary (TRef.of (T := ⟨S_, .f32⟩) main_call6_v0) (TRef.of (T := ⟨S32x500x200x2, .f32⟩) main_call6_v1) (broadcastInDim S32x500x200x2 ![] bcast_S_S32x500x200x2),
    TRef.binary (TRef.of (T := ⟨S32x500x200x2, .f32⟩) main_call6_v1) (TRef.of (T := ⟨S32x500x200x2, .f32⟩) main_v104) (TRef.of (T := ⟨S32x500x200x2, .f32⟩) main_v105) maximumf,
    unary main_v105 main_v106 ((extractStridedSlice S32x500x200x1 ![0, 0, 0, 0] · slices_S32x500x200x2_S32x500x200x1_0_0_0_0) : (⟨S32x500x200x2, .f32⟩ : BufTy).Contents (Elt F) → (⟨S32x500x200x1, .f32⟩ : BufTy).Contents (Elt F)),
    reshape main_v106 main_v107 rfl shapeCasts_S32x500x200x1_S32x500x200,
    unary main_v105 main_v108 ((extractStridedSlice S32x500x200x1 ![0, 0, 0, 1] · slices_S32x500x200x2_S32x500x200x1_0_0_0_1) : (⟨S32x500x200x2, .f32⟩ : BufTy).Contents (Elt F) → (⟨S32x500x200x1, .f32⟩ : BufTy).Contents (Elt F)),
    reshape main_v108 main_v109 rfl shapeCasts_S32x500x200x1_S32x500x200,
    binary main_v107 main_v109 main_v110 (mulf : (⟨S32x500x200, .f32⟩ : BufTy).Contents (Elt F) → (⟨S32x500x200, .f32⟩ : BufTy).Contents (Elt F) → (⟨S32x500x200, .f32⟩ : BufTy).Contents (Elt F)) ]

/-- Operations 163 to 172: the unions' areas %116 and the intersection-over-union %119. -/
abbrev ops9 : List (HloOp τ sig (Elt F)) :=
  [ unary main_v76 main_v111 (broadcastInDim S32x500x1 ![0, 1] bcast_S32x500_S32x500x1_0_1 : (⟨S32x500, .f32⟩ : BufTy).Contents (Elt F) → (⟨S32x500x1, .f32⟩ : BufTy).Contents (Elt F)),
    unary main_v89 main_v112 (broadcastInDim S32x1x200 ![0, 2] bcast_S32x200_S32x1x200_0_2 : (⟨S32x200, .f32⟩ : BufTy).Contents (Elt F) → (⟨S32x1x200, .f32⟩ : BufTy).Contents (Elt F)),
    unary main_v111 main_v113 (broadcastInDim S32x500x200 ![0, 1, 2] bcast_S32x500x1_S32x500x200_0_1_2 : (⟨S32x500x1, .f32⟩ : BufTy).Contents (Elt F) → (⟨S32x500x200, .f32⟩ : BufTy).Contents (Elt F)),
    unary main_v112 main_v114 (broadcastInDim S32x500x200 ![0, 1, 2] bcast_S32x1x200_S32x500x200_0_1_2 : (⟨S32x1x200, .f32⟩ : BufTy).Contents (Elt F) → (⟨S32x500x200, .f32⟩ : BufTy).Contents (Elt F)),
    binary main_v113 main_v114 main_v115 (addf : (⟨S32x500x200, .f32⟩ : BufTy).Contents (Elt F) → (⟨S32x500x200, .f32⟩ : BufTy).Contents (Elt F) → (⟨S32x500x200, .f32⟩ : BufTy).Contents (Elt F)),
    binary main_v115 main_v110 main_v116 (subf : (⟨S32x500x200, .f32⟩ : BufTy).Contents (Elt F) → (⟨S32x500x200, .f32⟩ : BufTy).Contents (Elt F) → (⟨S32x500x200, .f32⟩ : BufTy).Contents (Elt F)),
    nullary main_cst_18 (constant S_ .f32 0x358637BD#32),
    unary main_cst_18 main_v117 (broadcastInDim S32x500x200 ![] bcast_S_S32x500x200 : (⟨S_, .f32⟩ : BufTy).Contents (Elt F) → (⟨S32x500x200, .f32⟩ : BufTy).Contents (Elt F)),
    binary main_v116 main_v117 main_v118 (maximumf : (⟨S32x500x200, .f32⟩ : BufTy).Contents (Elt F) → (⟨S32x500x200, .f32⟩ : BufTy).Contents (Elt F) → (⟨S32x500x200, .f32⟩ : BufTy).Contents (Elt F)),
    binary main_v110 main_v118 main_v119 (Host.divf : (⟨S32x500x200, .f32⟩ : BufTy).Contents (Elt F) → (⟨S32x500x200, .f32⟩ : BufTy).Contents (Elt F) → (⟨S32x500x200, .f32⟩ : BufTy).Contents (Elt F)) ]

/-- Operations 173 to 196: the enclosing boxes' areas %140. -/
abbrev ops10 : List (HloOp τ sig (Elt F)) :=
  [ unary main_v50 main_v120 ((extractStridedSlice S32x500x2 ![0, 0, 0] · slices_S32x500x4_S32x500x2_0_0_0) : (⟨S32x500x4, .f32⟩ : BufTy).Contents (Elt F) → (⟨S32x500x2, .f32⟩ : BufTy).Contents (Elt F)),
    unary main_v120 main_v121 (broadcastInDim S32x500x1x2 ![0, 1, 3] bcast_S32x500x2_S32x500x1x2_0_1_3 : (⟨S32x500x2, .f32⟩ : BufTy).Contents (Elt F) → (⟨S32x500x1x2, .f32⟩ : BufTy).Contents (Elt F)),
    unary main_v63 main_v122 ((extractStridedSlice S32x200x2 ![0, 0, 0] · slices_S32x200x4_S32x200x2_0_0_0) : (⟨S32x200x4, .f32⟩ : BufTy).Contents (Elt F) → (⟨S32x200x2, .f32⟩ : BufTy).Contents (Elt F)),
    unary main_v122 main_v123 (broadcastInDim S32x1x200x2 ![0, 2, 3] bcast_S32x200x2_S32x1x200x2_0_2_3 : (⟨S32x200x2, .f32⟩ : BufTy).Contents (Elt F) → (⟨S32x1x200x2, .f32⟩ : BufTy).Contents (Elt F)),
    unary main_v121 main_v124 (broadcastInDim S32x500x200x2 ![0, 1, 2, 3] bcast_S32x500x1x2_S32x500x200x2_0_1_2_3 : (⟨S32x500x1x2, .f32⟩ : BufTy).Contents (Elt F) → (⟨S32x500x200x2, .f32⟩ : BufTy).Contents (Elt F)),
    unary main_v123 main_v125 (broadcastInDim S32x500x200x2 ![0, 1, 2, 3] bcast_S32x1x200x2_S32x500x200x2_0_1_2_3 : (⟨S32x1x200x2, .f32⟩ : BufTy).Contents (Elt F) → (⟨S32x500x200x2, .f32⟩ : BufTy).Contents (Elt F)),
    binary main_v124 main_v125 main_v126 (minimumf : (⟨S32x500x200x2, .f32⟩ : BufTy).Contents (Elt F) → (⟨S32x500x200x2, .f32⟩ : BufTy).Contents (Elt F) → (⟨S32x500x200x2, .f32⟩ : BufTy).Contents (Elt F)),
    unary main_v50 main_v127 ((extractStridedSlice S32x500x2 ![0, 0, 2] · slices_S32x500x4_S32x500x2_0_0_2) : (⟨S32x500x4, .f32⟩ : BufTy).Contents (Elt F) → (⟨S32x500x2, .f32⟩ : BufTy).Contents (Elt F)),
    unary main_v127 main_v128 (broadcastInDim S32x500x1x2 ![0, 1, 3] bcast_S32x500x2_S32x500x1x2_0_1_3 : (⟨S32x500x2, .f32⟩ : BufTy).Contents (Elt F) → (⟨S32x500x1x2, .f32⟩ : BufTy).Contents (Elt F)),
    unary main_v63 main_v129 ((extractStridedSlice S32x200x2 ![0, 0, 2] · slices_S32x200x4_S32x200x2_0_0_2) : (⟨S32x200x4, .f32⟩ : BufTy).Contents (Elt F) → (⟨S32x200x2, .f32⟩ : BufTy).Contents (Elt F)),
    unary main_v129 main_v130 (broadcastInDim S32x1x200x2 ![0, 2, 3] bcast_S32x200x2_S32x1x200x2_0_2_3 : (⟨S32x200x2, .f32⟩ : BufTy).Contents (Elt F) → (⟨S32x1x200x2, .f32⟩ : BufTy).Contents (Elt F)),
    unary main_v128 main_v131 (broadcastInDim S32x500x200x2 ![0, 1, 2, 3] bcast_S32x500x1x2_S32x500x200x2_0_1_2_3 : (⟨S32x500x1x2, .f32⟩ : BufTy).Contents (Elt F) → (⟨S32x500x200x2, .f32⟩ : BufTy).Contents (Elt F)),
    unary main_v130 main_v132 (broadcastInDim S32x500x200x2 ![0, 1, 2, 3] bcast_S32x1x200x2_S32x500x200x2_0_1_2_3 : (⟨S32x1x200x2, .f32⟩ : BufTy).Contents (Elt F) → (⟨S32x500x200x2, .f32⟩ : BufTy).Contents (Elt F)),
    binary main_v131 main_v132 main_v133 (maximumf : (⟨S32x500x200x2, .f32⟩ : BufTy).Contents (Elt F) → (⟨S32x500x200x2, .f32⟩ : BufTy).Contents (Elt F) → (⟨S32x500x200x2, .f32⟩ : BufTy).Contents (Elt F)),
    binary main_v133 main_v126 main_v134 (subf : (⟨S32x500x200x2, .f32⟩ : BufTy).Contents (Elt F) → (⟨S32x500x200x2, .f32⟩ : BufTy).Contents (Elt F) → (⟨S32x500x200x2, .f32⟩ : BufTy).Contents (Elt F)),
    nullary main_c_19 (constantI S_ 32 0#32),
    TRef.unary (TRef.of (T := ⟨S_, .i32⟩) main_c_19) (TRef.of (T := ⟨S_, .f32⟩) main_call7_v0) (sitofp .f32),
    TRef.unary (TRef.of (T := ⟨S_, .f32⟩) main_call7_v0) (TRef.of (T := ⟨S32x500x200x2, .f32⟩) main_call7_v1) (broadcastInDim S32x500x200x2 ![] bcast_S_S32x500x200x2),
    TRef.binary (TRef.of (T := ⟨S32x500x200x2, .f32⟩) main_call7_v1) (TRef.of (T := ⟨S32x500x200x2, .f32⟩) main_v134) (TRef.of (T := ⟨S32x500x200x2, .f32⟩) main_v135) maximumf,
    unary main_v135 main_v136 ((extractStridedSlice S32x500x200x1 ![0, 0, 0, 0] · slices_S32x500x200x2_S32x500x200x1_0_0_0_0) : (⟨S32x500x200x2, .f32⟩ : BufTy).Contents (Elt F) → (⟨S32x500x200x1, .f32⟩ : BufTy).Contents (Elt F)),
    reshape main_v136 main_v137 rfl shapeCasts_S32x500x200x1_S32x500x200,
    unary main_v135 main_v138 ((extractStridedSlice S32x500x200x1 ![0, 0, 0, 1] · slices_S32x500x200x2_S32x500x200x1_0_0_0_1) : (⟨S32x500x200x2, .f32⟩ : BufTy).Contents (Elt F) → (⟨S32x500x200x1, .f32⟩ : BufTy).Contents (Elt F)),
    reshape main_v138 main_v139 rfl shapeCasts_S32x500x200x1_S32x500x200,
    binary main_v137 main_v139 main_v140 (mulf : (⟨S32x500x200, .f32⟩ : BufTy).Contents (Elt F) → (⟨S32x500x200, .f32⟩ : BufTy).Contents (Elt F) → (⟨S32x500x200, .f32⟩ : BufTy).Contents (Elt F)) ]

/-- Operations 197 to 203: the box term %146, minus the generalized intersection-over-union. -/
abbrev ops11 : List (HloOp τ sig (Elt F)) :=
  [ binary main_v140 main_v116 main_v141 (subf : (⟨S32x500x200, .f32⟩ : BufTy).Contents (Elt F) → (⟨S32x500x200, .f32⟩ : BufTy).Contents (Elt F) → (⟨S32x500x200, .f32⟩ : BufTy).Contents (Elt F)),
    nullary main_cst_20 (constant S_ .f32 0x358637BD#32),
    unary main_cst_20 main_v142 (broadcastInDim S32x500x200 ![] bcast_S_S32x500x200 : (⟨S_, .f32⟩ : BufTy).Contents (Elt F) → (⟨S32x500x200, .f32⟩ : BufTy).Contents (Elt F)),
    binary main_v140 main_v142 main_v143 (maximumf : (⟨S32x500x200, .f32⟩ : BufTy).Contents (Elt F) → (⟨S32x500x200, .f32⟩ : BufTy).Contents (Elt F) → (⟨S32x500x200, .f32⟩ : BufTy).Contents (Elt F)),
    binary main_v141 main_v143 main_v144 (Host.divf : (⟨S32x500x200, .f32⟩ : BufTy).Contents (Elt F) → (⟨S32x500x200, .f32⟩ : BufTy).Contents (Elt F) → (⟨S32x500x200, .f32⟩ : BufTy).Contents (Elt F)),
    binary main_v119 main_v144 main_v145 (subf : (⟨S32x500x200, .f32⟩ : BufTy).Contents (Elt F) → (⟨S32x500x200, .f32⟩ : BufTy).Contents (Elt F) → (⟨S32x500x200, .f32⟩ : BufTy).Contents (Elt F)),
    unary main_v145 main_v146 (Host.negf : (⟨S32x500x200, .f32⟩ : BufTy).Contents (Elt F) → (⟨S32x500x200, .f32⟩ : BufTy).Contents (Elt F)) ]

/-- Operations 204 to 214: the weighted sum %154 of the class, polyline and box terms. -/
abbrev ops12 : List (HloOp τ sig (Elt F)) :=
  [ nullary main_cst_21 (constant S_ .f32 0x3F800000#32),
    unary main_cst_21 main_v147 (broadcastInDim S32x500x200 ![] bcast_S_S32x500x200 : (⟨S_, .f32⟩ : BufTy).Contents (Elt F) → (⟨S32x500x200, .f32⟩ : BufTy).Contents (Elt F)),
    binary main_v147 main_v14 main_v148 (mulf : (⟨S32x500x200, .f32⟩ : BufTy).Contents (Elt F) → (⟨S32x500x200, .f32⟩ : BufTy).Contents (Elt F) → (⟨S32x500x200, .f32⟩ : BufTy).Contents (Elt F)),
    nullary main_cst_22 (constant S_ .f32 0x40A00000#32),
    unary main_cst_22 main_v149 (broadcastInDim S32x500x200 ![] bcast_S_S32x500x200 : (⟨S_, .f32⟩ : BufTy).Contents (Elt F) → (⟨S32x500x200, .f32⟩ : BufTy).Contents (Elt F)),
    binary main_v149 main_v37 main_v150 (mulf : (⟨S32x500x200, .f32⟩ : BufTy).Contents (Elt F) → (⟨S32x500x200, .f32⟩ : BufTy).Contents (Elt F) → (⟨S32x500x200, .f32⟩ : BufTy).Contents (Elt F)),
    binary main_v148 main_v150 main_v151 (addf : (⟨S32x500x200, .f32⟩ : BufTy).Contents (Elt F) → (⟨S32x500x200, .f32⟩ : BufTy).Contents (Elt F) → (⟨S32x500x200, .f32⟩ : BufTy).Contents (Elt F)),
    nullary main_cst_23 (constant S_ .f32 0x3F800000#32),
    unary main_cst_23 main_v152 (broadcastInDim S32x500x200 ![] bcast_S_S32x500x200 : (⟨S_, .f32⟩ : BufTy).Contents (Elt F) → (⟨S32x500x200, .f32⟩ : BufTy).Contents (Elt F)),
    binary main_v152 main_v146 main_v153 (mulf : (⟨S32x500x200, .f32⟩ : BufTy).Contents (Elt F) → (⟨S32x500x200, .f32⟩ : BufTy).Contents (Elt F) → (⟨S32x500x200, .f32⟩ : BufTy).Contents (Elt F)),
    binary main_v151 main_v153 main_v154 (addf : (⟨S32x500x200, .f32⟩ : BufTy).Contents (Elt F) → (⟨S32x500x200, .f32⟩ : BufTy).Contents (Elt F) → (⟨S32x500x200, .f32⟩ : BufTy).Contents (Elt F)) ]

/-- The list is its twelve stretches in a row. -/
theorem ops_split : (ops : List (HloOp τ sig (Elt F)))
    = ops1 ++ (ops2 ++ (ops3 ++ (ops4 ++ (ops5 ++ (ops6 ++ (ops7 ++ (ops8 ++ (ops9 ++ (ops10 ++ (ops11 ++ ops12)))))))))) := rfl

/-! ### Stretch 2 without transports

The called function's operations are spelt over typed references, whose builders move each function along the
reference's type equation; at a literal reference that transport is the identity. `ops2'` is stretch 2 with those
operations spelt by the plain builders, each function at the type its typed references carry: the same list. One
element needs a word: for the and-reduce %call0_v12 the outer transport is removed first, so that the two reduces are
compared argument by argument. -/

theorem e_call0_v12 : (TRef.binary (TRef.of (T := ⟨S32x500x200x1, .i1⟩) main_call0_v11) (TRef.of (T := ⟨S_, .i1⟩) main_call0_c_3) (TRef.of (T := ⟨S32x500x200, .i1⟩) main_call0_v12) (fun x v => Host.reduce IntOp.andi x v reducesTo_S32x500x200x1_S32x500x200_d3 h_S_) : HloOp τ sig (Elt F)) = binary main_call0_v11 main_call0_c_3 main_call0_v12 ((fun x v => Host.reduce IntOp.andi x v reducesTo_S32x500x200x1_S32x500x200_d3 h_S_) : (⟨S32x500x200x1, .i1⟩ : BufTy).Contents (Elt F) → (⟨S_, .i1⟩ : BufTy).Contents (Elt F) → (⟨S32x500x200, .i1⟩ : BufTy).Contents (Elt F)) := by
  show StableHlo.binary main_call0_v11 main_call0_c_3 main_call0_v12 _ _ _ _ = StableHlo.binary main_call0_v11 main_call0_c_3 main_call0_v12 _ _ _ _
  refine congrArg (fun f => StableHlo.binary (τ := τ) (Val := Elt F) main_call0_v11 main_call0_c_3 main_call0_v12 f) ?_
  funext u v
  exact (cast_eq _ _).trans rfl

/-- Stretch 2 with the called function's operations spelt by the plain builders. -/
abbrev ops2' : List (HloOp τ sig (Elt F)) :=
  [ nullary main_call0_c (constantI S_ 32 0#32 : (⟨S_, .i32⟩ : BufTy).Contents (Elt F)),
    unary main_call0_c main_call0_v0 (broadcastInDim S32x500x200 ![] bcast_S_S32x500x200 : (⟨S_, .i32⟩ : BufTy).Contents (Elt F) → (⟨S32x500x200, .i32⟩ : BufTy).Contents (Elt F)),
    binary main_v12 main_call0_v0 main_call0_v1 (cmpi .slt : (⟨S32x500x200, .i32⟩ : BufTy).Contents (Elt F) → (⟨S32x500x200, .i32⟩ : BufTy).Contents (Elt F) → (⟨S32x500x200, .i1⟩ : BufTy).Contents (Elt F)),
    nullary main_call0_c_0 (constantI S_ 32 92#32 : (⟨S_, .i32⟩ : BufTy).Contents (Elt F)),
    unary main_call0_c_0 main_call0_v2 (broadcastInDim S32x500x200 ![] bcast_S_S32x500x200 : (⟨S_, .i32⟩ : BufTy).Contents (Elt F) → (⟨S32x500x200, .i32⟩ : BufTy).Contents (Elt F)),
    binary main_v12 main_call0_v2 main_call0_v3 (addi : (⟨S32x500x200, .i32⟩ : BufTy).Contents (Elt F) → (⟨S32x500x200, .i32⟩ : BufTy).Contents (Elt F) → (⟨S32x500x200, .i32⟩ : BufTy).Contents (Elt F)),
    ternary main_call0_v1 main_call0_v3 main_v12 main_call0_v4 (select : (⟨S32x500x200, .i1⟩ : BufTy).Contents (Elt F) → (⟨S32x500x200, .i32⟩ : BufTy).Contents (Elt F) → (⟨S32x500x200, .i32⟩ : BufTy).Contents (Elt F) → (⟨S32x500x200, .i32⟩ : BufTy).Contents (Elt F)),
    reshape main_call0_v4 main_call0_v5 rfl shapeCasts_S32x500x200_S32x500x200x1,
    nullary main_call0_c_1 (constantI S1 32 91#32 : (⟨S1, .i32⟩ : BufTy).Contents (Elt F)),
    nullary main_call0_c_2 (constantI S_ 32 0#32 : (⟨S_, .i32⟩ : BufTy).Contents (Elt F)),
    unary main_call0_c_2 main_call0_v6 (broadcastInDim S32x500x200x1 ![] bcast_S_S32x500x200x1 : (⟨S_, .i32⟩ : BufTy).Contents (Elt F) → (⟨S32x500x200x1, .i32⟩ : BufTy).Contents (Elt F)),
    binary main_call0_v5 main_call0_v6 main_call0_v7 (cmpi .sge : (⟨S32x500x200x1, .i32⟩ : BufTy).Contents (Elt F) → (⟨S32x500x200x1, .i32⟩ : BufTy).Contents (Elt F) → (⟨S32x500x200x1, .i1⟩ : BufTy).Contents (Elt F)),
    unary main_call0_c_1 main_call0_v8 (broadcastInDim S1x1x1x1 ![3] bcast_S1_S1x1x1x1_3 : (⟨S1, .i32⟩ : BufTy).Contents (Elt F) → (⟨S1x1x1x1, .i32⟩ : BufTy).Contents (Elt F)),
    unary main_call0_v8 main_call0_v9 (broadcastInDim S32x500x200x1 ![0, 1, 2, 3] bcast_S1x1x1x1_S32x500x200x1_0_1_2_3 : (⟨S1x1x1x1, .i32⟩ : BufTy).Contents (Elt F) → (⟨S32x500x200x1, .i32⟩ : BufTy).Contents (Elt F)),
    binary main_call0_v5 main_call0_v9 main_call0_v10 (cmpi .sle : (⟨S32x500x200x1, .i32⟩ : BufTy).Contents (Elt F) → (⟨S32x500x200x1, .i32⟩ : BufTy).Contents (Elt F) → (⟨S32x500x200x1, .i1⟩ : BufTy).Contents (Elt F)),
    binary main_call0_v7 main_call0_v10 main_call0_v11 (andi : (⟨S32x500x200x1, .i1⟩ : BufTy).Contents (Elt F) → (⟨S32x500x200x1, .i1⟩ : BufTy).Contents (Elt F) → (⟨S32x500x200x1, .i1⟩ : BufTy).Contents (Elt F)),
    nullary main_call0_c_3 (constantI S_ 1 1#1 : (⟨S_, .i1⟩ : BufTy).Contents (Elt F)),
    binary main_call0_v11 main_call0_c_3 main_call0_v12 ((fun x v => Host.reduce IntOp.andi x v reducesTo_S32x500x200x1_S32x500x200_d3 h_S_) : (⟨S32x500x200x1, .i1⟩ : BufTy).Contents (Elt F) → (⟨S_, .i1⟩ : BufTy).Contents (Elt F) → (⟨S32x500x200, .i1⟩ : BufTy).Contents (Elt F)),
    binary main_v10 main_call0_v5 main_call0_v13 ((fun x i => Host.gather gather_S32x500x92_S32x500x200x1_S32x500x200_n_2_01_01_2_3_111 x i) : (⟨S32x500x92, .f32⟩ : BufTy).Contents (Elt F) → (⟨S32x500x200x1, .i32⟩ : BufTy).Contents (Elt F) → (⟨S32x500x200, .f32⟩ : BufTy).Contents (Elt F)),
    nullary main_call0_cst (constant S_ .f32 0x7FC00000#32 : (⟨S_, .f32⟩ : BufTy).Contents (Elt F)),
    unary main_call0_cst main_call0_v14 (broadcastInDim S32x500x200 ![] bcast_S_S32x500x200 : (⟨S_, .f32⟩ : BufTy).Contents (Elt F) → (⟨S32x500x200, .f32⟩ : BufTy).Contents (Elt F)),
    ternary main_call0_v12 main_call0_v13 main_call0_v14 main_v13 (select : (⟨S32x500x200, .i1⟩ : BufTy).Contents (Elt F) → (⟨S32x500x200, .f32⟩ : BufTy).Contents (Elt F) → (⟨S32x500x200, .f32⟩ : BufTy).Contents (Elt F) → (⟨S32x500x200, .f32⟩ : BufTy).Contents (Elt F)),
    unary main_v13 main_v14 (Host.negf : (⟨S32x500x200, .f32⟩ : BufTy).Contents (Elt F) → (⟨S32x500x200, .f32⟩ : BufTy).Contents (Elt F)) ]

theorem ops2_eq : (ops2 : List (HloOp τ sig (Elt F))) = ops2' := by
  delta ops2 ops2'
  rw [e_call0_v12]
  rfl

/-! ### What each stretch leaves, from what it finds

For an arbitrary incoming valuation `V`: if the buffers a stretch reads hold their stages, the buffers it writes for
later stretches hold theirs. Only the stretch's own operations are unfolded; the incoming stages stay folded. -/

/-- Stretch 1 leaves the softmax %10 of the logits. -/
theorem c1_v10 (V : Valuation τ sig (Elt F)) (x0 : (⟨S32x500x92, .f32⟩ : BufTy).Contents (Elt F))
    (h0 : V (Proc.devRef .tc main_arg0) = x0) :
    after ops1 V (Proc.devRef .tc main_v10) = val_main_v10 (F := F) x0 := by
  after_results_simp
  rw [h0]
  rfl

/-- Stretch 1 leaves the labels %12, broadcast over the queries. -/
theorem c1_v12 (V : Valuation τ sig (Elt F)) (x2 : (⟨S32x200, .i32⟩ : BufTy).Contents (Elt F))
    (h2 : V (Proc.devRef .tc main_arg2) = x2) :
    after ops1 V (Proc.devRef .tc main_v12) = val_main_v12 (F := F) x2 := by
  after_results_simp
  rw [h2]
  rfl

/-- Stretch 2 leaves the class term %14. -/
theorem c2_v14 (V : Valuation τ sig (Elt F)) (x0 : (⟨S32x500x92, .f32⟩ : BufTy).Contents (Elt F)) (x2 : (⟨S32x200, .i32⟩ : BufTy).Contents (Elt F))
    (h10 : V (Proc.devRef .tc main_v10) = val_main_v10 (F := F) x0)
    (h12 : V (Proc.devRef .tc main_v12) = val_main_v12 (F := F) x2) :
    after ops2 V (Proc.devRef .tc main_v14) = val_main_v14 (F := F) x0 x2 := by
  rw [ops2_eq]
  after_results_simp
  rw [h10, h12]
  rfl

/-- Stretch 3 leaves the polyline term %37. -/
theorem c3_v37 (V : Valuation τ sig (Elt F)) (x1 : (⟨S32x500x16x2, .f32⟩ : BufTy).Contents (Elt F)) (x3 : (⟨S32x200x16x2, .f32⟩ : BufTy).Contents (Elt F))
    (h1 : V (Proc.devRef .tc main_arg1) = x1)
    (h3 : V (Proc.devRef .tc main_arg3) = x3) :
    after ops3 V (Proc.devRef .tc main_v37) = val_main_v37 (F := F) x1 x3 := by
  after_results_simp
  rw [h1, h3]
  rfl

/-- Stretch 4 leaves the query boxes' least x %46, -/
theorem c4_v46 (V : Valuation τ sig (Elt F)) (x1 : (⟨S32x500x16x2, .f32⟩ : BufTy).Contents (Elt F))
    (h1 : V (Proc.devRef .tc main_arg1) = x1) :
    after ops4 V (Proc.devRef .tc main_v46) = val_main_v46 (F := F) x1 := by
  after_results_simp
  rw [h1]
  rfl

/-- their least y %47, -/
theorem c4_v47 (V : Valuation τ sig (Elt F)) (x1 : (⟨S32x500x16x2, .f32⟩ : BufTy).Contents (Elt F))
    (h1 : V (Proc.devRef .tc main_arg1) = x1) :
    after ops4 V (Proc.devRef .tc main_v47) = val_main_v47 (F := F) x1 := by
  after_results_simp
  rw [h1]
  rfl

/-- their greatest x %48, -/
theorem c4_v48 (V : Valuation τ sig (Elt F)) (x1 : (⟨S32x500x16x2, .f32⟩ : BufTy).Contents (Elt F))
    (h1 : V (Proc.devRef .tc main_arg1) = x1) :
    after ops4 V (Proc.devRef .tc main_v48) = val_main_v48 (F := F) x1 := by
  after_results_simp
  rw [h1]
  rfl

/-- and their greatest y %49. -/
theorem c4_v49 (V : Valuation τ sig (Elt F)) (x1 : (⟨S32x500x16x2, .f32⟩ : BufTy).Contents (Elt F))
    (h1 : V (Proc.devRef .tc main_arg1) = x1) :
    after ops4 V (Proc.devRef .tc main_v49) = val_main_v49 (F := F) x1 := by
  after_results_simp
  rw [h1]
  rfl

/-- Stretch 5 joins the four sides into the query box array %50: its first operation is the concatenate, whose
    operands are read at the four literal references and hold the folded sides. -/
theorem c5_v50 (V : Valuation τ sig (Elt F)) (x1 : (⟨S32x500x16x2, .f32⟩ : BufTy).Contents (Elt F))
    (h46 : V (Proc.devRef .tc main_v46) = val_main_v46 (F := F) x1)
    (h47 : V (Proc.devRef .tc main_v47) = val_main_v47 (F := F) x1)
    (h48 : V (Proc.devRef .tc main_v48) = val_main_v48 (F := F) x1)
    (h49 : V (Proc.devRef .tc main_v49) = val_main_v49 (F := F) x1) :
    after ops5 V (Proc.devRef .tc main_v50) = val_main_v50 (F := F) x1 := by
  after_results_simp
  show concatenate S32x500x4 2 [⟨S32x500x1, V (Proc.devRef .tc main_v46)⟩, ⟨S32x500x1, V (Proc.devRef .tc main_v47)⟩,
      ⟨S32x500x1, V (Proc.devRef .tc main_v48)⟩, ⟨S32x500x1, V (Proc.devRef .tc main_v49)⟩]
      concatenates_S32x500x1_S32x500x1_S32x500x1_S32x500x1_S32x500x4_d2 = _
  rw [h46, h47, h48, h49]
  rfl

/-- Stretch 5 leaves the target boxes' least x %59, -/
theorem c5_v59 (V : Valuation τ sig (Elt F)) (x3 : (⟨S32x200x16x2, .f32⟩ : BufTy).Contents (Elt F))
    (h3 : V (Proc.devRef .tc main_arg3) = x3) :
    after ops5 V (Proc.devRef .tc main_v59) = val_main_v59 (F := F) x3 := by
  after_results_simp
  rw [h3]
  rfl

/-- their least y %60, -/
theorem c5_v60 (V : Valuation τ sig (Elt F)) (x3 : (⟨S32x200x16x2, .f32⟩ : BufTy).Contents (Elt F))
    (h3 : V (Proc.devRef .tc main_arg3) = x3) :
    after ops5 V (Proc.devRef .tc main_v60) = val_main_v60 (F := F) x3 := by
  after_results_simp
  rw [h3]
  rfl

/-- their greatest x %61, -/
theorem c5_v61 (V : Valuation τ sig (Elt F)) (x3 : (⟨S32x200x16x2, .f32⟩ : BufTy).Contents (Elt F))
    (h3 : V (Proc.devRef .tc main_arg3) = x3) :
    after ops5 V (Proc.devRef .tc main_v61) = val_main_v61 (F := F) x3 := by
  after_results_simp
  rw [h3]
  rfl

/-- and their greatest y %62. -/
theorem c5_v62 (V : Valuation τ sig (Elt F)) (x3 : (⟨S32x200x16x2, .f32⟩ : BufTy).Contents (Elt F))
    (h3 : V (Proc.devRef .tc main_arg3) = x3) :
    after ops5 V (Proc.devRef .tc main_v62) = val_main_v62 (F := F) x3 := by
  after_results_simp
  rw [h3]
  rfl

/-- Stretch 6 joins the four sides into the target box array %63, in the same way. -/
theorem c6_v63 (V : Valuation τ sig (Elt F)) (x3 : (⟨S32x200x16x2, .f32⟩ : BufTy).Contents (Elt F))
    (h59 : V (Proc.devRef .tc main_v59) = val_main_v59 (F := F) x3)
    (h60 : V (Proc.devRef .tc main_v60) = val_main_v60 (F := F) x3)
    (h61 : V (Proc.devRef .tc main_v61) = val_main_v61 (F := F) x3)
    (h62 : V (Proc.devRef .tc main_v62) = val_main_v62 (F := F) x3) :
    after ops6 V (Proc.devRef .tc main_v63) = val_main_v63 (F := F) x3 := by
  after_results_simp
  show concatenate S32x200x4 2 [⟨S32x200x1, V (Proc.devRef .tc main_v59)⟩, ⟨S32x200x1, V (Proc.devRef .tc main_v60)⟩,
      ⟨S32x200x1, V (Proc.devRef .tc main_v61)⟩, ⟨S32x200x1, V (Proc.devRef .tc main_v62)⟩]
      concatenates_S32x200x1_S32x200x1_S32x200x1_S32x200x1_S32x200x4_d2 = _
  rw [h59, h60, h61, h62]
  rfl

/-- Stretch 6 leaves the query boxes' areas %76. -/
theorem c6_v76 (V : Valuation τ sig (Elt F)) (x1 : (⟨S32x500x16x2, .f32⟩ : BufTy).Contents (Elt F))
    (h50 : V (Proc.devRef .tc main_v50) = val_main_v50 (F := F) x1) :
    after ops6 V (Proc.devRef .tc main_v76) = val_main_v76 (F := F) x1 := by
  after_results_simp
  rw [h50]
  rfl

/-- Stretch 7 leaves the target boxes' areas %89. -/
theorem c7_v89 (V : Valuation τ sig (Elt F)) (x3 : (⟨S32x200x16x2, .f32⟩ : BufTy).Contents (Elt F))
    (h63 : V (Proc.devRef .tc main_v63) = val_main_v63 (F := F) x3) :
    after ops7 V (Proc.devRef .tc main_v89) = val_main_v89 (F := F) x3 := by
  after_results_simp
  rw [h63]
  rfl

/-- Stretch 8 leaves the intersections' areas %110. -/
theorem c8_v110 (V : Valuation τ sig (Elt F)) (x1 : (⟨S32x500x16x2, .f32⟩ : BufTy).Contents (Elt F)) (x3 : (⟨S32x200x16x2, .f32⟩ : BufTy).Contents (Elt F))
    (h50 : V (Proc.devRef .tc main_v50) = val_main_v50 (F := F) x1)
    (h63 : V (Proc.devRef .tc main_v63) = val_main_v63 (F := F) x3) :
    after ops8 V (Proc.devRef .tc main_v110) = val_main_v110 (F := F) x1 x3 := by
  after_results_simp
  rw [h50, h63]
  rfl

/-- Stretch 9 leaves the unions' areas %116 -/
theorem c9_v116 (V : Valuation τ sig (Elt F)) (x1 : (⟨S32x500x16x2, .f32⟩ : BufTy).Contents (Elt F)) (x3 : (⟨S32x200x16x2, .f32⟩ : BufTy).Contents (Elt F))
    (h76 : V (Proc.devRef .tc main_v76) = val_main_v76 (F := F) x1)
    (h89 : V (Proc.devRef .tc main_v89) = val_main_v89 (F := F) x3)
    (h110 : V (Proc.devRef .tc main_v110) = val_main_v110 (F := F) x1 x3) :
    after ops9 V (Proc.devRef .tc main_v116) = val_main_v116 (F := F) x1 x3 := by
  after_results_simp
  rw [h76, h89, h110]
  rfl

/-- and the intersection-over-union %119. -/
theorem c9_v119 (V : Valuation τ sig (Elt F)) (x1 : (⟨S32x500x16x2, .f32⟩ : BufTy).Contents (Elt F)) (x3 : (⟨S32x200x16x2, .f32⟩ : BufTy).Contents (Elt F))
    (h76 : V (Proc.devRef .tc main_v76) = val_main_v76 (F := F) x1)
    (h89 : V (Proc.devRef .tc main_v89) = val_main_v89 (F := F) x3)
    (h110 : V (Proc.devRef .tc main_v110) = val_main_v110 (F := F) x1 x3) :
    after ops9 V (Proc.devRef .tc main_v119) = val_main_v119 (F := F) x1 x3 := by
  after_results_simp
  rw [h76, h89, h110]
  rfl

/-- Stretch 10 leaves the enclosing boxes' areas %140. -/
theorem c10_v140 (V : Valuation τ sig (Elt F)) (x1 : (⟨S32x500x16x2, .f32⟩ : BufTy).Contents (Elt F)) (x3 : (⟨S32x200x16x2, .f32⟩ : BufTy).Contents (Elt F))
    (h50 : V (Proc.devRef .tc main_v50) = val_main_v50 (F := F) x1)
    (h63 : V (Proc.devRef .tc main_v63) = val_main_v63 (F := F) x3) :
    after ops10 V (Proc.devRef .tc main_v140) = val_main_v140 (F := F) x1 x3 := by
  after_results_simp
  rw [h50, h63]
  rfl

/-- Stretch 11 leaves the box term %146. -/
theorem c11_v146 (V : Valuation τ sig (Elt F)) (x1 : (⟨S32x500x16x2, .f32⟩ : BufTy).Contents (Elt F)) (x3 : (⟨S32x200x16x2, .f32⟩ : BufTy).Contents (Elt F))
    (h140 : V (Proc.devRef .tc main_v140) = val_main_v140 (F := F) x1 x3)
    (h116 : V (Proc.devRef .tc main_v116) = val_main_v116 (F := F) x1 x3)
    (h119 : V (Proc.devRef .tc main_v119) = val_main_v119 (F := F) x1 x3) :
    after ops11 V (Proc.devRef .tc main_v146) = val_main_v146 (F := F) x1 x3 := by
  after_results_simp
  rw [h140, h116, h119]
  rfl

/-- Stretch 12 leaves the weighted sum %154, from the class term, the polyline term and the box term. -/
theorem c12_v154 (V : Valuation τ sig (Elt F)) (x0 : (⟨S32x500x92, .f32⟩ : BufTy).Contents (Elt F)) (x1 : (⟨S32x500x16x2, .f32⟩ : BufTy).Contents (Elt F)) (x2 : (⟨S32x200, .i32⟩ : BufTy).Contents (Elt F)) (x3 : (⟨S32x200x16x2, .f32⟩ : BufTy).Contents (Elt F))
    (h14 : V (Proc.devRef .tc main_v14) = val_main_v14 (F := F) x0 x2)
    (h37 : V (Proc.devRef .tc main_v37) = val_main_v37 (F := F) x1 x3)
    (h146 : V (Proc.devRef .tc main_v146) = val_main_v146 (F := F) x1 x3) :
    after ops12 V (Proc.devRef .tc main_v154) = val_main_v154 (F := F) x0 x1 x2 x3 := by
  after_results_simp
  rw [h14, h37, h146]
  rfl

/-! ### What passes through each stretch

A buffer written before a stretch (or an argument) that no operation of the stretch writes holds after it what it held before. -/

theorem k1_arg1 (V : Valuation τ sig (Elt F)) : after ops1 V (Proc.devRef .tc main_arg1) = V (Proc.devRef .tc main_arg1) := by after_results_simp <;> rfl
theorem k1_arg3 (V : Valuation τ sig (Elt F)) : after ops1 V (Proc.devRef .tc main_arg3) = V (Proc.devRef .tc main_arg3) := by after_results_simp <;> rfl
theorem k2_arg1 (V : Valuation τ sig (Elt F)) : after ops2 V (Proc.devRef .tc main_arg1) = V (Proc.devRef .tc main_arg1) := by after_results_simp <;> rfl
theorem k2_arg3 (V : Valuation τ sig (Elt F)) : after ops2 V (Proc.devRef .tc main_arg3) = V (Proc.devRef .tc main_arg3) := by after_results_simp <;> rfl
theorem k3_v14 (V : Valuation τ sig (Elt F)) : after ops3 V (Proc.devRef .tc main_v14) = V (Proc.devRef .tc main_v14) := by after_results_simp <;> rfl
theorem k3_arg1 (V : Valuation τ sig (Elt F)) : after ops3 V (Proc.devRef .tc main_arg1) = V (Proc.devRef .tc main_arg1) := by after_results_simp <;> rfl
theorem k3_arg3 (V : Valuation τ sig (Elt F)) : after ops3 V (Proc.devRef .tc main_arg3) = V (Proc.devRef .tc main_arg3) := by after_results_simp <;> rfl
theorem k4_v14 (V : Valuation τ sig (Elt F)) : after ops4 V (Proc.devRef .tc main_v14) = V (Proc.devRef .tc main_v14) := by after_results_simp <;> rfl
theorem k4_v37 (V : Valuation τ sig (Elt F)) : after ops4 V (Proc.devRef .tc main_v37) = V (Proc.devRef .tc main_v37) := by after_results_simp <;> rfl
theorem k4_arg3 (V : Valuation τ sig (Elt F)) : after ops4 V (Proc.devRef .tc main_arg3) = V (Proc.devRef .tc main_arg3) := by after_results_simp <;> rfl
theorem k5_v14 (V : Valuation τ sig (Elt F)) : after ops5 V (Proc.devRef .tc main_v14) = V (Proc.devRef .tc main_v14) := by after_results_simp <;> rfl
theorem k5_v37 (V : Valuation τ sig (Elt F)) : after ops5 V (Proc.devRef .tc main_v37) = V (Proc.devRef .tc main_v37) := by after_results_simp <;> rfl
theorem k6_v14 (V : Valuation τ sig (Elt F)) : after ops6 V (Proc.devRef .tc main_v14) = V (Proc.devRef .tc main_v14) := by after_results_simp <;> rfl
theorem k6_v37 (V : Valuation τ sig (Elt F)) : after ops6 V (Proc.devRef .tc main_v37) = V (Proc.devRef .tc main_v37) := by after_results_simp <;> rfl
theorem k6_v50 (V : Valuation τ sig (Elt F)) : after ops6 V (Proc.devRef .tc main_v50) = V (Proc.devRef .tc main_v50) := by after_results_simp <;> rfl
theorem k7_v14 (V : Valuation τ sig (Elt F)) : after ops7 V (Proc.devRef .tc main_v14) = V (Proc.devRef .tc main_v14) := by after_results_simp <;> rfl
theorem k7_v37 (V : Valuation τ sig (Elt F)) : after ops7 V (Proc.devRef .tc main_v37) = V (Proc.devRef .tc main_v37) := by after_results_simp <;> rfl
theorem k7_v50 (V : Valuation τ sig (Elt F)) : after ops7 V (Proc.devRef .tc main_v50) = V (Proc.devRef .tc main_v50) := by after_results_simp <;> rfl
theorem k7_v63 (V : Valuation τ sig (Elt F)) : after ops7 V (Proc.devRef .tc main_v63) = V (Proc.devRef .tc main_v63) := by after_results_simp <;> rfl
theorem k7_v76 (V : Valuation τ sig (Elt F)) : after ops7 V (Proc.devRef .tc main_v76) = V (Proc.devRef .tc main_v76) := by after_results_simp <;> rfl
theorem k8_v14 (V : Valuation τ sig (Elt F)) : after ops8 V (Proc.devRef .tc main_v14) = V (Proc.devRef .tc main_v14) := by after_results_simp <;> rfl
theorem k8_v37 (V : Valuation τ sig (Elt F)) : after ops8 V (Proc.devRef .tc main_v37) = V (Proc.devRef .tc main_v37) := by after_results_simp <;> rfl
theorem k8_v50 (V : Valuation τ sig (Elt F)) : after ops8 V (Proc.devRef .tc main_v50) = V (Proc.devRef .tc main_v50) := by after_results_simp <;> rfl
theorem k8_v63 (V : Valuation τ sig (Elt F)) : after ops8 V (Proc.devRef .tc main_v63) = V (Proc.devRef .tc main_v63) := by after_results_simp <;> rfl
theorem k8_v76 (V : Valuation τ sig (Elt F)) : after ops8 V (Proc.devRef .tc main_v76) = V (Proc.devRef .tc main_v76) := by after_results_simp <;> rfl
theorem k8_v89 (V : Valuation τ sig (Elt F)) : after ops8 V (Proc.devRef .tc main_v89) = V (Proc.devRef .tc main_v89) := by after_results_simp <;> rfl
theorem k9_v14 (V : Valuation τ sig (Elt F)) : after ops9 V (Proc.devRef .tc main_v14) = V (Proc.devRef .tc main_v14) := by after_results_simp <;> rfl
theorem k9_v37 (V : Valuation τ sig (Elt F)) : after ops9 V (Proc.devRef .tc main_v37) = V (Proc.devRef .tc main_v37) := by after_results_simp <;> rfl
theorem k9_v50 (V : Valuation τ sig (Elt F)) : after ops9 V (Proc.devRef .tc main_v50) = V (Proc.devRef .tc main_v50) := by after_results_simp <;> rfl
theorem k9_v63 (V : Valuation τ sig (Elt F)) : after ops9 V (Proc.devRef .tc main_v63) = V (Proc.devRef .tc main_v63) := by after_results_simp <;> rfl
theorem k10_v14 (V : Valuation τ sig (Elt F)) : after ops10 V (Proc.devRef .tc main_v14) = V (Proc.devRef .tc main_v14) := by after_results_simp <;> rfl
theorem k10_v37 (V : Valuation τ sig (Elt F)) : after ops10 V (Proc.devRef .tc main_v37) = V (Proc.devRef .tc main_v37) := by after_results_simp <;> rfl
theorem k10_v116 (V : Valuation τ sig (Elt F)) : after ops10 V (Proc.devRef .tc main_v116) = V (Proc.devRef .tc main_v116) := by after_results_simp <;> rfl
theorem k10_v119 (V : Valuation τ sig (Elt F)) : after ops10 V (Proc.devRef .tc main_v119) = V (Proc.devRef .tc main_v119) := by after_results_simp <;> rfl
theorem k11_v14 (V : Valuation τ sig (Elt F)) : after ops11 V (Proc.devRef .tc main_v14) = V (Proc.devRef .tc main_v14) := by after_results_simp <;> rfl
theorem k11_v37 (V : Valuation τ sig (Elt F)) : after ops11 V (Proc.devRef .tc main_v37) = V (Proc.devRef .tc main_v37) := by after_results_simp <;> rfl

/-! ### The stretches threaded

`Wj V` is the valuation after the first j stretches from `V`. At each j, every buffer a later stretch reads holds its
stage of the four arguments' contents in `V`; the arguments themselves are never written. -/

def W1 (V : Valuation τ sig (Elt F)) : Valuation τ sig (Elt F) := after ops1 V
def W2 (V : Valuation τ sig (Elt F)) : Valuation τ sig (Elt F) := after ops2 (W1 V)
def W3 (V : Valuation τ sig (Elt F)) : Valuation τ sig (Elt F) := after ops3 (W2 V)
def W4 (V : Valuation τ sig (Elt F)) : Valuation τ sig (Elt F) := after ops4 (W3 V)
def W5 (V : Valuation τ sig (Elt F)) : Valuation τ sig (Elt F) := after ops5 (W4 V)
def W6 (V : Valuation τ sig (Elt F)) : Valuation τ sig (Elt F) := after ops6 (W5 V)
def W7 (V : Valuation τ sig (Elt F)) : Valuation τ sig (Elt F) := after ops7 (W6 V)
def W8 (V : Valuation τ sig (Elt F)) : Valuation τ sig (Elt F) := after ops8 (W7 V)
def W9 (V : Valuation τ sig (Elt F)) : Valuation τ sig (Elt F) := after ops9 (W8 V)
def W10 (V : Valuation τ sig (Elt F)) : Valuation τ sig (Elt F) := after ops10 (W9 V)
def W11 (V : Valuation τ sig (Elt F)) : Valuation τ sig (Elt F) := after ops11 (W10 V)
def W12 (V : Valuation τ sig (Elt F)) : Valuation τ sig (Elt F) := after ops12 (W11 V)

/-- The whole list run from `V` is the twelve stretches run in turn. -/
theorem after_ops_eq (V : Valuation τ sig (Elt F)) : after ops V = W12 V := by
  rw [ops_split, after_append, after_append, after_append, after_append, after_append, after_append, after_append,
    after_append, after_append, after_append, after_append]
  rfl

-- after stretch 1
theorem s1_v10 (V : Valuation τ sig (Elt F)) : W1 V (Proc.devRef .tc main_v10) = val_main_v10 (F := F) (V (Proc.devRef .tc main_arg0)) :=
  c1_v10 V _ rfl
theorem s1_v12 (V : Valuation τ sig (Elt F)) : W1 V (Proc.devRef .tc main_v12) = val_main_v12 (F := F) (V (Proc.devRef .tc main_arg2)) :=
  c1_v12 V _ rfl
theorem s1_arg1 (V : Valuation τ sig (Elt F)) : W1 V (Proc.devRef .tc main_arg1) = V (Proc.devRef .tc main_arg1) :=
  k1_arg1 V
theorem s1_arg3 (V : Valuation τ sig (Elt F)) : W1 V (Proc.devRef .tc main_arg3) = V (Proc.devRef .tc main_arg3) :=
  k1_arg3 V
-- after stretch 2
theorem s2_v14 (V : Valuation τ sig (Elt F)) : W2 V (Proc.devRef .tc main_v14) = val_main_v14 (F := F) (V (Proc.devRef .tc main_arg0)) (V (Proc.devRef .tc main_arg2)) :=
  c2_v14 (W1 V) _ _ (s1_v10 V) (s1_v12 V)
theorem s2_arg1 (V : Valuation τ sig (Elt F)) : W2 V (Proc.devRef .tc main_arg1) = V (Proc.devRef .tc main_arg1) :=
  (k2_arg1 (W1 V)).trans (s1_arg1 V)
theorem s2_arg3 (V : Valuation τ sig (Elt F)) : W2 V (Proc.devRef .tc main_arg3) = V (Proc.devRef .tc main_arg3) :=
  (k2_arg3 (W1 V)).trans (s1_arg3 V)
-- after stretch 3
theorem s3_v14 (V : Valuation τ sig (Elt F)) : W3 V (Proc.devRef .tc main_v14) = val_main_v14 (F := F) (V (Proc.devRef .tc main_arg0)) (V (Proc.devRef .tc main_arg2)) :=
  (k3_v14 (W2 V)).trans (s2_v14 V)
theorem s3_v37 (V : Valuation τ sig (Elt F)) : W3 V (Proc.devRef .tc main_v37) = val_main_v37 (F := F) (V (Proc.devRef .tc main_arg1)) (V (Proc.devRef .tc main_arg3)) :=
  c3_v37 (W2 V) _ _ (s2_arg1 V) (s2_arg3 V)
theorem s3_arg1 (V : Valuation τ sig (Elt F)) : W3 V (Proc.devRef .tc main_arg1) = V (Proc.devRef .tc main_arg1) :=
  (k3_arg1 (W2 V)).trans (s2_arg1 V)
theorem s3_arg3 (V : Valuation τ sig (Elt F)) : W3 V (Proc.devRef .tc main_arg3) = V (Proc.devRef .tc main_arg3) :=
  (k3_arg3 (W2 V)).trans (s2_arg3 V)
-- after stretch 4
theorem s4_v14 (V : Valuation τ sig (Elt F)) : W4 V (Proc.devRef .tc main_v14) = val_main_v14 (F := F) (V (Proc.devRef .tc main_arg0)) (V (Proc.devRef .tc main_arg2)) :=
  (k4_v14 (W3 V)).trans (s3_v14 V)
theorem s4_v37 (V : Valuation τ sig (Elt F)) : W4 V (Proc.devRef .tc main_v37) = val_main_v37 (F := F) (V (Proc.devRef .tc main_arg1)) (V (Proc.devRef .tc main_arg3)) :=
  (k4_v37 (W3 V)).trans (s3_v37 V)
theorem s4_v46 (V : Valuation τ sig (Elt F)) : W4 V (Proc.devRef .tc main_v46) = val_main_v46 (F := F) (V (Proc.devRef .tc main_arg1)) :=
  c4_v46 (W3 V) _ (s3_arg1 V)
theorem s4_v47 (V : Valuation τ sig (Elt F)) : W4 V (Proc.devRef .tc main_v47) = val_main_v47 (F := F) (V (Proc.devRef .tc main_arg1)) :=
  c4_v47 (W3 V) _ (s3_arg1 V)
theorem s4_v48 (V : Valuation τ sig (Elt F)) : W4 V (Proc.devRef .tc main_v48) = val_main_v48 (F := F) (V (Proc.devRef .tc main_arg1)) :=
  c4_v48 (W3 V) _ (s3_arg1 V)
theorem s4_v49 (V : Valuation τ sig (Elt F)) : W4 V (Proc.devRef .tc main_v49) = val_main_v49 (F := F) (V (Proc.devRef .tc main_arg1)) :=
  c4_v49 (W3 V) _ (s3_arg1 V)
theorem s4_arg3 (V : Valuation τ sig (Elt F)) : W4 V (Proc.devRef .tc main_arg3) = V (Proc.devRef .tc main_arg3) :=
  (k4_arg3 (W3 V)).trans (s3_arg3 V)
-- after stretch 5
theorem s5_v14 (V : Valuation τ sig (Elt F)) : W5 V (Proc.devRef .tc main_v14) = val_main_v14 (F := F) (V (Proc.devRef .tc main_arg0)) (V (Proc.devRef .tc main_arg2)) :=
  (k5_v14 (W4 V)).trans (s4_v14 V)
theorem s5_v37 (V : Valuation τ sig (Elt F)) : W5 V (Proc.devRef .tc main_v37) = val_main_v37 (F := F) (V (Proc.devRef .tc main_arg1)) (V (Proc.devRef .tc main_arg3)) :=
  (k5_v37 (W4 V)).trans (s4_v37 V)
theorem s5_v50 (V : Valuation τ sig (Elt F)) : W5 V (Proc.devRef .tc main_v50) = val_main_v50 (F := F) (V (Proc.devRef .tc main_arg1)) :=
  c5_v50 (W4 V) _ (s4_v46 V) (s4_v47 V) (s4_v48 V) (s4_v49 V)
theorem s5_v59 (V : Valuation τ sig (Elt F)) : W5 V (Proc.devRef .tc main_v59) = val_main_v59 (F := F) (V (Proc.devRef .tc main_arg3)) :=
  c5_v59 (W4 V) _ (s4_arg3 V)
theorem s5_v60 (V : Valuation τ sig (Elt F)) : W5 V (Proc.devRef .tc main_v60) = val_main_v60 (F := F) (V (Proc.devRef .tc main_arg3)) :=
  c5_v60 (W4 V) _ (s4_arg3 V)
theorem s5_v61 (V : Valuation τ sig (Elt F)) : W5 V (Proc.devRef .tc main_v61) = val_main_v61 (F := F) (V (Proc.devRef .tc main_arg3)) :=
  c5_v61 (W4 V) _ (s4_arg3 V)
theorem s5_v62 (V : Valuation τ sig (Elt F)) : W5 V (Proc.devRef .tc main_v62) = val_main_v62 (F := F) (V (Proc.devRef .tc main_arg3)) :=
  c5_v62 (W4 V) _ (s4_arg3 V)
-- after stretch 6
theorem s6_v14 (V : Valuation τ sig (Elt F)) : W6 V (Proc.devRef .tc main_v14) = val_main_v14 (F := F) (V (Proc.devRef .tc main_arg0)) (V (Proc.devRef .tc main_arg2)) :=
  (k6_v14 (W5 V)).trans (s5_v14 V)
theorem s6_v37 (V : Valuation τ sig (Elt F)) : W6 V (Proc.devRef .tc main_v37) = val_main_v37 (F := F) (V (Proc.devRef .tc main_arg1)) (V (Proc.devRef .tc main_arg3)) :=
  (k6_v37 (W5 V)).trans (s5_v37 V)
theorem s6_v50 (V : Valuation τ sig (Elt F)) : W6 V (Proc.devRef .tc main_v50) = val_main_v50 (F := F) (V (Proc.devRef .tc main_arg1)) :=
  (k6_v50 (W5 V)).trans (s5_v50 V)
theorem s6_v63 (V : Valuation τ sig (Elt F)) : W6 V (Proc.devRef .tc main_v63) = val_main_v63 (F := F) (V (Proc.devRef .tc main_arg3)) :=
  c6_v63 (W5 V) _ (s5_v59 V) (s5_v60 V) (s5_v61 V) (s5_v62 V)
theorem s6_v76 (V : Valuation τ sig (Elt F)) : W6 V (Proc.devRef .tc main_v76) = val_main_v76 (F := F) (V (Proc.devRef .tc main_arg1)) :=
  c6_v76 (W5 V) _ (s5_v50 V)
-- after stretch 7
theorem s7_v14 (V : Valuation τ sig (Elt F)) : W7 V (Proc.devRef .tc main_v14) = val_main_v14 (F := F) (V (Proc.devRef .tc main_arg0)) (V (Proc.devRef .tc main_arg2)) :=
  (k7_v14 (W6 V)).trans (s6_v14 V)
theorem s7_v37 (V : Valuation τ sig (Elt F)) : W7 V (Proc.devRef .tc main_v37) = val_main_v37 (F := F) (V (Proc.devRef .tc main_arg1)) (V (Proc.devRef .tc main_arg3)) :=
  (k7_v37 (W6 V)).trans (s6_v37 V)
theorem s7_v50 (V : Valuation τ sig (Elt F)) : W7 V (Proc.devRef .tc main_v50) = val_main_v50 (F := F) (V (Proc.devRef .tc main_arg1)) :=
  (k7_v50 (W6 V)).trans (s6_v50 V)
theorem s7_v63 (V : Valuation τ sig (Elt F)) : W7 V (Proc.devRef .tc main_v63) = val_main_v63 (F := F) (V (Proc.devRef .tc main_arg3)) :=
  (k7_v63 (W6 V)).trans (s6_v63 V)
theorem s7_v76 (V : Valuation τ sig (Elt F)) : W7 V (Proc.devRef .tc main_v76) = val_main_v76 (F := F) (V (Proc.devRef .tc main_arg1)) :=
  (k7_v76 (W6 V)).trans (s6_v76 V)
theorem s7_v89 (V : Valuation τ sig (Elt F)) : W7 V (Proc.devRef .tc main_v89) = val_main_v89 (F := F) (V (Proc.devRef .tc main_arg3)) :=
  c7_v89 (W6 V) _ (s6_v63 V)
-- after stretch 8
theorem s8_v14 (V : Valuation τ sig (Elt F)) : W8 V (Proc.devRef .tc main_v14) = val_main_v14 (F := F) (V (Proc.devRef .tc main_arg0)) (V (Proc.devRef .tc main_arg2)) :=
  (k8_v14 (W7 V)).trans (s7_v14 V)
theorem s8_v37 (V : Valuation τ sig (Elt F)) : W8 V (Proc.devRef .tc main_v37) = val_main_v37 (F := F) (V (Proc.devRef .tc main_arg1)) (V (Proc.devRef .tc main_arg3)) :=
  (k8_v37 (W7 V)).trans (s7_v37 V)
theorem s8_v50 (V : Valuation τ sig (Elt F)) : W8 V (Proc.devRef .tc main_v50) = val_main_v50 (F := F) (V (Proc.devRef .tc main_arg1)) :=
  (k8_v50 (W7 V)).trans (s7_v50 V)
theorem s8_v63 (V : Valuation τ sig (Elt F)) : W8 V (Proc.devRef .tc main_v63) = val_main_v63 (F := F) (V (Proc.devRef .tc main_arg3)) :=
  (k8_v63 (W7 V)).trans (s7_v63 V)
theorem s8_v76 (V : Valuation τ sig (Elt F)) : W8 V (Proc.devRef .tc main_v76) = val_main_v76 (F := F) (V (Proc.devRef .tc main_arg1)) :=
  (k8_v76 (W7 V)).trans (s7_v76 V)
theorem s8_v89 (V : Valuation τ sig (Elt F)) : W8 V (Proc.devRef .tc main_v89) = val_main_v89 (F := F) (V (Proc.devRef .tc main_arg3)) :=
  (k8_v89 (W7 V)).trans (s7_v89 V)
theorem s8_v110 (V : Valuation τ sig (Elt F)) : W8 V (Proc.devRef .tc main_v110) = val_main_v110 (F := F) (V (Proc.devRef .tc main_arg1)) (V (Proc.devRef .tc main_arg3)) :=
  c8_v110 (W7 V) _ _ (s7_v50 V) (s7_v63 V)
-- after stretch 9
theorem s9_v14 (V : Valuation τ sig (Elt F)) : W9 V (Proc.devRef .tc main_v14) = val_main_v14 (F := F) (V (Proc.devRef .tc main_arg0)) (V (Proc.devRef .tc main_arg2)) :=
  (k9_v14 (W8 V)).trans (s8_v14 V)
theorem s9_v37 (V : Valuation τ sig (Elt F)) : W9 V (Proc.devRef .tc main_v37) = val_main_v37 (F := F) (V (Proc.devRef .tc main_arg1)) (V (Proc.devRef .tc main_arg3)) :=
  (k9_v37 (W8 V)).trans (s8_v37 V)
theorem s9_v50 (V : Valuation τ sig (Elt F)) : W9 V (Proc.devRef .tc main_v50) = val_main_v50 (F := F) (V (Proc.devRef .tc main_arg1)) :=
  (k9_v50 (W8 V)).trans (s8_v50 V)
theorem s9_v63 (V : Valuation τ sig (Elt F)) : W9 V (Proc.devRef .tc main_v63) = val_main_v63 (F := F) (V (Proc.devRef .tc main_arg3)) :=
  (k9_v63 (W8 V)).trans (s8_v63 V)
theorem s9_v116 (V : Valuation τ sig (Elt F)) : W9 V (Proc.devRef .tc main_v116) = val_main_v116 (F := F) (V (Proc.devRef .tc main_arg1)) (V (Proc.devRef .tc main_arg3)) :=
  c9_v116 (W8 V) _ _ (s8_v76 V) (s8_v89 V) (s8_v110 V)
theorem s9_v119 (V : Valuation τ sig (Elt F)) : W9 V (Proc.devRef .tc main_v119) = val_main_v119 (F := F) (V (Proc.devRef .tc main_arg1)) (V (Proc.devRef .tc main_arg3)) :=
  c9_v119 (W8 V) _ _ (s8_v76 V) (s8_v89 V) (s8_v110 V)
-- after stretch 10
theorem s10_v14 (V : Valuation τ sig (Elt F)) : W10 V (Proc.devRef .tc main_v14) = val_main_v14 (F := F) (V (Proc.devRef .tc main_arg0)) (V (Proc.devRef .tc main_arg2)) :=
  (k10_v14 (W9 V)).trans (s9_v14 V)
theorem s10_v37 (V : Valuation τ sig (Elt F)) : W10 V (Proc.devRef .tc main_v37) = val_main_v37 (F := F) (V (Proc.devRef .tc main_arg1)) (V (Proc.devRef .tc main_arg3)) :=
  (k10_v37 (W9 V)).trans (s9_v37 V)
theorem s10_v116 (V : Valuation τ sig (Elt F)) : W10 V (Proc.devRef .tc main_v116) = val_main_v116 (F := F) (V (Proc.devRef .tc main_arg1)) (V (Proc.devRef .tc main_arg3)) :=
  (k10_v116 (W9 V)).trans (s9_v116 V)
theorem s10_v119 (V : Valuation τ sig (Elt F)) : W10 V (Proc.devRef .tc main_v119) = val_main_v119 (F := F) (V (Proc.devRef .tc main_arg1)) (V (Proc.devRef .tc main_arg3)) :=
  (k10_v119 (W9 V)).trans (s9_v119 V)
theorem s10_v140 (V : Valuation τ sig (Elt F)) : W10 V (Proc.devRef .tc main_v140) = val_main_v140 (F := F) (V (Proc.devRef .tc main_arg1)) (V (Proc.devRef .tc main_arg3)) :=
  c10_v140 (W9 V) _ _ (s9_v50 V) (s9_v63 V)
-- after stretch 11
theorem s11_v14 (V : Valuation τ sig (Elt F)) : W11 V (Proc.devRef .tc main_v14) = val_main_v14 (F := F) (V (Proc.devRef .tc main_arg0)) (V (Proc.devRef .tc main_arg2)) :=
  (k11_v14 (W10 V)).trans (s10_v14 V)
theorem s11_v37 (V : Valuation τ sig (Elt F)) : W11 V (Proc.devRef .tc main_v37) = val_main_v37 (F := F) (V (Proc.devRef .tc main_arg1)) (V (Proc.devRef .tc main_arg3)) :=
  (k11_v37 (W10 V)).trans (s10_v37 V)
theorem s11_v146 (V : Valuation τ sig (Elt F)) : W11 V (Proc.devRef .tc main_v146) = val_main_v146 (F := F) (V (Proc.devRef .tc main_arg1)) (V (Proc.devRef .tc main_arg3)) :=
  c11_v146 (W10 V) _ _ (s10_v140 V) (s10_v116 V) (s10_v119 V)
-- after stretch 12
theorem s12_v154 (V : Valuation τ sig (Elt F)) : W12 V (Proc.devRef .tc main_v154) = val_main_v154 (F := F) (V (Proc.devRef .tc main_arg0)) (V (Proc.devRef .tc main_arg1)) (V (Proc.devRef .tc main_arg2)) (V (Proc.devRef .tc main_arg3)) :=
  c12_v154 (W11 V) _ _ _ _ (s11_v14 V) (s11_v37 V) (s11_v146 V)

/-- The whole list leaves, at the result buffer, the last stage of the four arguments' contents. -/
theorem after_ops (V : Valuation τ sig (Elt F)) :
    after ops V (Proc.devRef .tc main_v154) = val_main_v154 (F := F) (V (Proc.devRef .tc main_arg0)) (V (Proc.devRef .tc main_arg1)) (V (Proc.devRef .tc main_arg2)) (V (Proc.devRef .tc main_arg3)) := by
  rw [after_ops_eq]
  exact s12_v154 V

/-! ### The run -/

set_option maxHeartbeats 85600000 in
/-- On every device, for any float values, from any memory with zero counters: every weakly fair execution of @main
    terminates with the result buffer at the last stage of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v154) = Cert.ReferenceIdeal.Read.val_main_v154 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v154).trans (after_ops (launchContents m c)),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.Stages

end
-- ==== Proof.Spec.lean ====
/-
  The matching cost of one query against one target, as a function on the extended reals: the class term (minus the
  softmax probability of the target's label), five times the polyline term (the smaller of the two mean absolute
  coordinate differences, the target's points in given and in reversed order), and the box term (minus the generalized
  intersection-over-union of the two bounding boxes). Float patterns are kept as the values they denote; no program is
  mentioned here.
-/
import Idealize.ShloMosaic.PureOps.Ideal
import Idealize.ShloMosaic.PureOps.Ideal.Laws
import Idealize.ShloMosaic.Lib.ValueIdx

noncomputable section

open scoped BigOperators

namespace Cert.CostSpec

open Idealize.ShloMosaic Idealize.ShloMosaic.ValueIdx

/-- The values the programs' float constants denote: 0, -∞, 1, 5, 32 and the small positive guard of the quotients. -/
abbrev zeroE : EReal := Ideal.ofBits .f32 0x00000000#32
abbrev negInfE : EReal := Ideal.ofBits .f32 0xFF800000#32
abbrev oneE : EReal := Ideal.ofBits .f32 0x3F800000#32
abbrev fiveE : EReal := Ideal.ofBits .f32 0x40A00000#32
abbrev c32E : EReal := Ideal.ofBits .f32 0x42000000#32
abbrev epsE : EReal := Ideal.ofBits .f32 0x358637BD#32

/-- The absolute value. -/
def absE (x : EReal) : EReal := FloatOps.absf (F := Ideal) (φ := .f32) x

/-- The largest of a row of 92 logits (never below -∞). -/
def rowMaxE (x : Fin 92 → EReal) : EReal := max negInfE ((Finset.univ : Finset (Fin 92)).fold max negInfE x)

/-- e to the logit less the row's largest. -/
def expRowE (x : Fin 92 → EReal) (k : Fin 92) : EReal := Ideal.exp (x k - rowMaxE x)

/-- The softmax probability of class k. -/
def probE (x : Fin 92 → EReal) (k : Fin 92) : EReal := Ideal.div (expRowE x k) (∑ j : Fin 92, expRowE x j)

/-- 1 where the label word is the class number c, else 0. -/
def onehotE (lab : BitVec 32) (c : Fin 92) : EReal :=
  FloatOps.sitofp (F := Ideal) .f32 ((IntOp.cmpi .eq lab (BitVec.ofNat 32 c.val)).setWidth 32)

/-- The class term: minus the probabilities' sum against the label's indicator. -/
def clsE (x : Fin 92 → EReal) (lab : BitVec 32) : EReal := zeroE - ∑ c : Fin 92, probE x c * onehotE lab c

/-- The sum of the 32 absolute coordinate differences. -/
def l1E (p t : Fin 32 → EReal) : EReal := ∑ k : Fin 32, absE (p k - t k)

/-- The polyline term: the smaller of the two means. -/
def polyE (p t r : Fin 32 → EReal) : EReal := min (Ideal.div (l1E p t) c32E) (Ideal.div (l1E p r) c32E)

/-- The generalized intersection-over-union of the boxes (ox0, oy0, ox1, oy1) and (tx0, ty0, tx1, ty1): the
    intersection's area over the union's, less the share of the enclosing box that the union leaves empty; every
    side length is cut off at 0 and both divisors are kept above the guard. -/
def giouE (ox0 oy0 ox1 oy1 tx0 ty0 tx1 ty1 : EReal) : EReal :=
  let area1 := max (ox1 - ox0) zeroE * max (oy1 - oy0) zeroE
  let area2 := max (tx1 - tx0) zeroE * max (ty1 - ty0) zeroE
  let inter := max (min ox1 tx1 - max ox0 tx0) zeroE * max (min oy1 ty1 - max oy0 ty0) zeroE
  let union := area1 + area2 - inter
  let areac := max (max ox1 tx1 - min ox0 tx0) zeroE * max (max oy1 ty1 - min oy0 ty0) zeroE
  Ideal.div inter (max union epsE) - Ideal.div (areac - union) (max areac epsE)

/-- The weighted sum of the three terms. -/
def costE (cls poly giou : EReal) : EReal := oneE * cls + fiveE * poly + oneE * (zeroE - giou)

/-- The cost of query q against target n in batch element b, from the logits X, the flattened query polylines P, the
    flattened target polylines T and their reversals R, the query boxes B1, the target boxes B2 and the labels Lb. -/
def G (X : (⟨3, ![32, 500, 92]⟩ : Shape).Idx → EReal) (P : (⟨3, ![32, 500, 32]⟩ : Shape).Idx → EReal)
    (T R : (⟨3, ![32, 200, 32]⟩ : Shape).Idx → EReal) (B1 : (⟨3, ![32, 500, 4]⟩ : Shape).Idx → EReal)
    (B2 : (⟨3, ![32, 200, 4]⟩ : Shape).Idx → EReal) (Lb : (⟨2, ![32, 200]⟩ : Shape).Idx → BitVec 32)
    (b : Fin 32) (q : Fin 500) (n : Fin 200) : EReal :=
  costE (clsE (fun k => X (ix3 b q k)) (Lb (ix2 b n)))
    (polyE (fun k => P (ix3 b q k)) (fun k => T (ix3 b n k)) (fun k => R (ix3 b n k)))
    (giouE (B1 (ix3 b q (0 : Fin 4))) (B1 (ix3 b q (1 : Fin 4))) (B1 (ix3 b q (2 : Fin 4))) (B1 (ix3 b q (3 : Fin 4)))
      (B2 (ix3 b n (0 : Fin 4))) (B2 (ix3 b n (1 : Fin 4))) (B2 (ix3 b n (2 : Fin 4))) (B2 (ix3 b n (3 : Fin 4))))

end Cert.CostSpec

end
-- ==== Proof.LibRowsRank3.lean ====
/-
  A kernel's vector operations on a block of shape [m, a, b] (m stacked matrices of a rows and b columns) read at an
  index, at the extended reals: the sum and the maximum of each row (a reduction over the last axis, the kernel's and the host's), a matrix of row
  values [m, a] viewed as a stack of columns [m, a, 1], and such a column stack broadcast along the rows to [m, a, b].
  Stated for any extents m, a, b.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibRowsRank3

open Idealize.ShloMosaic Idealize.ShloMosaic.ValueIdx

/-- The row index (u, p) with the column coordinate k inserted on the last axis is (u, p, k). -/
theorem lift_last {m a b : ℕ} (h : (⟨3, ![m, a, b]⟩ : Shape).Reduces [2] ⟨2, ![m, a]⟩) (u : Fin m) (p : Fin a) (k : Fin b) :
    h.lift (ix2 u p) k = ix3 u p k := by
  funext c
  match c with
  | ⟨0, _⟩ => exact Fin.ext rfl
  | ⟨1, _⟩ => exact Fin.ext rfl
  | ⟨2, _⟩ => exact Fin.ext rfl

/-- The sum over the last axis of an [m, a, b] block, read at row (u, p): the sum of the row's b entries. -/
theorem multiReduction_add_last_apply {m a b : ℕ} {φ : FTy} (src : FVec Ideal ⟨3, ![m, a, b]⟩ φ) (acc : BitVec φ.bits)
    (h : (⟨3, ![m, a, b]⟩ : Shape).Reduces [2] ⟨2, ![m, a]⟩) (hφ : FKind.Formats φ) (hacc : acc = FKind.add.neutral φ hφ)
    (u : Fin m) (p : Fin a) :
    multiReduction .add [2] ⟨2, ![m, a]⟩ src acc h hφ hacc (ix2 u p) = ∑ k : Fin b, src (ix3 u p k) := by
  -- a reduction over one axis is the sum over that axis's coordinates of the source at the index with the coordinate inserted
  refine (Ideal.multiReduction_add_single src acc h hφ hacc (ix2 u p)).trans ?_
  show ∑ k : Fin b, src (h.lift (ix2 u p) k) = ∑ k : Fin b, src (ix3 u p k)
  exact Finset.sum_congr rfl fun k _ => congrArg src (lift_last h u p k)

/-- The maximum over the last axis of an [m, a, b] block, read at row (u, p): the fold of `max`, from the value the
    accumulator's pattern denotes, over the row's b entries. -/
theorem multiReduction_max_last_apply {m a b : ℕ} {φ : FTy} (src : FVec Ideal ⟨3, ![m, a, b]⟩ φ) (acc : BitVec φ.bits)
    (h : (⟨3, ![m, a, b]⟩ : Shape).Reduces [2] ⟨2, ![m, a]⟩) (hφ : FKind.Formats φ) (hacc : acc = FKind.maximumf.neutral φ hφ)
    (u : Fin m) (p : Fin a) :
    multiReduction .maximumf [2] ⟨2, ![m, a]⟩ src acc h hφ hacc (ix2 u p)
      = (Finset.univ : Finset (Fin b)).fold max (Ideal.ofBits φ acc) (fun k => src (ix3 u p k)) := by
  refine (Ideal.multiReduction_maximumf_single src acc h hφ hacc (ix2 u p)).trans ?_
  show (Finset.univ : Finset (Fin b)).fold max (Ideal.ofBits φ acc) (src ∘ h.lift (ix2 u p)) = _
  exact congrArg (fun f => Finset.fold max (Ideal.ofBits φ acc) f (Finset.univ : Finset (Fin b)))
    (funext fun k => congrArg src (lift_last h u p k))

/-- The host's reduction with a maximum body over the last axis of an [m, a, b] array, read at row (u, p): the fold of
    `max`, from the initial value, over the row's b entries. -/
theorem hostReduce_max_last_apply {m a b : ℕ} {φ : FTy} (x : FVec Ideal ⟨3, ![m, a, b]⟩ φ) (init : FVec Ideal ⟨0, ![]⟩ φ)
    (h' : (⟨3, ![m, a, b]⟩ : Shape).ReducesTo [2] ⟨2, ![m, a]⟩) (h : (⟨3, ![m, a, b]⟩ : Shape).Reduces [2] ⟨2, ![m, a]⟩)
    (hu : 0 < (⟨0, ![]⟩ : Shape).numel) (u : Fin m) (p : Fin a) :
    Host.reduce FloatOps.maximumf x init h' hu (ix2 u p)
      = (Finset.univ : Finset (Fin b)).fold max (init (Shape.Idx.first hu)) (fun k => x (ix3 u p k)) := by
  rw [Host.reduce_eq_fold_single FloatOps.maximumf x init h' h hu]
  exact congrArg (fun f => Finset.fold max (init (Shape.Idx.first hu)) f (Finset.univ : Finset (Fin b)))
    (funext fun k => congrArg x (lift_last h u p k))

/-- A matrix stack [m, a] of row values viewed as a stack of columns [m, a, 1] reads the row's value. -/
theorem shapeCast_col_apply {m a : ℕ} {α : Type} (v : (⟨2, ![m, a]⟩ : Shape).Idx → α)
    (h : (⟨2, ![m, a]⟩ : Shape).ShapeCasts ⟨3, ![m, a, 1]⟩) (u : Fin m) (p : Fin a) (z : Fin 1) :
    shapeCast ⟨3, ![m, a, 1]⟩ v h (ix3 u p z) = v (ix2 u p) :=
  -- both indices have the row-major position u * a + p
  shapeCast_apply v h _ _ (by
    have hz : z.val = 0 := by omega
    rw [Shape.rowMajor_val_two, Shape.rowMajor_val_three]
    show u.val * a + p.val = (u.val * a + p.val) * 1 + z.val
    rw [hz, Nat.mul_one, Nat.add_zero])

/-- A stack of columns [m, a, 1] broadcast along the rows to [m, a, b] reads the row's column entry. -/
theorem broadcastTo_col_apply {m a b : ℕ} {α : Type} (v : (⟨3, ![m, a, 1]⟩ : Shape).Idx → α)
    (h : (⟨3, ![m, a, 1]⟩ : Shape).Broadcasts ⟨3, ![m, a, b]⟩) (u : Fin m) (p : Fin a) (k : Fin b) :
    broadcastTo ⟨3, ![m, a, b]⟩ v h (ix3 u p k) = v (ix3 u p (0 : Fin 1)) := by
  -- the two leading axes keep their coordinates (which are 0 anyway where the extent is 1); the unit axis reads 0
  refine broadcastTo_apply v h (ix3 u p k) (ix3 u p (0 : Fin 1)) fun ax => ?_
  match ax with
  | ⟨0, _⟩ =>
    show u.val = if m = 1 then 0 else u.val
    split
    · have := u.isLt; omega
    · rfl
  | ⟨1, _⟩ =>
    show p.val = if a = 1 then 0 else p.val
    split
    · have := p.isLt; omega
    · rfl
  | ⟨2, _⟩ => rfl

end Cert.LibRowsRank3

end
-- ==== Proof.BodyClass.lean ====
/-
  The class term of the block the body stores, read at query q and target n: the body takes the softmax of the 92
  logits of row q (the row's largest subtracted before the exponential), builds the indicator of target n's label
  among the 92 class numbers, and contracts the two over the classes; the entry is minus that sum.
-/
import proofs.«402434_j86990267613642_3_alg».proof.Proof.Gen.KernelIdeal.Skeleton
import proofs.«402434_j86990267613642_3_alg».proof.Proof.Spec
import proofs.«402434_j86990267613642_3_alg».proof.Proof.LibRowsRank3
import Idealize.ShloMosaic.Lib.Pipeline.Value
import Idealize.ShloMosaic.Lib.ValueLayout

set_option maxRecDepth 16384

noncomputable section

open scoped BigOperators

namespace Cert.KernelIdeal.Body

open Idealize.ShloMosaic Idealize.ShloMosaic.ValueIdx Cert.CostSpec Cert.KernelIdeal Cert.KernelIdeal.Gen Cert.LibRowsRank3

/-! ## The softmax block -/

/-- Each row's largest logit, never below -∞: the block [1, 500] of row maxima. -/
def rowMaxBlock (v0 : FVec Ideal S1x500x92 .f32) : FVec Ideal S1x500 .f32 :=
  maximumf (broadcast S1x500 (Scalar.ofBits (F := Ideal) .f32 0xFF800000#32))
    (multiReduction .maximumf [2] S1x500 v0 0xFF800000#32 reduces_S1x500x92_S1x500 (.inl rfl) rfl)

/-- e to each logit less its row's largest. -/
def expBlock (v0 : FVec Ideal S1x500x92 .f32) : FVec Ideal S1x500x92 .f32 :=
  exp (subf v0 (broadcastTo S1x500x92 (shapeCast S1x500x1 (rowMaxBlock v0) shapeCasts_S1x500_S1x500x1)
    broadcasts_S1x500x1_S1x500x92))

/-- The rows' sums of those exponentials. -/
def expSumBlock (v0 : FVec Ideal S1x500x92 .f32) : FVec Ideal S1x500 .f32 :=
  multiReduction .add [2] S1x500 (expBlock v0) 0x00000000#32 reduces_S1x500x92_S1x500 (.inl rfl) rfl

/-- The softmax of each row. -/
def probBlock (v0 : FVec Ideal S1x500x92 .f32) : FVec Ideal S1x500x92 .f32 :=
  divf (expBlock v0) (broadcastTo S1x500x92 (shapeCast S1x500x1 (expSumBlock v0) shapeCasts_S1x500_S1x500x1)
    broadcasts_S1x500x1_S1x500x92)

/-- The indicator block [1, 200, 92]: 1 where target n's label is the class number c, else 0. -/
def onehotBlock (v11 : IVec S1x200x1 32) : FVec Ideal S1x200x92 .f32 :=
  sitofp .f32 (extui 32 (cmpi .eq
    (broadcastTo S1x200x92 (shapeCast S1x200x1 v11 shapeCasts_S1x200x1_S1x200x1) broadcasts_S1x200x1_S1x200x92)
    (iota .tc S1x200x92 32 [2] iota_S1x200x92_d2_w32)) natLt_1_32)

/-- Row q's maximum is the specification's. -/
theorem rowMaxBlock_apply (v0 : FVec Ideal S1x500x92 .f32) (q : Fin 500) :
    rowMaxBlock v0 (ix2 (0 : Fin 1) q) = rowMaxE (fun k => v0 (ix3 (0 : Fin 1) q k)) :=
  congrArg (max negInfE)
    (multiReduction_max_last_apply v0 0xFF800000#32 reduces_S1x500x92_S1x500 (.inl rfl) rfl (0 : Fin 1) q)

/-- The exponential at (q, k) is the specification's. -/
theorem expBlock_apply (v0 : FVec Ideal S1x500x92 .f32) (q : Fin 500) (k : Fin 92) :
    expBlock v0 (ix3 (0 : Fin 1) q k) = expRowE (fun k => v0 (ix3 (0 : Fin 1) q k)) k := by
  -- the row's maximum, viewed as a column and spread along the row, is read back at (0, q)
  have h1 := broadcastTo_col_apply (shapeCast S1x500x1 (rowMaxBlock v0) shapeCasts_S1x500_S1x500x1)
    broadcasts_S1x500x1_S1x500x92 (0 : Fin 1) q k
  have h2 := shapeCast_col_apply (rowMaxBlock v0) shapeCasts_S1x500_S1x500x1 (0 : Fin 1) q (0 : Fin 1)
  exact congrArg (fun m => Ideal.exp (v0 (ix3 (0 : Fin 1) q k) - m)) (h1.trans (h2.trans (rowMaxBlock_apply v0 q)))

/-- The sum of row q's exponentials is the specification's. -/
theorem expSumBlock_apply (v0 : FVec Ideal S1x500x92 .f32) (q : Fin 500) :
    expSumBlock v0 (ix2 (0 : Fin 1) q) = ∑ j : Fin 92, expRowE (fun k => v0 (ix3 (0 : Fin 1) q k)) j :=
  (multiReduction_add_last_apply (expBlock v0) 0x00000000#32 reduces_S1x500x92_S1x500 (.inl rfl) rfl (0 : Fin 1) q).trans
    (Finset.sum_congr rfl fun j _ => expBlock_apply v0 q j)

/-- The softmax at (q, k) is the specification's probability. -/
theorem probBlock_apply (v0 : FVec Ideal S1x500x92 .f32) (q : Fin 500) (k : Fin 92) :
    probBlock v0 (ix3 (0 : Fin 1) q k) = probE (fun k => v0 (ix3 (0 : Fin 1) q k)) k := by
  have h1 := broadcastTo_col_apply (shapeCast S1x500x1 (expSumBlock v0) shapeCasts_S1x500_S1x500x1)
    broadcasts_S1x500x1_S1x500x92 (0 : Fin 1) q k
  have h2 := shapeCast_col_apply (expSumBlock v0) shapeCasts_S1x500_S1x500x1 (0 : Fin 1) q (0 : Fin 1)
  exact congrArg₂ Ideal.div (expBlock_apply v0 q k) (h1.trans (h2.trans (expSumBlock_apply v0 q)))

/-! ## The indicator block -/

/-- The indicator at (n, c) is the specification's, on target n's label word. -/
theorem onehotBlock_apply (v11 : IVec S1x200x1 32) (n : Fin 200) (c : Fin 92) :
    onehotBlock v11 (ix3 (0 : Fin 1) n c) = onehotE (v11 (ix3 (0 : Fin 1) n (0 : Fin 1))) c := by
  -- the label column spread along the classes reads the label; the class numbering reads the class coordinate
  have h1 := broadcastTo_col_apply (shapeCast S1x200x1 v11 shapeCasts_S1x200x1_S1x200x1)
    broadcasts_S1x200x1_S1x200x92 (0 : Fin 1) n c
  have h2 : shapeCast S1x200x1 v11 shapeCasts_S1x200x1_S1x200x1 = v11 := shapeCast_self v11 _
  have h3 := iota_single_apply .tc S1x200x92 32 2 iota_S1x200x92_d2_w32 (ix3 (0 : Fin 1) n c)
  show FloatOps.sitofp (F := Ideal) .f32 ((IntOp.cmpi .eq
      (broadcastTo S1x200x92 (shapeCast S1x200x1 v11 shapeCasts_S1x200x1_S1x200x1) broadcasts_S1x200x1_S1x200x92
        (ix3 (0 : Fin 1) n c))
      (iota .tc S1x200x92 32 [2] iota_S1x200x92_d2_w32 (ix3 (0 : Fin 1) n c))).setWidth 32) = _
  rw [h1, h2, h3]
  rfl

/-! ## The contraction's operand indices -/

theorem lhs_0 (i : S1x500x200.Idx) (k : dot_S1x500x92_S1x200x92_S1x500x200_2_2_1_1_0_0.contr.Idx) :
    (dot_S1x500x92_S1x200x92_S1x500x200_2_2_1_1_0_0.lhsIdx i k 0).val = (i 0).val := by
  unfold DotDims.lhsIdx
  rw [dif_pos (show (0 : Fin S1x500x92.rank) ∈ dot_S1x500x92_S1x200x92_S1x500x200_2_2_1_1_0_0.lhsBatch by decide)]
  rfl

theorem lhs_1 (i : S1x500x200.Idx) (k : dot_S1x500x92_S1x200x92_S1x500x200_2_2_1_1_0_0.contr.Idx) :
    (dot_S1x500x92_S1x200x92_S1x500x200_2_2_1_1_0_0.lhsIdx i k 1).val = (i 1).val := by
  unfold DotDims.lhsIdx
  rw [dif_neg (show ¬(1 : Fin S1x500x92.rank) ∈ dot_S1x500x92_S1x200x92_S1x500x200_2_2_1_1_0_0.lhsBatch by decide),
    dif_pos (show (1 : Fin S1x500x92.rank) ∈ dot_S1x500x92_S1x200x92_S1x500x200_2_2_1_1_0_0.lhsNonContracting by decide)]
  rfl

theorem lhs_2 (i : S1x500x200.Idx) (k : dot_S1x500x92_S1x200x92_S1x500x200_2_2_1_1_0_0.contr.Idx) :
    (dot_S1x500x92_S1x200x92_S1x500x200_2_2_1_1_0_0.lhsIdx i k 2).val = (k ⟨0, by decide⟩).val :=
  dot_S1x500x92_S1x200x92_S1x500x200_2_2_1_1_0_0.lhsIdx_val_of_single rfl i k

theorem rhs_0 (i : S1x500x200.Idx) (k : dot_S1x500x92_S1x200x92_S1x500x200_2_2_1_1_0_0.contr.Idx) :
    (dot_S1x500x92_S1x200x92_S1x500x200_2_2_1_1_0_0.rhsIdx i k 0).val = (i 0).val := by
  unfold DotDims.rhsIdx
  rw [dif_pos (show (0 : Fin S1x200x92.rank) ∈ dot_S1x500x92_S1x200x92_S1x500x200_2_2_1_1_0_0.rhsBatch by decide)]
  rfl

theorem rhs_1 (i : S1x500x200.Idx) (k : dot_S1x500x92_S1x200x92_S1x500x200_2_2_1_1_0_0.contr.Idx) :
    (dot_S1x500x92_S1x200x92_S1x500x200_2_2_1_1_0_0.rhsIdx i k 1).val = (i 2).val := by
  unfold DotDims.rhsIdx
  rw [dif_neg (show ¬(1 : Fin S1x200x92.rank) ∈ dot_S1x500x92_S1x200x92_S1x500x200_2_2_1_1_0_0.rhsBatch by decide),
    dif_pos (show (1 : Fin S1x200x92.rank) ∈ dot_S1x500x92_S1x200x92_S1x500x200_2_2_1_1_0_0.rhsNonContracting by decide)]
  rfl

theorem rhs_2 (i : S1x500x200.Idx) (k : dot_S1x500x92_S1x200x92_S1x500x200_2_2_1_1_0_0.contr.Idx) :
    (dot_S1x500x92_S1x200x92_S1x500x200_2_2_1_1_0_0.rhsIdx i k 2).val = (k ⟨0, by decide⟩).val :=
  dot_S1x500x92_S1x200x92_S1x500x200_2_2_1_1_0_0.rhsIdx_val_of_single rfl i k

/-- At output (q, n) and class k the left operand is read at (q, k). -/
theorem lhsIdx_at (q : Fin 500) (n : Fin 200) (k : Fin 92) :
    dot_S1x500x92_S1x200x92_S1x500x200_2_2_1_1_0_0.lhsIdx (ix3 (0 : Fin 1) q n)
      ((contrEquiv1 dot_S1x500x92_S1x200x92_S1x500x200_2_2_1_1_0_0 92 rfl rfl).symm k) = ix3 (0 : Fin 1) q k := by
  have hk := contrEquiv1_symm_val dot_S1x500x92_S1x200x92_S1x500x200_2_2_1_1_0_0 92 rfl rfl k
  exact funext fun a => Fin.ext (by
    match a with
    | ⟨0, _⟩ => exact lhs_0 _ _
    | ⟨1, _⟩ => exact lhs_1 _ _
    | ⟨2, _⟩ => exact (lhs_2 _ _).trans hk)

/-- At output (q, n) and class k the right operand is read at (n, k). -/
theorem rhsIdx_at (q : Fin 500) (n : Fin 200) (k : Fin 92) :
    dot_S1x500x92_S1x200x92_S1x500x200_2_2_1_1_0_0.rhsIdx (ix3 (0 : Fin 1) q n)
      ((contrEquiv1 dot_S1x500x92_S1x200x92_S1x500x200_2_2_1_1_0_0 92 rfl rfl).symm k) = ix3 (0 : Fin 1) n k := by
  have hk := contrEquiv1_symm_val dot_S1x500x92_S1x200x92_S1x500x200_2_2_1_1_0_0 92 rfl rfl k
  exact funext fun a => Fin.ext (by
    match a with
    | ⟨0, _⟩ => exact rhs_0 _ _
    | ⟨1, _⟩ => exact rhs_1 _ _
    | ⟨2, _⟩ => exact (rhs_2 _ _).trans hk)

/-! ## The class term -/

/-- The class term at (q, n), from the logits' block and the labels' block. -/
theorem pay6_apply (v0 : Vec Ideal S1x500x92 .f32) (v11 : Vec Ideal S1x200x1 .i32) (q : Fin 500) (n : Fin 200) :
    k0_pay6 (F := Ideal) v0 v11 (ix3 (0 : Fin 1) q n)
      = clsE (fun k => v0 (ix3 (0 : Fin 1) q k)) (v11 (ix3 (0 : Fin 1) n (0 : Fin 1))) := by
  -- the payload is 0 minus the softmax block contracted with the indicator block over the classes
  have hpay : k0_pay6 (F := Ideal) v0 v11 (ix3 (0 : Fin 1) q n)
      = zeroE - FloatOps.matmul dot_S1x500x92_S1x200x92_S1x500x200_2_2_1_1_0_0 (some .fp32) (probBlock v0)
          (onehotBlock v11) (constant (F := Ideal) S1x500x200 .f32 0x00000000#32) (ix3 (0 : Fin 1) q n) := rfl
  rw [hpay, Ideal.matmul_constant_zero_apply,
    ← Equiv.sum_comp (contrEquiv1 dot_S1x500x92_S1x200x92_S1x500x200_2_2_1_1_0_0 92 rfl rfl).symm]
  refine congrArg (zeroE - ·) (Finset.sum_congr rfl fun k _ => ?_)
  rw [lhsIdx_at q n k, rhsIdx_at q n k, probBlock_apply, onehotBlock_apply]

end Cert.KernelIdeal.Body

end
-- ==== Proof.BodyPoly.lean ====
/-
  The polyline term of the block the body stores, read at query q and target n: the 32 absolute differences between the
  query's flattened coordinates (row q of the block [1, 500, 32]) and the target's (column n of the block [1, 32, 200]),
  added one after the other from 0, the sum divided by 32; the same against the reversed target; the smaller of the two.
-/
import proofs.«402434_j86990267613642_3_alg».proof.Proof.FrameIdeal
import proofs.«402434_j86990267613642_3_alg».proof.Proof.Spec
import Idealize.ShloMosaic.Lib.Pipeline.Value
import Idealize.ShloMosaic.Lib.ValueLayout

set_option maxRecDepth 16384

noncomputable section

open scoped BigOperators

namespace Cert.KernelIdeal.Body

open Idealize.ShloMosaic Idealize.ShloMosaic.ValueIdx Cert.CostSpec Cert.KernelIdeal Cert.KernelIdeal.Gen Cert.KernelIdeal.Frm

/-- Column c of the query block, as a column stack [1, 500, 1], read at row q: the block's entry (q, c). -/
theorem sliceCol_apply {α : Type} (c : ℕ) (x : S1x500x32.Idx → α) (h : S1x500x32.Slices ![0, 0, c] S1x500x1)
    (q : Fin 500) (z : Fin 1) :
    extractStridedSlice S1x500x1 ![0, 0, c] x h (ix3 (0 : Fin 1) q z)
      = x (ix3 (0 : Fin 1) q (⟨c, by have := h.2 (2 : Fin 3); simpa using this⟩ : Fin 32)) := by
  refine extractStridedSlice_apply _ x h _ _ fun a => ?_
  match a with
  | ⟨0, _⟩ => rfl
  | ⟨1, _⟩ => show q.val = 0 + q.val; omega
  | ⟨2, _⟩ => show c = c + z.val; omega

/-- Row c of a target block, as a row stack [1, 1, 200], read at column n: the block's entry (c, n). -/
theorem sliceRow_apply {α : Type} (c : ℕ) (x : S1x32x200.Idx → α) (h : S1x32x200.Slices ![0, c, 0] S1x1x200)
    (z : Fin 1) (n : Fin 200) :
    extractStridedSlice S1x1x200 ![0, c, 0] x h (ix3 (0 : Fin 1) z n)
      = x (ix3 (0 : Fin 1) (⟨c, by have := h.2 (1 : Fin 3); simpa using this⟩ : Fin 32) n) := by
  refine extractStridedSlice_apply _ x h _ _ fun a => ?_
  match a with
  | ⟨0, _⟩ => rfl
  | ⟨1, _⟩ => show c = c + z.val; omega
  | ⟨2, _⟩ => show n.val = 0 + n.val; omega

/-- A column stack [1, 500, 1] broadcast to [1, 500, 200] reads, at (q, n), the column's entry at row q. -/
theorem bcCol_apply {α : Type} (x : S1x500x1.Idx → α) (h : S1x500x1.Broadcasts S1x500x200) (q : Fin 500) (n : Fin 200) :
    broadcastTo S1x500x200 x h (ix3 (0 : Fin 1) q n) = x (ix3 (0 : Fin 1) q (0 : Fin 1)) := by
  refine broadcastTo_apply x h _ _ fun a => ?_
  match a with
  | ⟨0, _⟩ => rfl
  | ⟨1, _⟩ => rfl
  | ⟨2, _⟩ => rfl

/-- A row stack [1, 1, 200] broadcast to [1, 500, 200] reads, at (q, n), the row's entry at column n. -/
theorem bcRow_apply {α : Type} (x : S1x1x200.Idx → α) (h : S1x1x200.Broadcasts S1x500x200) (q : Fin 500) (n : Fin 200) :
    broadcastTo S1x500x200 x h (ix3 (0 : Fin 1) q n) = x (ix3 (0 : Fin 1) (0 : Fin 1) n) := by
  refine broadcastTo_apply x h _ _ fun a => ?_
  match a with
  | ⟨0, _⟩ => rfl
  | ⟨1, _⟩ => rfl
  | ⟨2, _⟩ => rfl

/-- The absolute value of a block read at an index. -/
theorem absf_apply' {s : Shape} (a : FVec Ideal s .f32) (i : s.Idx) : absf a i = absE (a i) := rfl

/-- Adding 32 terms one after the other, from 0, is their sum. -/
theorem sum32 (a : Fin 32 → EReal) :
    (0 : EReal) + a ⟨0, by omega⟩ + a ⟨1, by omega⟩ + a ⟨2, by omega⟩ + a ⟨3, by omega⟩ + a ⟨4, by omega⟩ + a ⟨5, by omega⟩
      + a ⟨6, by omega⟩ + a ⟨7, by omega⟩ + a ⟨8, by omega⟩ + a ⟨9, by omega⟩ + a ⟨10, by omega⟩ + a ⟨11, by omega⟩
      + a ⟨12, by omega⟩ + a ⟨13, by omega⟩ + a ⟨14, by omega⟩ + a ⟨15, by omega⟩ + a ⟨16, by omega⟩ + a ⟨17, by omega⟩
      + a ⟨18, by omega⟩ + a ⟨19, by omega⟩ + a ⟨20, by omega⟩ + a ⟨21, by omega⟩ + a ⟨22, by omega⟩ + a ⟨23, by omega⟩
      + a ⟨24, by omega⟩ + a ⟨25, by omega⟩ + a ⟨26, by omega⟩ + a ⟨27, by omega⟩ + a ⟨28, by omega⟩ + a ⟨29, by omega⟩
      + a ⟨30, by omega⟩ + a ⟨31, by omega⟩ = ∑ k : Fin 32, a k := by
  simp only [Fin.sum_univ_castSucc, Fin.sum_univ_zero]
  rfl

/-- A float constant at the extended reals is the value its pattern denotes. -/
theorem scalar_ofBits_f32 (b : BitVec 32) : Scalar.ofBits (F := Ideal) .f32 b = Ideal.ofBits .f32 b := rfl

/-- The polyline term at (q, n), from the three polyline blocks. -/
theorem polyVal_apply (v2 : FVec Ideal S1x500x32 .f32) (v4 v6 : FVec Ideal S1x32x200 .f32) (q : Fin 500) (n : Fin 200) :
    polyVal (F := Ideal) v2 v4 v6 (ix3 (0 : Fin 1) q n)
      = polyE (fun k => v2 (ix3 (0 : Fin 1) q k)) (fun k => v4 (ix3 (0 : Fin 1) k n)) (fun k => v6 (ix3 (0 : Fin 1) k n)) := by
  unfold polyVal
  simp only [k0_pay59, k0_pay58, k0_pay57, k0_pay56, k0_pay55, k0_pay54, k0_pay53, k0_pay52, k0_pay51, k0_pay50, k0_pay49,
    k0_pay48, k0_pay47, k0_pay46, k0_pay45, k0_pay44, k0_pay43, k0_pay42, k0_pay41, k0_pay40, k0_pay39, k0_pay38, k0_pay37,
    k0_pay36, k0_pay35, k0_pay34, k0_pay33, k0_pay32, k0_pay31, k0_pay30, k0_pay29, k0_pay28, k0_pay27, k0_pay26, k0_pay25,
    k0_pay24, k0_pay23, k0_pay22, k0_pay21, k0_pay20, k0_pay19, k0_pay18, k0_pay17, k0_pay16, k0_pay15, k0_pay14, k0_pay13,
    k0_pay12, k0_pay11, k0_pay10, k0_pay9, k0_pay8, k0_pay7,
    minimumf_apply, divf_apply, addf_apply, subf_apply, absf_apply', broadcast_apply, bcCol_apply, bcRow_apply,
    sliceCol_apply, sliceRow_apply, scalar_ofBits_f32, Ideal.ofBits_zero_f32]
  exact congrArg₂ min
    (congrArg (fun s => Ideal.div s c32E) (sum32 fun k => absE (v2 (ix3 (0 : Fin 1) q k) - v4 (ix3 (0 : Fin 1) k n))))
    (congrArg (fun s => Ideal.div s c32E) (sum32 fun k => absE (v2 (ix3 (0 : Fin 1) q k) - v6 (ix3 (0 : Fin 1) k n))))

end Cert.KernelIdeal.Body

end
-- ==== Proof.BodyBox.lean ====
/-
  The box term and the weighted sum of the block the body stores, read at query q and target n: from the query's box
  (row q of the block [1, 500, 4]: least x, least y, greatest x, greatest y) and the target's (row n of the block
  [1, 200, 4]) the body forms the two areas, the intersection, the union, the enclosing box, the two guarded quotients,
  and adds the class term, five times the polyline term and minus the generalized intersection-over-union.
-/
import proofs.«402434_j86990267613642_3_alg».proof.Proof.Gen.KernelIdeal.Skeleton
import proofs.«402434_j86990267613642_3_alg».proof.Proof.Spec
import Idealize.ShloMosaic.Lib.Pipeline.Value
import Idealize.ShloMosaic.Lib.ValueLayout

noncomputable section

open scoped BigOperators

namespace Cert.KernelIdeal.Body

open Idealize.ShloMosaic Idealize.ShloMosaic.ValueIdx Cert.CostSpec Cert.KernelIdeal Cert.KernelIdeal.Gen

/-! ## Columns and rows of a stack of matrices, read at an index -/

section Layout
variable {α : Type}

/-- Column o of a stack of matrices [m, a, c], kept as a stack of columns [m, a, 1], reads at (u, p, z) the source's
    entry (u, p, k), where k is the coordinate o. -/
theorem box_sliceCol_apply {m a c : ℕ} (o : ℕ) (X : (⟨3, ![m, a, c]⟩ : Shape).Idx → α)
    (h : (⟨3, ![m, a, c]⟩ : Shape).Slices ![0, 0, o] ⟨3, ![m, a, 1]⟩)
    (u : Fin m) (p : Fin a) (z : Fin 1) (k : Fin c) (hk : k.val = o) :
    extractStridedSlice ⟨3, ![m, a, 1]⟩ ![0, 0, o] X h (ix3 u p z) = X (ix3 u p k) :=
  extractStridedSlice_apply _ _ _ _ _ (fun ax => by
    match ax with
    | ⟨0, _⟩ => exact (Nat.zero_add _).symm
    | ⟨1, _⟩ => exact (Nat.zero_add _).symm
    | ⟨2, _⟩ =>
      -- the unit axis has the one coordinate 0
      show k.val = o + z.val
      have hz : z.val = 0 := by omega
      rw [hk, hz, Nat.add_zero])

/-- A stack of columns [m, a, 1] repeated along the rows to [m, a, b] reads at (u, p, k) the column's entry (u, p, ·). -/
theorem box_bcastCol_apply {m a b : ℕ} (v : (⟨3, ![m, a, 1]⟩ : Shape).Idx → α)
    (h : (⟨3, ![m, a, 1]⟩ : Shape).Broadcasts ⟨3, ![m, a, b]⟩) (u : Fin m) (p : Fin a) (k : Fin b) (z : Fin 1) :
    broadcastTo ⟨3, ![m, a, b]⟩ v h (ix3 u p k) = v (ix3 u p z) := by
  refine broadcastTo_apply v h (ix3 u p k) (ix3 u p z) fun ax => ?_
  match ax with
  | ⟨0, _⟩ =>
    -- an axis of extent 1 has only the coordinate 0, so both readings agree
    show u.val = if m = 1 then 0 else u.val
    split
    · have := u.isLt; omega
    · rfl
  | ⟨1, _⟩ =>
    show p.val = if a = 1 then 0 else p.val
    split
    · have := p.isLt; omega
    · rfl
  | ⟨2, _⟩ =>
    show z.val = if (1 : ℕ) = 1 then 0 else k.val
    rw [if_pos rfl]; omega

/-- A stack of single rows [m, 1, b] repeated down the columns to [m, a, b] reads at (u, p, k) the row's entry (u, ·, k). -/
theorem box_bcastRow_apply {m a b : ℕ} (v : (⟨3, ![m, 1, b]⟩ : Shape).Idx → α)
    (h : (⟨3, ![m, 1, b]⟩ : Shape).Broadcasts ⟨3, ![m, a, b]⟩) (u : Fin m) (p : Fin a) (k : Fin b) (z : Fin 1) :
    broadcastTo ⟨3, ![m, a, b]⟩ v h (ix3 u p k) = v (ix3 u z k) := by
  refine broadcastTo_apply v h (ix3 u p k) (ix3 u z k) fun ax => ?_
  match ax with
  | ⟨0, _⟩ =>
    show u.val = if m = 1 then 0 else u.val
    split
    · have := u.isLt; omega
    · rfl
  | ⟨1, _⟩ =>
    show z.val = if (1 : ℕ) = 1 then 0 else p.val
    rw [if_pos rfl]; omega
  | ⟨2, _⟩ =>
    show k.val = if b = 1 then 0 else k.val
    split
    · have := k.isLt; omega
    · rfl

/-- A stack of columns [m, b, 1] recast as the matrix [m, b] of its entries reads at (u, n) the column entry (u, n, ·):
    both have the row-major position u * b + n. -/
theorem box_castDropLast_apply {m b : ℕ} (x : (⟨3, ![m, b, 1]⟩ : Shape).Idx → α)
    (h : (⟨3, ![m, b, 1]⟩ : Shape).ShapeCasts ⟨2, ![m, b]⟩) (u : Fin m) (n : Fin b) (z : Fin 1) :
    shapeCast ⟨2, ![m, b]⟩ x h (ix2 u n) = x (ix3 u n z) :=
  shapeCast_apply x h _ _ (by
    have hz : z.val = 0 := by omega
    rw [Shape.rowMajor_val_three, Shape.rowMajor_val_two]
    show (u.val * b + n.val) * 1 + z.val = u.val * b + n.val
    rw [hz, Nat.mul_one, Nat.add_zero])

/-- Column o of a block [1, b, c], recast first as the row [1, b] and then as the single row [1, 1, b] of a stack,
    reads at (u, z, n) the block's entry (z, n, k), where k is the coordinate o. -/
theorem box_rowOfCol_apply {b c : ℕ} (o : ℕ) (X : (⟨3, ![1, b, c]⟩ : Shape).Idx → α)
    (hs : (⟨3, ![1, b, c]⟩ : Shape).Slices ![0, 0, o] ⟨3, ![1, b, 1]⟩)
    (h1 : (⟨3, ![1, b, 1]⟩ : Shape).ShapeCasts ⟨2, ![1, b]⟩) (h2 : (⟨2, ![1, b]⟩ : Shape).ShapeCasts ⟨3, ![1, 1, b]⟩)
    (u z : Fin 1) (n : Fin b) (k : Fin c) (hk : k.val = o) :
    shapeCast ⟨3, ![1, 1, b]⟩ (shapeCast ⟨2, ![1, b]⟩ (extractStridedSlice ⟨3, ![1, b, 1]⟩ ![0, 0, o] X hs) h1) h2 (ix3 u z n)
      = X (ix3 z n k) :=
  (shapeCast_ab_1ab_apply _ h2 u z n).trans
    ((box_castDropLast_apply _ h1 z n (0 : Fin 1)).trans (box_sliceCol_apply o X hs z n (0 : Fin 1) k hk))

end Layout

/-! ## The box blocks' columns, as the body reads them -/

section Columns
variable (v8 : FVec Ideal S1x500x4 .f32) (v10 : FVec Ideal S1x200x4 .f32) (q : Fin 500) (n : Fin 200) (z : Fin 1)

/-- The queries' least x, as a column. -/
theorem pay60_apply : k0_pay60 v8 (ix3 (0 : Fin 1) q z) = v8 (ix3 (0 : Fin 1) q (0 : Fin 4)) := by
  unfold k0_pay60
  exact box_sliceCol_apply 0 v8 _ 0 q z 0 rfl
/-- The queries' least y, as a column. -/
theorem pay61_apply : k0_pay61 v8 (ix3 (0 : Fin 1) q z) = v8 (ix3 (0 : Fin 1) q (1 : Fin 4)) := by
  unfold k0_pay61
  exact box_sliceCol_apply 1 v8 _ 0 q z 1 rfl
/-- The queries' greatest x, as a column. -/
theorem pay62_apply : k0_pay62 v8 (ix3 (0 : Fin 1) q z) = v8 (ix3 (0 : Fin 1) q (2 : Fin 4)) := by
  unfold k0_pay62
  exact box_sliceCol_apply 2 v8 _ 0 q z 2 rfl
/-- The queries' greatest y, as a column. -/
theorem pay63_apply : k0_pay63 v8 (ix3 (0 : Fin 1) q z) = v8 (ix3 (0 : Fin 1) q (3 : Fin 4)) := by
  unfold k0_pay63
  exact box_sliceCol_apply 3 v8 _ 0 q z 3 rfl

/-- The targets' least x, as a row. -/
theorem pay64_apply : k0_pay64 v10 (ix3 (0 : Fin 1) (0 : Fin 1) n) = v10 (ix3 (0 : Fin 1) n (0 : Fin 4)) := by
  unfold k0_pay64
  exact box_rowOfCol_apply 0 v10 _ _ _ 0 0 n 0 rfl
/-- The targets' least y, as a row. -/
theorem pay65_apply : k0_pay65 v10 (ix3 (0 : Fin 1) (0 : Fin 1) n) = v10 (ix3 (0 : Fin 1) n (1 : Fin 4)) := by
  unfold k0_pay65
  exact box_rowOfCol_apply 1 v10 _ _ _ 0 0 n 1 rfl
/-- The targets' greatest x, as a row. -/
theorem pay66_apply : k0_pay66 v10 (ix3 (0 : Fin 1) (0 : Fin 1) n) = v10 (ix3 (0 : Fin 1) n (2 : Fin 4)) := by
  unfold k0_pay66
  exact box_rowOfCol_apply 2 v10 _ _ _ 0 0 n 2 rfl
/-- The targets' greatest y, as a row. -/
theorem pay67_apply : k0_pay67 v10 (ix3 (0 : Fin 1) (0 : Fin 1) n) = v10 (ix3 (0 : Fin 1) n (3 : Fin 4)) := by
  unfold k0_pay67
  exact box_rowOfCol_apply 3 v10 _ _ _ 0 0 n 3 rfl

end Columns

/-! ## The body's two repetitions to the stored block's shape -/

/-- A column block [1, 500, 1] repeated to [1, 500, 200] reads at (q, n) the column's entry q. -/
theorem box_colTo_apply (w : FVec Ideal S1x500x1 .f32) (q : Fin 500) (n : Fin 200) :
    broadcastTo S1x500x200 w broadcasts_S1x500x1_S1x500x200 (ix3 (0 : Fin 1) q n) = w (ix3 (0 : Fin 1) q (0 : Fin 1)) :=
  box_bcastCol_apply w _ 0 q n 0

/-- A row block [1, 1, 200] repeated to [1, 500, 200] reads at (q, n) the row's entry n. -/
theorem box_rowTo_apply (w : FVec Ideal S1x1x200 .f32) (q : Fin 500) (n : Fin 200) :
    broadcastTo S1x500x200 w broadcasts_S1x1x200_S1x500x200 (ix3 (0 : Fin 1) q n) = w (ix3 (0 : Fin 1) (0 : Fin 1) n) :=
  box_bcastRow_apply w _ 0 q n 0

/-! ## The areas and the intersection's sides -/

section Areas
variable (v8 : FVec Ideal S1x500x4 .f32) (v10 : FVec Ideal S1x200x4 .f32) (q : Fin 500) (n : Fin 200) (z : Fin 1)

/-- The query box's area: the product of its two side lengths, each cut off at 0. -/
theorem pay68_apply : k0_pay68 v8 (ix3 (0 : Fin 1) q z)
    = max (v8 (ix3 (0 : Fin 1) q (2 : Fin 4)) - v8 (ix3 (0 : Fin 1) q (0 : Fin 4))) zeroE
      * max (v8 (ix3 (0 : Fin 1) q (3 : Fin 4)) - v8 (ix3 (0 : Fin 1) q (1 : Fin 4))) zeroE := by
  unfold k0_pay68
  show max (k0_pay62 v8 (ix3 (0 : Fin 1) q z) - k0_pay60 v8 (ix3 (0 : Fin 1) q z)) zeroE
      * max (k0_pay63 v8 (ix3 (0 : Fin 1) q z) - k0_pay61 v8 (ix3 (0 : Fin 1) q z)) zeroE = _
  rw [pay60_apply v8 q z, pay61_apply v8 q z, pay62_apply v8 q z, pay63_apply v8 q z]

/-- The target box's area, likewise. -/
theorem pay69_apply : k0_pay69 v10 (ix3 (0 : Fin 1) (0 : Fin 1) n)
    = max (v10 (ix3 (0 : Fin 1) n (2 : Fin 4)) - v10 (ix3 (0 : Fin 1) n (0 : Fin 4))) zeroE
      * max (v10 (ix3 (0 : Fin 1) n (3 : Fin 4)) - v10 (ix3 (0 : Fin 1) n (1 : Fin 4))) zeroE := by
  unfold k0_pay69
  show max (k0_pay66 v10 (ix3 (0 : Fin 1) (0 : Fin 1) n) - k0_pay64 v10 (ix3 (0 : Fin 1) (0 : Fin 1) n)) zeroE
      * max (k0_pay67 v10 (ix3 (0 : Fin 1) (0 : Fin 1) n) - k0_pay65 v10 (ix3 (0 : Fin 1) (0 : Fin 1) n)) zeroE = _
  rw [pay64_apply v10 n, pay65_apply v10 n, pay66_apply v10 n, pay67_apply v10 n]

/-- The intersection's side along x: the smaller of the greatest x less the larger of the least x, cut off at 0. -/
theorem pay70_apply : k0_pay70 v8 v10 (ix3 (0 : Fin 1) q n)
    = max (min (v8 (ix3 (0 : Fin 1) q (2 : Fin 4))) (v10 (ix3 (0 : Fin 1) n (2 : Fin 4)))
        - max (v8 (ix3 (0 : Fin 1) q (0 : Fin 4))) (v10 (ix3 (0 : Fin 1) n (0 : Fin 4)))) zeroE := by
  unfold k0_pay70
  show max (min (broadcastTo S1x500x200 (k0_pay62 v8) broadcasts_S1x500x1_S1x500x200 (ix3 (0 : Fin 1) q n))
              (broadcastTo S1x500x200 (k0_pay66 v10) broadcasts_S1x1x200_S1x500x200 (ix3 (0 : Fin 1) q n))
        - max (broadcastTo S1x500x200 (k0_pay60 v8) broadcasts_S1x500x1_S1x500x200 (ix3 (0 : Fin 1) q n))
              (broadcastTo S1x500x200 (k0_pay64 v10) broadcasts_S1x1x200_S1x500x200 (ix3 (0 : Fin 1) q n))) zeroE = _
  rw [box_colTo_apply (k0_pay62 v8) q n, box_rowTo_apply (k0_pay66 v10) q n, box_colTo_apply (k0_pay60 v8) q n,
    box_rowTo_apply (k0_pay64 v10) q n, pay62_apply v8 q 0, pay66_apply v10 n, pay60_apply v8 q 0, pay64_apply v10 n]

/-- The intersection's side along y. -/
theorem pay71_apply : k0_pay71 v8 v10 (ix3 (0 : Fin 1) q n)
    = max (min (v8 (ix3 (0 : Fin 1) q (3 : Fin 4))) (v10 (ix3 (0 : Fin 1) n (3 : Fin 4)))
        - max (v8 (ix3 (0 : Fin 1) q (1 : Fin 4))) (v10 (ix3 (0 : Fin 1) n (1 : Fin 4)))) zeroE := by
  unfold k0_pay71
  show max (min (broadcastTo S1x500x200 (k0_pay63 v8) broadcasts_S1x500x1_S1x500x200 (ix3 (0 : Fin 1) q n))
              (broadcastTo S1x500x200 (k0_pay67 v10) broadcasts_S1x1x200_S1x500x200 (ix3 (0 : Fin 1) q n))
        - max (broadcastTo S1x500x200 (k0_pay61 v8) broadcasts_S1x500x1_S1x500x200 (ix3 (0 : Fin 1) q n))
              (broadcastTo S1x500x200 (k0_pay65 v10) broadcasts_S1x1x200_S1x500x200 (ix3 (0 : Fin 1) q n))) zeroE = _
  rw [box_colTo_apply (k0_pay63 v8) q n, box_rowTo_apply (k0_pay67 v10) q n, box_colTo_apply (k0_pay61 v8) q n,
    box_rowTo_apply (k0_pay65 v10) q n, pay63_apply v8 q 0, pay67_apply v10 n, pay61_apply v8 q 0, pay65_apply v10 n]

end Areas

/-! ## The last payload over any blocks -/

/-- The weighted sum the body stores, read at (q, n), over any column blocks, row blocks and full blocks in the places
    of the box blocks' columns, the areas and the intersection's sides: the pointwise operations read at the index, the
    columns at q and the rows at n. -/
theorem pay72_read (v31 v454 : FVec Ideal S1x500x200 .f32) (v455 v456 v457 v458 : FVec Ideal S1x500x1 .f32)
    (v461 v464 v467 v470 : FVec Ideal S1x1x200 .f32) (v477 : FVec Ideal S1x500x1 .f32) (v484 : FVec Ideal S1x1x200 .f32)
    (v493 v502 : FVec Ideal S1x500x200 .f32) (q : Fin 500) (n : Fin 200) :
    k0_pay72 (F := Ideal) v31 v454 v455 v456 v457 v458 v461 v464 v467 v470 v477 v484 v493 v502 (ix3 (0 : Fin 1) q n)
      = costE (v31 (ix3 (0 : Fin 1) q n)) (v454 (ix3 (0 : Fin 1) q n))
          (Ideal.div (v493 (ix3 (0 : Fin 1) q n) * v502 (ix3 (0 : Fin 1) q n))
              (max (v477 (ix3 (0 : Fin 1) q (0 : Fin 1)) + v484 (ix3 (0 : Fin 1) (0 : Fin 1) n)
                  - v493 (ix3 (0 : Fin 1) q n) * v502 (ix3 (0 : Fin 1) q n)) epsE)
            - Ideal.div
                (max (max (v457 (ix3 (0 : Fin 1) q (0 : Fin 1))) (v467 (ix3 (0 : Fin 1) (0 : Fin 1) n))
                      - min (v455 (ix3 (0 : Fin 1) q (0 : Fin 1))) (v461 (ix3 (0 : Fin 1) (0 : Fin 1) n))) zeroE
                    * max (max (v458 (ix3 (0 : Fin 1) q (0 : Fin 1))) (v470 (ix3 (0 : Fin 1) (0 : Fin 1) n))
                      - min (v456 (ix3 (0 : Fin 1) q (0 : Fin 1))) (v464 (ix3 (0 : Fin 1) (0 : Fin 1) n))) zeroE
                  - (v477 (ix3 (0 : Fin 1) q (0 : Fin 1)) + v484 (ix3 (0 : Fin 1) (0 : Fin 1) n)
                      - v493 (ix3 (0 : Fin 1) q n) * v502 (ix3 (0 : Fin 1) q n)))
                (max (max (max (v457 (ix3 (0 : Fin 1) q (0 : Fin 1))) (v467 (ix3 (0 : Fin 1) (0 : Fin 1) n))
                      - min (v455 (ix3 (0 : Fin 1) q (0 : Fin 1))) (v461 (ix3 (0 : Fin 1) (0 : Fin 1) n))) zeroE
                    * max (max (v458 (ix3 (0 : Fin 1) q (0 : Fin 1))) (v470 (ix3 (0 : Fin 1) (0 : Fin 1) n))
                      - min (v456 (ix3 (0 : Fin 1) q (0 : Fin 1))) (v464 (ix3 (0 : Fin 1) (0 : Fin 1) n))) zeroE) epsE)) := by
  -- every column entry and row entry is the repeated block's entry at (q, n); with them written so, both sides are the
  -- same expression in the pointwise operations
  rw [← box_colTo_apply v455 q n, ← box_colTo_apply v456 q n, ← box_colTo_apply v457 q n, ← box_colTo_apply v458 q n, ← box_colTo_apply v477 q n,
    ← box_rowTo_apply v461 q n, ← box_rowTo_apply v464 q n, ← box_rowTo_apply v467 q n, ← box_rowTo_apply v470 q n, ← box_rowTo_apply v484 q n]
  rfl

/-- The stored entry at (q, n), from the class term's and the polyline term's blocks and the two box blocks. -/
theorem pay72_apply (v31 v454 : FVec Ideal S1x500x200 .f32) (v8 : FVec Ideal S1x500x4 .f32) (v10 : FVec Ideal S1x200x4 .f32)
    (q : Fin 500) (n : Fin 200) :
    k0_pay72 (F := Ideal) v31 v454 (k0_pay60 v8) (k0_pay61 v8) (k0_pay62 v8) (k0_pay63 v8) (k0_pay64 v10) (k0_pay65 v10)
        (k0_pay66 v10) (k0_pay67 v10) (k0_pay68 v8) (k0_pay69 v10) (k0_pay70 v8 v10) (k0_pay71 v8 v10) (ix3 (0 : Fin 1) q n)
      = costE (v31 (ix3 (0 : Fin 1) q n)) (v454 (ix3 (0 : Fin 1) q n))
          (giouE (v8 (ix3 (0 : Fin 1) q (0 : Fin 4))) (v8 (ix3 (0 : Fin 1) q (1 : Fin 4))) (v8 (ix3 (0 : Fin 1) q (2 : Fin 4))) (v8 (ix3 (0 : Fin 1) q (3 : Fin 4)))
            (v10 (ix3 (0 : Fin 1) n (0 : Fin 4))) (v10 (ix3 (0 : Fin 1) n (1 : Fin 4))) (v10 (ix3 (0 : Fin 1) n (2 : Fin 4))) (v10 (ix3 (0 : Fin 1) n (3 : Fin 4)))) := by
  -- the pointwise operations at the index, the columns at q and the rows at n
  refine (pay72_read v31 v454 _ _ _ _ _ _ _ _ _ _ _ _ q n).trans ?_
  -- the columns and rows are the boxes' coordinates, the areas and the sides as computed above
  rw [pay60_apply v8 q 0, pay61_apply v8 q 0, pay62_apply v8 q 0, pay63_apply v8 q 0, pay64_apply v10 n, pay65_apply v10 n,
    pay66_apply v10 n, pay67_apply v10 n, pay68_apply v8 q 0, pay69_apply v10 n, pay70_apply v8 v10 q n, pay71_apply v8 v10 q n]
  -- what is left is the box term's definition, its named parts written out
  rfl

end Cert.KernelIdeal.Body

end
-- ==== Proof.KernelBody.lean ====
/-
  The entry (q, n) of the block the body of the cost-matrix kernel stores, from the seven blocks it loaded: the
  specification's cost of row q of the query-side blocks against column or row n of the target-side blocks. The class
  term, the polyline term and the box term with the weighted sum are read one by one; the five loads that pass through
  a cast to their own shape are the loaded blocks themselves.
-/
import proofs.«402434_j86990267613642_3_alg».proof.Proof.FrameIdeal
import proofs.«402434_j86990267613642_3_alg».proof.Proof.BodyClass
import proofs.«402434_j86990267613642_3_alg».proof.Proof.BodyPoly
import proofs.«402434_j86990267613642_3_alg».proof.Proof.BodyBox
import Idealize.ShloMosaic.Lib.Pipeline.Value

set_option maxRecDepth 16384

noncomputable section

open scoped BigOperators

namespace Cert.KernelIdeal.KValue

open Idealize.ShloMosaic Idealize.ShloMosaic.ValueIdx
open Cert.CostSpec Cert.KernelIdeal Cert.KernelIdeal.Gen Cert.KernelIdeal.Frm Cert.KernelIdeal.Body

/-- The entry (q, n) of what the body stores, from its seven blocks: the specification's cost of the rows q and the
    columns n of the blocks. -/
theorem bodyVal_apply (x0 : Vec Ideal S1x500x92 .f32) (x1 : Vec Ideal S1x500x32 .f32) (x2 x3 : Vec Ideal S1x32x200 .f32)
    (x4 : Vec Ideal S1x500x4 .f32) (x5 : Vec Ideal S1x200x4 .f32) (x6 : Vec Ideal S1x200x1 .i32) (q : Fin 500) (n : Fin 200) :
    bodyVal (F := Ideal) x0 x1 x2 x3 x4 x5 x6 (ix3 (0 : Fin 1) q n)
      = costE (clsE (fun k => x0 (ix3 (0 : Fin 1) q k)) (x6 (ix3 (0 : Fin 1) n (0 : Fin 1))))
          (polyE (fun k => x1 (ix3 (0 : Fin 1) q k)) (fun k => x2 (ix3 (0 : Fin 1) k n)) (fun k => x3 (ix3 (0 : Fin 1) k n)))
          (giouE (x4 (ix3 (0 : Fin 1) q (0 : Fin 4))) (x4 (ix3 (0 : Fin 1) q (1 : Fin 4))) (x4 (ix3 (0 : Fin 1) q (2 : Fin 4))) (x4 (ix3 (0 : Fin 1) q (3 : Fin 4)))
            (x5 (ix3 (0 : Fin 1) n (0 : Fin 4))) (x5 (ix3 (0 : Fin 1) n (1 : Fin 4))) (x5 (ix3 (0 : Fin 1) n (2 : Fin 4))) (x5 (ix3 (0 : Fin 1) n (3 : Fin 4)))) := by
  have e1 : k0_pay1 (F := Ideal) x1 = x1 := shapeCast_self _ _
  have e2 : k0_pay2 (F := Ideal) x2 = x2 := shapeCast_self _ _
  have e3 : k0_pay3 (F := Ideal) x3 = x3 := shapeCast_self _ _
  have e4 : k0_pay4 (F := Ideal) x4 = x4 := shapeCast_self _ _
  have e5 : k0_pay5 (F := Ideal) x5 = x5 := shapeCast_self _ _
  unfold bodyVal
  try dsimp only
  rw [e1, e2, e3, e4, e5, pay72_apply, pay6_apply, polyVal_apply]

end Cert.KernelIdeal.KValue

end
-- ==== Proof.KernelValue.lean ====
/-
  The output array of the idealized cost-matrix program after its run, as one function of the arrays its grid finds.
  Point t of the grid handles batch element t: every window's block at t is the slab of its array at leading
  coordinate t (index map (t, 0, 0), block extent 1 on the leading axis), and the block the body stores goes back to
  slab t of the result. So entry (b, q, n) of the result is the body's value at (q, n) on the slabs b of the seven
  input arrays — the specification's cost of query q against target n in batch element b: the target polylines reach
  the body transposed, and the labels as a column.
-/
import proofs.«402434_j86990267613642_3_alg».proof.Proof.FrameIdeal
import proofs.«402434_j86990267613642_3_alg».proof.Proof.KernelBody
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.KValue

open Idealize.ShloMosaic Idealize.ShloMosaic.TcCoe Idealize.ShloMosaic.ValueIdx Idealize.ShloMosaic.StableHlo
open Idealize.SL.Sem
open Idealize.ShloMosaic.Pipeline (Dat Cfg Window)
open Cert.CostSpec Cert.KernelIdeal Cert.KernelIdeal.Gen Cert.KernelIdeal.Frm Cert.KernelIdeal.Body

variable (m : (ℓ : Loc nD τ sig) → Buf (Elt Ideal) ℓ) (ρ : Dev nD → PrngReg)

/-! ## The index maps, decided over the grid -/

/-- Every window's block index at point t is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

/-- A point of the grid as a batch element. -/
def bOf (t : Fin cfg0.N) : Fin 32 := ⟨t.val, lt_of_lt_of_eq t.isLt N_0⟩

/-! ## The blocks the body loads, as slabs of the arrays -/

/-- The logits' block at point t is slab t of the logits. -/
theorem iblk0_apply (c : Dev nD) (t : Fin cfg0.N) (q : Fin 500) (k : Fin 92) :
    (iblk m c 0 t : Vec Ideal S1x500x92 .f32) (ix3 (0 : Fin 1) q k) = (V m c main_arg0 : S32x500x92.Idx → Elt Ideal .f32) (ix3 (bOf t) q k) := by
  obtain ⟨h0, h1, h2⟩ := (idx_facts t).1
  unfold iblk
  rw [View.read_apply]
  show V m c main_arg0 _ = V m c main_arg0 _
  congr 1
  funext a
  apply Fin.ext
  match a with
  | ⟨0, _⟩ => show win0_0.index t 0 * 1 + 1 * 0 = t.val; rw [h0]; omega
  | ⟨1, _⟩ => show win0_0.index t 1 * 500 + 1 * q.val = q.val; rw [h1]; omega
  | ⟨2, _⟩ => show win0_0.index t 2 * 92 + 1 * k.val = k.val; rw [h2]; omega

/-- The query polylines' block at point t is slab t of the flattened query polylines. -/
theorem iblk1_apply (c : Dev nD) (t : Fin cfg0.N) (q : Fin 500) (k : Fin 32) :
    (iblk m c 1 t : Vec Ideal S1x500x32 .f32) (ix3 (0 : Fin 1) q k) = (V m c main_v0 : S32x500x32.Idx → Elt Ideal .f32) (ix3 (bOf t) q k) := by
  obtain ⟨h0, h1, h2⟩ := (idx_facts t).2.1
  unfold iblk
  rw [View.read_apply]
  show V m c main_v0 _ = V m c main_v0 _
  congr 1
  funext a
  apply Fin.ext
  match a with
  | ⟨0, _⟩ => show win0_1.index t 0 * 1 + 1 * 0 = t.val; rw [h0]; omega
  | ⟨1, _⟩ => show win0_1.index t 1 * 500 + 1 * q.val = q.val; rw [h1]; omega
  | ⟨2, _⟩ => show win0_1.index t 2 * 32 + 1 * k.val = k.val; rw [h2]; omega

/-- The target polylines' block at point t is slab t of the transposed flattened target polylines. -/
theorem iblk2_apply (c : Dev nD) (t : Fin cfg0.N) (k : Fin 32) (n : Fin 200) :
    (iblk m c 2 t : Vec Ideal S1x32x200 .f32) (ix3 (0 : Fin 1) k n) = (V m c main_v4 : S32x32x200.Idx → Elt Ideal .f32) (ix3 (bOf t) k n) := by
  obtain ⟨h0, h1, h2⟩ := (idx_facts t).2.2.1
  unfold iblk
  rw [View.read_apply]
  show V m c main_v4 _ = V m c main_v4 _
  congr 1
  funext a
  apply Fin.ext
  match a with
  | ⟨0, _⟩ => show win0_2.index t 0 * 1 + 1 * 0 = t.val; rw [h0]; omega
  | ⟨1, _⟩ => show win0_2.index t 1 * 32 + 1 * k.val = k.val; rw [h1]; omega
  | ⟨2, _⟩ => show win0_2.index t 2 * 200 + 1 * n.val = n.val; rw [h2]; omega

/-- The reversed target polylines' block at point t is slab t of their transposed flattening. -/
theorem iblk3_apply (c : Dev nD) (t : Fin cfg0.N) (k : Fin 32) (n : Fin 200) :
    (iblk m c 3 t : Vec Ideal S1x32x200 .f32) (ix3 (0 : Fin 1) k n) = (V m c main_v5 : S32x32x200.Idx → Elt Ideal .f32) (ix3 (bOf t) k n) := by
  obtain ⟨h0, h1, h2⟩ := (idx_facts t).2.2.2.1
  unfold iblk
  rw [View.read_apply]
  show V m c main_v5 _ = V m c main_v5 _
  congr 1
  funext a
  apply Fin.ext
  match a with
  | ⟨0, _⟩ => show win0_3.index t 0 * 1 + 1 * 0 = t.val; rw [h0]; omega
  | ⟨1, _⟩ => show win0_3.index t 1 * 32 + 1 * k.val = k.val; rw [h1]; omega
  | ⟨2, _⟩ => show win0_3.index t 2 * 200 + 1 * n.val = n.val; rw [h2]; omega

/-- The query boxes' block at point t is slab t of the query boxes. -/
theorem iblk4_apply (c : Dev nD) (t : Fin cfg0.N) (q : Fin 500) (j : Fin 4) :
    (iblk m c 4 t : Vec Ideal S1x500x4 .f32) (ix3 (0 : Fin 1) q j) = (V m c main_v22 : S32x500x4.Idx → Elt Ideal .f32) (ix3 (bOf t) q j) := by
  obtain ⟨h0, h1, h2⟩ := (idx_facts t).2.2.2.2.1
  unfold iblk
  rw [View.read_apply]
  show V m c main_v22 _ = V m c main_v22 _
  congr 1
  funext a
  apply Fin.ext
  match a with
  | ⟨0, _⟩ => show win0_4.index t 0 * 1 + 1 * 0 = t.val; rw [h0]; omega
  | ⟨1, _⟩ => show win0_4.index t 1 * 500 + 1 * q.val = q.val; rw [h1]; omega
  | ⟨2, _⟩ => show win0_4.index t 2 * 4 + 1 * j.val = j.val; rw [h2]; omega

/-- The target boxes' block at point t is slab t of the target boxes. -/
theorem iblk5_apply (c : Dev nD) (t : Fin cfg0.N) (n : Fin 200) (j : Fin 4) :
    (iblk m c 5 t : Vec Ideal S1x200x4 .f32) (ix3 (0 : Fin 1) n j) = (V m c main_v31 : S32x200x4.Idx → Elt Ideal .f32) (ix3 (bOf t) n j) := by
  obtain ⟨h0, h1, h2⟩ := (idx_facts t).2.2.2.2.2.1
  unfold iblk
  rw [View.read_apply]
  show V m c main_v31 _ = V m c main_v31 _
  congr 1
  funext a
  apply Fin.ext
  match a with
  | ⟨0, _⟩ => show win0_5.index t 0 * 1 + 1 * 0 = t.val; rw [h0]; omega
  | ⟨1, _⟩ => show win0_5.index t 1 * 200 + 1 * n.val = n.val; rw [h1]; omega
  | ⟨2, _⟩ => show win0_5.index t 2 * 4 + 1 * j.val = j.val; rw [h2]; omega

/-- The labels' block at point t is slab t of the labels' column. -/
theorem iblk6_apply (c : Dev nD) (t : Fin cfg0.N) (n : Fin 200) (z : Fin 1) :
    (iblk m c 6 t : Vec Ideal S1x200x1 .i32) (ix3 (0 : Fin 1) n z) = (V m c main_v32 : S32x200x1.Idx → Elt Ideal .i32) (ix3 (bOf t) n z) := by
  obtain ⟨h0, h1, h2⟩ := (idx_facts t).2.2.2.2.2.2.1
  unfold iblk
  rw [View.read_apply]
  show V m c main_v32 _ = V m c main_v32 _
  congr 1
  funext a
  apply Fin.ext
  match a with
  | ⟨0, _⟩ => show win0_6.index t 0 * 1 + 1 * 0 = t.val; rw [h0]; omega
  | ⟨1, _⟩ => show win0_6.index t 1 * 200 + 1 * n.val = n.val; rw [h1]; omega
  | ⟨2, _⟩ => show win0_6.index t 2 * 1 + 1 * z.val = z.val; rw [h2]; omega

/-! ## The transposed and the broadcast arrays, read at an index -/

/-- The transposed target polylines are the flattened target polylines with the last two axes exchanged. -/
theorem V_v4_eq (c : Dev nD) : (V m c main_v4 : S32x32x200.Idx → Elt Ideal .f32)
    = transpose S32x32x200 [0, 2, 1] (V m c main_v1 : S32x200x32.Idx → Elt Ideal .f32) transposes_S32x200x32_S32x32x200_0_2_1 := by
  dsimp only [V]
  simp only [hostOps0, hostOps0_1, hostOps0_2, List.flatten_cons, List.flatten_nil, List.append_nil, List.cons_append, List.nil_append]
  after_results_simp <;> rfl

theorem V_v5_eq (c : Dev nD) : (V m c main_v5 : S32x32x200.Idx → Elt Ideal .f32)
    = transpose S32x32x200 [0, 2, 1] (V m c main_v3 : S32x200x32.Idx → Elt Ideal .f32) transposes_S32x200x32_S32x32x200_0_2_1 := by
  dsimp only [V]
  simp only [hostOps0, hostOps0_1, hostOps0_2, List.flatten_cons, List.flatten_nil, List.append_nil, List.cons_append, List.nil_append]
  after_results_simp <;> rfl

/-- The labels' column is the labels with a unit axis appended. -/
theorem V_v32_eq (c : Dev nD) : (V m c main_v32 : S32x200x1.Idx → Elt Ideal .i32)
    = broadcastInDim S32x200x1 ![0, 1] bcast_S32x200_S32x200x1_0_1 (V m c main_arg2 : S32x200.Idx → Elt Ideal .i32) := by
  dsimp only [V]
  simp only [hostOps0, hostOps0_1, hostOps0_2, List.flatten_cons, List.flatten_nil, List.append_nil, List.cons_append, List.nil_append]
  after_results_simp <;> rfl

theorem V_v4_apply (c : Dev nD) (b : Fin 32) (k : Fin 32) (n : Fin 200) :
    (V m c main_v4 : S32x32x200.Idx → Elt Ideal .f32) (ix3 b k n) = (V m c main_v1 : S32x200x32.Idx → Elt Ideal .f32) (ix3 b n k) := by
  rw [V_v4_eq]; exact transpose_ix3_021_apply _ _ b k n

theorem V_v5_apply (c : Dev nD) (b : Fin 32) (k : Fin 32) (n : Fin 200) :
    (V m c main_v5 : S32x32x200.Idx → Elt Ideal .f32) (ix3 b k n) = (V m c main_v3 : S32x200x32.Idx → Elt Ideal .f32) (ix3 b n k) := by
  rw [V_v5_eq]; exact transpose_ix3_021_apply _ _ b k n

theorem V_v32_apply (c : Dev nD) (b : Fin 32) (n : Fin 200) :
    (V m c main_v32 : S32x200x1.Idx → Elt Ideal .i32) (ix3 b n (0 : Fin 1)) = (V m c main_arg2 : S32x200.Idx → Elt Ideal .i32) (ix2 b n) := by
  rw [V_v32_eq]
  refine broadcastInDim_apply _ _ _ (ix3 b n (0 : Fin 1)) (ix2 b n) fun a => ?_
  match a with
  | ⟨0, _⟩ => rfl
  | ⟨1, _⟩ => rfl

/-! ## The result array -/

/-- The specification's cost array of the arrays the grid finds. -/
def Gk (c : Dev nD) : S32x500x200.Idx → Elt Ideal .f32 := fun i =>
  G (V m c main_arg0) (V m c main_v0) (V m c main_v1) (V m c main_v3) (V m c main_v22) (V m c main_v31) (V m c main_arg2)
    (i 0) (i 1) (i 2)

theorem hz3 : (![0, 0, 0] : Fin 3 → Nat) = fun _ => 0 := funext fun a => by fin_cases a <;> rfl

/-- What point t writes back is slab t of the cost array. -/
theorem flushed7_eq (c : Dev nD) (t : Fin cfg0.N) :
    (dats m 0 c).flushed 7 t = ((cfg0.win 7).blk t).view.read (Elt Ideal) (Gk m c) := by
  show (cfg0.win 7).cut (grid0.coords t) ((dats m 0 c).after 7 t) = _
  rw [after7]
  unfold out7
  rw [View.canon_unit_zero hz3]
  simp only [View.ld_unit_zero (S := S1x500x92) hz3, View.ld_unit_zero (S := S1x500x32) hz3, View.ld_unit_zero (S := S1x32x200) hz3,
    View.ld_unit_zero (S := S1x500x4) hz3, View.ld_unit_zero (S := S1x200x4) hz3, View.ld_unit_zero (S := S1x200x1) hz3]
  refine funext fun (j : S1x500x200.Idx) => ?_
  obtain ⟨z, q, n, rfl⟩ : ∃ (z : Fin 1) (q : Fin 500) (n : Fin 200), j = ix3 z q n := ⟨j 0, j 1, j 2, eq_ix3 j⟩
  obtain rfl : z = 0 := Fin.ext (by omega)
  show bodyVal (F := Ideal) (iblk m c 0 t) (iblk m c 1 t) (iblk m c 2 t) (iblk m c 3 t) (iblk m c 4 t) (iblk m c 5 t) (iblk m c 6 t) (ix3 (0 : Fin 1) q n)
    = Gk m c (((cfg0.win 7).blk t).view.emb (ix3 (0 : Fin 1) q n))
  have hemb : ((cfg0.win 7).blk t).view.emb (ix3 (0 : Fin 1) q n) = (ix3 (bOf t) q n : S32x500x200.Idx) := by
    obtain ⟨h0, h1, h2⟩ := (idx_facts t).2.2.2.2.2.2.2
    funext a
    apply Fin.ext
    match a with
    | ⟨0, _⟩ => show win0_7.index t 0 * 1 + 1 * 0 = t.val; rw [h0]; omega
    | ⟨1, _⟩ => show win0_7.index t 1 * 500 + 1 * q.val = q.val; rw [h1]; omega
    | ⟨2, _⟩ => show win0_7.index t 2 * 200 + 1 * n.val = n.val; rw [h2]; omega
  rw [hemb, bodyVal_apply]
  show _ = G (V m c main_arg0) (V m c main_v0) (V m c main_v1) (V m c main_v3) (V m c main_v22) (V m c main_v31) (V m c main_arg2) (bOf t) q n
  unfold G
  simp only [iblk0_apply, iblk1_apply, iblk2_apply, iblk3_apply, iblk4_apply, iblk5_apply, iblk6_apply]
  -- the target polylines reach the body transposed, the labels as a column
  rw [show (V m c main_v32 : S32x200x1.Idx → Elt Ideal .i32) (ix3 (bOf t) n (0 : Fin 1)) = (V m c main_arg2 : S32x200.Idx → Elt Ideal .i32) (ix2 (bOf t) n)
        from V_v32_apply m c (bOf t) n,
    show (fun k : Fin 32 => (V m c main_v4 : S32x32x200.Idx → Elt Ideal .f32) (ix3 (bOf t) k n)) = fun k => (V m c main_v1 : S32x200x32.Idx → Elt Ideal .f32) (ix3 (bOf t) n k)
        from funext fun k => V_v4_apply m c (bOf t) k n,
    show (fun k : Fin 32 => (V m c main_v5 : S32x32x200.Idx → Elt Ideal .f32) (ix3 (bOf t) k n)) = fun k => (V m c main_v3 : S32x200x32.Idx → Elt Ideal .f32) (ix3 (bOf t) n k)
        from funext fun k => V_v5_apply m c (bOf t) k n]

/-- An entry is in point t's block iff each coordinate is in the block's range on its axis. -/
theorem mem_blk7 (t : Fin cfg0.N) (i : S32x500x200.Idx) :
    i ∈ ((cfg0.win 7).blk t).view.set ↔ ∀ a : Fin 3, win0_7.index t a * S1x500x200.size a ≤ (i a).val ∧ (i a).val < win0_7.index t a * S1x500x200.size a + S1x500x200.size a := by
  show i ∈ ((View.whole main_v33).slice (win0_7.rect t)).set ↔ _
  rw [View.set_slice_whole, Rect.mem_set_unit]
  exact Iff.rfl

/-- Every entry of the result lies in the block of the point that handles its batch element. -/
theorem cover7 (i : S32x500x200.Idx) :
    ∃ t : Fin cfg0.N, (cfg0.win 7).flush t = true ∧ i ∈ ((cfg0.win 7).blk t).view.set := by
  have hi0 : (i 0).val < 32 := (i 0).isLt
  have hi1 : (i 1).val < 500 := (i 1).isLt
  have hi2 : (i 2).val < 200 := (i 2).isLt
  have hN : (i 0).val < cfg0.N := lt_of_lt_of_eq hi0 N_0.symm
  obtain ⟨h0, h1, h2⟩ := (idx_facts ⟨(i 0).val, hN⟩).2.2.2.2.2.2.2
  refine ⟨⟨(i 0).val, hN⟩, flush0_7 _, ?_⟩
  rw [mem_blk7]
  intro a
  match a with
  | ⟨0, _⟩ =>
    show win0_7.index ⟨(i 0).val, hN⟩ 0 * 1 ≤ (i 0).val ∧ (i 0).val < win0_7.index ⟨(i 0).val, hN⟩ 0 * 1 + 1
    rw [h0]
    show (i 0).val * 1 ≤ (i 0).val ∧ (i 0).val < (i 0).val * 1 + 1
    omega
  | ⟨1, _⟩ =>
    show win0_7.index ⟨(i 0).val, hN⟩ 1 * 500 ≤ (i 1).val ∧ (i 1).val < win0_7.index ⟨(i 0).val, hN⟩ 1 * 500 + 500
    rw [h1]; omega
  | ⟨2, _⟩ =>
    show win0_7.index ⟨(i 0).val, hN⟩ 2 * 200 ≤ (i 2).val ∧ (i 2).val < win0_7.index ⟨(i 0).val, hN⟩ 2 * 200 + 200
    rw [h2]; omega

/-- The result array after the run is the cost array. -/
theorem final7 (c : Dev nD) : (dats m 0 c).arrAt 7 cfg0.N = Gk m c :=
  (dats m 0 c).arrAt_eq_of_cover 7 (Gk m c) (fun t _ => flushed7_eq m c t) cover7

/-- The run, read: the result array ends at the cost array of the arrays the grid found, the arguments as launched. -/
theorem run : θ_run defs (onTc (τ := τ) (main (F := Ideal))) ⟨m, fun _ => 0, ρ⟩ fun r => ∀ c : Dev nD,
      r.2.mem ((c.tc : Thread nD τ).loc main_v33) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 7).trans (final7 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.KValue

end
-- ==== Proof.RefClass.lean ====
/-
  The reference's class term, read at batch element b, query q and target n: the softmax of row (b, q) of the logits,
  gathered along the class axis at target (b, n)'s label, negated. When the label is a class number (below 92) the
  gather's index needs no wrapping and is in range, so the entry is minus the softmax at the label; the sum of the
  softmax against the label's indicator has that one term.
-/
import proofs.«402434_j86990267613642_3_alg».proof.Proof.RefRead
import proofs.«402434_j86990267613642_3_alg».proof.Proof.Spec
import proofs.«402434_j86990267613642_3_alg».proof.Proof.LibRowsRank3
import Idealize.ShloMosaic.Lib.Pipeline.Value
import Idealize.ShloMosaic.Lib.ValueLayout

set_option maxRecDepth 16384

noncomputable section

open scoped BigOperators

namespace Cert.ReferenceIdeal.RefValue

open Idealize.ShloMosaic Idealize.ShloMosaic.ValueIdx Cert.CostSpec Cert.ReferenceIdeal Cert.ReferenceIdeal.Gen Cert.ReferenceIdeal.Read

/-! ## The softmax of a row of logits -/

/-- The row maximum (never below -∞), read at row (b, q). -/
theorem rowmax_apply (x0 : (⟨S32x500x92, .f32⟩ : BufTy).Contents (Elt Ideal)) (b : Fin 32) (q : Fin 500) :
    val_main_v2 (F := Ideal) x0 (ix2 b q) = rowMaxE (fun k => x0 (ix3 b q k)) := by
  rw [val_main_v2_apply, val_main_v1_apply, val_main_cst_0_apply]
  unfold val_main_v0
  rw [Cert.LibRowsRank3.hostReduce_max_last_apply (m := 32) (a := 500) (b := 92) x0 _ _ (by decide) h_S_ b q]
  rfl

/-- The exponential of the logit less its row's maximum, read at (b, q, k). -/
theorem exprow_apply (x0 : (⟨S32x500x92, .f32⟩ : BufTy).Contents (Elt Ideal)) (b : Fin 32) (q : Fin 500) (k : Fin 92) :
    val_main_v6 (F := Ideal) x0 (ix3 b q k) = expRowE (fun k => x0 (ix3 b q k)) k := by
  rw [val_main_v6_apply, val_main_v5_apply, val_main_v4_apply, val_main_v3_apply]
  have hi : idx_main_v3 (idx_main_v4 (ix3 b q k)) = ix2 b q :=
    funext fun a => Fin.ext (by match a with | ⟨0, _⟩ => rfl | ⟨1, _⟩ => rfl)
  rw [hi, rowmax_apply]
  rfl

/-- The softmax probability, read at (b, q, k). -/
theorem softmax_apply (x0 : (⟨S32x500x92, .f32⟩ : BufTy).Contents (Elt Ideal)) (b : Fin 32) (q : Fin 500) (k : Fin 92) :
    val_main_v10 (F := Ideal) x0 (ix3 b q k) = probE (fun k => x0 (ix3 b q k)) k := by
  rw [val_main_v10_apply, val_main_v9_apply, val_main_v8_apply, val_main_v7_apply, val_main_cst_1_apply, exprow_apply]
  have hs : ∀ j : Fin 92, idx_main_v7 (idx_main_v8 (idx_main_v9 (ix3 b q k))) j = ix3 b q j := fun j =>
    funext fun a => Fin.ext (by match a with | ⟨0, _⟩ => rfl | ⟨1, _⟩ => rfl | ⟨2, _⟩ => rfl)
  simp only [hs, exprow_apply]
  unfold probE
  rw [Ideal.hostDivf_def, Ideal.ofBits_def, Ideal.ofBits_zero_f32, zero_add]

/-! ## The gather along the class axis -/

/-- The record of the class-axis gather, under a short name. -/
abbrev gd : GatherDims S32x500x92 S32x500x200x1 S32x500x200 :=
  gather_S32x500x92_S32x500x200x1_S32x500x200_n_2_01_01_2_3_111

/-- On the batch axis the gather's operand index is the result's batch coordinate. -/
theorem gd_axis0 (idx : IVec S32x500x200x1 32) (b : Fin 32) (q : Fin 500) (n : Fin 200) :
    gd.start (ix3 b q n) idx 0 + gd.batchCoord (ix3 b q n) 0 + gd.offCoord (ix3 b q n) 0 = b.val := by
  rw [GatherDims.start_batching _ _ _ _ (by decide), GatherDims.offCoord_eq_zero _ _ _ (by decide), Nat.zero_add,
    Nat.add_zero]
  rfl

/-- On the query axis the gather's operand index is the result's query coordinate. -/
theorem gd_axis1 (idx : IVec S32x500x200x1 32) (b : Fin 32) (q : Fin 500) (n : Fin 200) :
    gd.start (ix3 b q n) idx 1 + gd.batchCoord (ix3 b q n) 1 + gd.offCoord (ix3 b q n) 1 = q.val := by
  rw [GatherDims.start_batching _ _ _ _ (by decide), GatherDims.offCoord_eq_zero _ _ _ (by decide), Nat.zero_add,
    Nat.add_zero]
  rfl

/-- On the class axis the gather's operand index is the start index at (b, q, n), read signed and cut off to [0, 91]. -/
theorem gd_axis2 (idx : IVec S32x500x200x1 32) (b : Fin 32) (q : Fin 500) (n : Fin 200) :
    gd.start (ix3 b q n) idx 2 + gd.batchCoord (ix3 b q n) 2 + gd.offCoord (ix3 b q n) 2
      = min (idx (ix4 b q n (0 : Fin 1))).toInt.toNat 91 := by
  rw [GatherDims.batchCoord_eq_zero _ _ _ (by decide), GatherDims.offCoord_eq_zero _ _ _ (by decide), Nat.add_zero]
  unfold GatherDims.start
  rw [dif_pos (show (2 : Fin 3) ∈ gd.startIndexMap by decide)]
  have hsi : gd.siIdx (ix3 b q n) ⟨List.idxOf (2 : Fin 3) gd.startIndexMap, List.idxOf_lt_length_iff.2 (by decide)⟩
      = ix4 b q n (0 : Fin 1) := by
    funext c; refine Fin.ext ?_
    match c with
    | ⟨0, _⟩ => rfl
    | ⟨1, _⟩ => rfl
    | ⟨2, _⟩ => rfl
    | ⟨3, _⟩ => rfl
  rw [hsi]
  rfl

/-- The gather along the class axis, read at (b, q, n): the operand at row (b, q) and the class the start index
    at (b, q, n) names, read signed and cut off to [0, 91]. -/
theorem gather_apply {α : Type} (x : S32x500x92.Idx → α) (idx : IVec S32x500x200x1 32)
    (b : Fin 32) (q : Fin 500) (n : Fin 200) :
    Host.gather gd x idx (ix3 b q n)
      = x (ix3 b q ⟨min (idx (ix4 b q n (0 : Fin 1))).toInt.toNat 91, by omega⟩) := by
  unfold Host.gather
  congr 1
  funext a
  refine Fin.ext ?_
  match a with
  | ⟨0, _⟩ => exact gd_axis0 idx b q n
  | ⟨1, _⟩ => exact gd_axis1 idx b q n
  | ⟨2, _⟩ => exact gd_axis2 idx b q n

/-! ## The label as a start index: no wrap-around, and a set validity mask -/

/-- A word below 92 read signed is the number itself. -/
theorem toInt_of_lt92 (l : BitVec 32) (hl : l.toNat < 92) : l.toInt = (l.toNat : Int) :=
  BitVec.toInt_eq_toNat_of_lt (by omega)

/-- The labels broadcast over the queries, read at (b, q, n): target (b, n)'s label. -/
theorem lab_apply (x2 : (⟨S32x200, .i32⟩ : BufTy).Contents (Elt Ideal)) (b : Fin 32) (q : Fin 500) (n : Fin 200) :
    val_main_v12 (F := Ideal) x2 (ix3 b q n) = x2 (ix2 b n) := by
  rw [val_main_v12_apply, val_main_v11_apply]
  exact congrArg x2 (funext fun a => Fin.ext (by match a with | ⟨0, _⟩ => rfl | ⟨1, _⟩ => rfl))

/-- A label below 92 is not negative, so the wrap-around of negative indices leaves it as it is. -/
theorem wrap_apply (x2 : (⟨S32x200, .i32⟩ : BufTy).Contents (Elt Ideal)) (b : Fin 32) (q : Fin 500) (n : Fin 200)
    (hl : (x2 (ix2 b n)).toNat < 92) :
    val_main_call0_v4 (F := Ideal) x2 (ix3 b q n) = x2 (ix2 b n) := by
  rw [val_main_call0_v4_apply, val_main_call0_v1_apply, val_main_call0_v0_apply, val_main_call0_c_apply, lab_apply]
  have h0 : IntOp.cmpi .slt (x2 (ix2 b n)) 0#32 = 0#1 := eq_zero_of_ne_one fun h => by
    have := IntOp.cmpi_slt.1 h
    rw [toInt_of_lt92 _ hl] at this
    have h0 : (0#32 : BitVec 32).toInt = 0 := by decide
    omega
  rw [h0, select_zero]

/-- The start indices [32, 500, 200, 1] read at (b, q, n, 0): the label. -/
theorem start_apply (x2 : (⟨S32x200, .i32⟩ : BufTy).Contents (Elt Ideal)) (b : Fin 32) (q : Fin 500) (n : Fin 200)
    (z : Fin 1) (hl : (x2 (ix2 b n)).toNat < 92) :
    val_main_call0_v5 (F := Ideal) x2 (ix4 b q n z) = x2 (ix2 b n) := by
  rw [val_main_call0_v5_apply]
  have hi : idx_main_call0_v5 (ix4 b q n z) = ix3 b q n := by
    have hb := b.isLt; have hq := q.isLt; have hn := n.isLt; have hz : z.val = 0 := by omega
    funext a; refine Fin.ext ?_
    match a with
    | ⟨0, _⟩ => show (((b.val * 500 + q.val) * 200 + n.val) * 1 + z.val) / 100000 = b.val; omega
    | ⟨1, _⟩ => show (((b.val * 500 + q.val) * 200 + n.val) * 1 + z.val) / 200 % 500 = q.val; omega
    | ⟨2, _⟩ => show (((b.val * 500 + q.val) * 200 + n.val) * 1 + z.val) % 200 = n.val; omega
  rw [hi, wrap_apply x2 b q n hl]

/-- The index (b, q, n) with the coordinate z inserted on the last axis is (b, q, n, z). -/
theorem lift4_last (h : S32x500x200x1.Reduces [3] S32x500x200) (b : Fin 32) (q : Fin 500) (n : Fin 200) (z : Fin 1) :
    h.lift (ix3 b q n) z = ix4 b q n z := by
  funext c
  match c with
  | ⟨0, _⟩ => exact Fin.ext rfl
  | ⟨1, _⟩ => exact Fin.ext rfl
  | ⟨2, _⟩ => exact Fin.ext rfl
  | ⟨3, _⟩ => exact Fin.ext rfl

/-- An and-reduction over an axis of extent one: the initial 1 and the one entry. -/
theorem fold_andi_one (g : Fin 1 → BitVec 1) :
    Finset.fold IntOp.andi (1#1) g (Finset.univ : Finset (Fin 1)) = IntOp.andi (g 0) (1#1) := by
  rw [Finset.univ_unique, Finset.fold_singleton]
  rfl

/-- A label below 92 is a valid class index (between 0 and 91), so the validity mask is set at (b, q, n). -/
theorem mask_apply (x2 : (⟨S32x200, .i32⟩ : BufTy).Contents (Elt Ideal)) (b : Fin 32) (q : Fin 500) (n : Fin 200)
    (hl : (x2 (ix2 b n)).toNat < 92) :
    val_main_call0_v12 (F := Ideal) x2 (ix3 b q n) = 1#1 := by
  unfold val_main_call0_v12
  have hr : S32x500x200x1.Reduces [3] S32x500x200 := by decide
  rw [Host.reduce_eq_fold_single IntOp.andi _ _ reducesTo_S32x500x200x1_S32x500x200_d3 hr h_S_ (ix3 b q n)]
  -- the reduced axis has the one coordinate 0: the fold is the initial 1 and the one entry
  refine (fold_andi_one (val_main_call0_v11 (F := Ideal) x2 ∘ hr.lift (ix3 b q n))).trans ?_
  show IntOp.andi (val_main_call0_v11 (F := Ideal) x2 (hr.lift (ix3 b q n) (0 : Fin 1))) (1#1) = 1#1
  rw [lift4_last, val_main_call0_v11_apply, val_main_call0_v7_apply, val_main_call0_v10_apply,
    val_main_call0_v6_apply, val_main_call0_c_2_apply, val_main_call0_v9_apply, val_main_call0_v8_apply,
    val_main_call0_c_1_apply, start_apply x2 b q n _ hl]
  have hge : IntOp.cmpi .sge (x2 (ix2 b n)) 0#32 = 1#1 := IntOp.cmpi_sge.2 (by
    rw [toInt_of_lt92 _ hl]
    have h0 : (0#32 : BitVec 32).toInt = 0 := by decide
    omega)
  have hle : IntOp.cmpi .sle (x2 (ix2 b n)) 91#32 = 1#1 := IntOp.cmpi_sle.2 (by
    rw [toInt_of_lt92 _ hl]
    have h91 : (91#32 : BitVec 32).toInt = 91 := by decide
    omega)
  rw [hge, hle]
  decide

/-! ## The gathered entry, and the sum against the label's indicator -/

/-- The gather at (b, q, n) when the start index there is a word l below 92: the operand at (b, q, l). -/
theorem gather_label {α : Type} (x : S32x500x92.Idx → α) (idx : IVec S32x500x200x1 32)
    (b : Fin 32) (q : Fin 500) (n : Fin 200) (l : BitVec 32) (hl : l.toNat < 92)
    (hidx : idx (ix4 b q n (0 : Fin 1)) = l) :
    Host.gather gd x idx (ix3 b q n) = x (ix3 b q ⟨l.toNat, hl⟩) := by
  rw [gather_apply]
  refine congrArg (fun k : Fin 92 => x (ix3 b q k)) (Fin.ext ?_)
  show min (idx (ix4 b q n (0 : Fin 1))).toInt.toNat 91 = l.toNat
  rw [hidx, toInt_of_lt92 l hl, Int.toNat_natCast]
  omega

/-- A label word is the class number c exactly when c is the word's value. -/
theorem eq_ofNat_iff (l : BitVec 32) (c : Fin 92) : l = BitVec.ofNat 32 c.val ↔ c.val = l.toNat := by
  have hc := c.isLt
  constructor
  · intro e
    rw [e, BitVec.toNat_ofNat]
    omega
  · intro e
    apply BitVec.eq_of_toNat_eq
    rw [BitVec.toNat_ofNat, ← e]
    omega

/-- The label's indicator: 1 at the class whose number the label word is, 0 at every other class. -/
theorem onehot_eq (l : BitVec 32) (c : Fin 92) : onehotE l c = if c.val = l.toNat then 1 else 0 := by
  unfold onehotE
  show ((((IntOp.cmpi .eq l (BitVec.ofNat 32 c.val)).setWidth 32).toInt : ℝ) : EReal) = _
  by_cases h : c.val = l.toNat
  · rw [if_pos h, IntOp.cmpi_eq.2 ((eq_ofNat_iff l c).2 h)]
    have h1 : ((1#1 : BitVec 1).setWidth 32).toInt = 1 := by decide
    rw [h1, Int.cast_one, EReal.coe_one]
  · rw [if_neg h, eq_zero_of_ne_one fun e => h ((eq_ofNat_iff l c).1 (IntOp.cmpi_eq.1 e))]
    have h0 : ((0#1 : BitVec 1).setWidth 32).toInt = 0 := by decide
    rw [h0, Int.cast_zero, EReal.coe_zero]

/-- The sum of a row against the indicator of a label below 92 has one term: the row's entry at the label. -/
theorem sum_onehot (p : Fin 92 → EReal) (l : BitVec 32) (hl : l.toNat < 92) :
    ∑ c : Fin 92, p c * onehotE l c = p ⟨l.toNat, hl⟩ := by
  rw [Finset.sum_eq_single (⟨l.toNat, hl⟩ : Fin 92)]
  · rw [onehot_eq, if_pos rfl, mul_one]
  · intro c _ hc
    rw [onehot_eq, if_neg fun e => hc (Fin.ext e), mul_zero]
  · intro h
    exact absurd (Finset.mem_univ _) h

/-! ## The class term -/

/-- The class term at (b, q, n), for labels below 92. -/
theorem ref_cls_apply (x0 : (⟨S32x500x92, .f32⟩ : BufTy).Contents (Elt Ideal)) (x2 : (⟨S32x200, .i32⟩ : BufTy).Contents (Elt Ideal))
    (hlab : ∀ (b : Fin 32) (n : Fin 200), (x2 (ix2 b n)).toNat < 92) (b : Fin 32) (q : Fin 500) (n : Fin 200) :
    val_main_v14 (F := Ideal) x0 x2 (ix3 b q n) = clsE (fun k => x0 (ix3 b q k)) (x2 (ix2 b n)) := by
  have hl := hlab b n
  -- the mask is set, so the entry is minus the gathered softmax entry
  rw [val_main_v14_apply, val_main_v13_apply, mask_apply x2 b q n hl, select_one]
  unfold val_main_call0_v13
  rw [gather_label (val_main_v10 (F := Ideal) x0) (val_main_call0_v5 (F := Ideal) x2) b q n (x2 (ix2 b n)) hl
    (start_apply x2 b q n 0 hl), softmax_apply]
  -- the indicator sum is that same entry, and minus y is 0 - y
  unfold clsE
  rw [sum_onehot _ _ hl, Ideal.hostNegf_def, Ideal.negf_def, show zeroE = (0 : EReal) from Ideal.ofBits_zero_f32, zero_sub]

end Cert.ReferenceIdeal.RefValue

end
-- ==== Proof.RefPoly.lean ====
/-
  The reference's polyline term, read at batch element b, query q and target n: the sum over the 32 flattened
  coordinates of the absolute differences between query (b, q) and target (b, n), divided by 32; the same against the
  target with its points reversed; the smaller of the two.
-/
import proofs.«402434_j86990267613642_3_alg».proof.Proof.RefRead
import proofs.«402434_j86990267613642_3_alg».proof.Proof.Spec
import proofs.«402434_j86990267613642_3_alg».proof.Proof.LibRowsRank3
import Idealize.ShloMosaic.Lib.Pipeline.Value
import Idealize.ShloMosaic.Lib.ValueLayout

noncomputable section

open scoped BigOperators

namespace Cert.ReferenceIdeal.RefValue

open Idealize.ShloMosaic Idealize.ShloMosaic.ValueIdx Cert.CostSpec Cert.ReferenceIdeal Cert.ReferenceIdeal.Gen Cert.ReferenceIdeal.Read

/-- The query side: the index (b, q, n) with the coordinate k put on the summed axis, read back through the two
    broadcasts of the query polylines, is (b, q, k). -/
theorem idx_query_given (b : Fin 32) (q : Fin 500) (n : Fin 200) (k : Fin 32) :
    idx_main_v19 (idx_main_v21 (idx_main_v25 (ix3 b q n) k)) = ix3 b q k :=
  funext fun a => Fin.ext (by match a with | ⟨0, _⟩ => rfl | ⟨1, _⟩ => rfl | ⟨2, _⟩ => rfl)

/-- The target side: the same index read back through the two broadcasts of the target polylines is (b, n, k). -/
theorem idx_target_given (b : Fin 32) (q : Fin 500) (n : Fin 200) (k : Fin 32) :
    idx_main_v20 (idx_main_v22 (idx_main_v25 (ix3 b q n) k)) = ix3 b n k :=
  funext fun a => Fin.ext (by match a with | ⟨0, _⟩ => rfl | ⟨1, _⟩ => rfl | ⟨2, _⟩ => rfl)

/-- The query side of the second difference (against the reversed targets): again (b, q, k). -/
theorem idx_query_reversed (b : Fin 32) (q : Fin 500) (n : Fin 200) (k : Fin 32) :
    idx_main_v28 (idx_main_v30 (idx_main_v34 (ix3 b q n) k)) = ix3 b q k :=
  funext fun a => Fin.ext (by match a with | ⟨0, _⟩ => rfl | ⟨1, _⟩ => rfl | ⟨2, _⟩ => rfl)

/-- The reversed-target side of the second difference: (b, n, k). -/
theorem idx_target_reversed (b : Fin 32) (q : Fin 500) (n : Fin 200) (k : Fin 32) :
    idx_main_v29 (idx_main_v31 (idx_main_v34 (ix3 b q n) k)) = ix3 b n k :=
  funext fun a => Fin.ext (by match a with | ⟨0, _⟩ => rfl | ⟨1, _⟩ => rfl | ⟨2, _⟩ => rfl)

/-- The polyline term at (b, q, n), from the flattened polylines. -/
theorem ref_poly_apply (x1 : (⟨S32x500x16x2, .f32⟩ : BufTy).Contents (Elt Ideal)) (x3 : (⟨S32x200x16x2, .f32⟩ : BufTy).Contents (Elt Ideal))
    (b : Fin 32) (q : Fin 500) (n : Fin 200) :
    val_main_v37 (F := Ideal) x1 x3 (ix3 b q n)
      = polyE (fun k => val_main_v15 (F := Ideal) x1 (ix3 b q k)) (fun k => val_main_v16 (F := Ideal) x3 (ix3 b n k))
          (fun k => val_main_v18 (F := Ideal) x3 (ix3 b n k)) := by
  -- the minimum of the two quotients; each quotient is a sum over the last axis, from the initial value 0, over the constant 32
  rw [val_main_v37_apply, val_main_v27_apply, val_main_v36_apply, val_main_v25_apply, val_main_v34_apply,
    val_main_v26_apply, val_main_v35_apply, val_main_cst_3_apply, val_main_cst_5_apply, val_main_cst_2_apply,
    val_main_cst_4_apply]
  -- each summand is the absolute value of a difference of two broadcasts, read back to the flattened polylines
  simp only [val_main_v24_apply, val_main_v23_apply, val_main_v21_apply, val_main_v22_apply, val_main_v19_apply,
    val_main_v20_apply, val_main_v33_apply, val_main_v32_apply, val_main_v30_apply, val_main_v31_apply,
    val_main_v28_apply, val_main_v29_apply, idx_query_given, idx_target_given, idx_query_reversed, idx_target_reversed]
  -- at the extended reals every operation is the exact one, and the initial value 0 drops out of the sums
  simp only [Ideal.ofBits_def, Ideal.ofBits_zero_f32, zero_add, Ideal.hostDivf_def, Ideal.minimumf_def,
    Ideal.hostAbsf_def, Ideal.subf_def]
  rfl

end Cert.ReferenceIdeal.RefValue

end
-- ==== Proof.RefBox.lean ====
/-
  The reference's box term, read at batch element b, query q and target n: minus the generalized
  intersection-over-union of query (b, q)'s bounding box (row (b, q) of the array [32, 500, 4]: least x, least y,
  greatest x, greatest y) and target (b, n)'s (row (b, n) of the array [32, 200, 4]).
-/
import proofs.«402434_j86990267613642_3_alg».proof.Proof.RefRead
import proofs.«402434_j86990267613642_3_alg».proof.Proof.Spec
import proofs.«402434_j86990267613642_3_alg».proof.Proof.LibRowsRank3
import Idealize.ShloMosaic.Lib.Pipeline.Value
import Idealize.ShloMosaic.Lib.ValueLayout

noncomputable section

open scoped BigOperators

namespace Cert.ReferenceIdeal.RefValue

open Idealize.ShloMosaic Idealize.ShloMosaic.ValueIdx Cert.CostSpec Cert.ReferenceIdeal Cert.ReferenceIdeal.Gen Cert.ReferenceIdeal.Read

/-- The integer 0 read as a float is the extended real 0: a lower cut-off at it is the cut-off at `zeroE`. -/
theorem clip_zero (x : EReal) :
    FloatOps.maximumf (F := Ideal) (φ := .f32) (FloatOps.sitofp (F := Ideal) .f32 (0#32 : BitVec 32)) x = max x zeroE := by
  have h0 : (((0#32 : BitVec 32).toInt : ℝ) : EReal) = 0 := by simp
  show max (((0#32 : BitVec 32).toInt : ℝ) : EReal) x = max x (Ideal.ofBits .f32 0x00000000#32)
  rw [h0, Ideal.ofBits_zero_f32, max_comm]

/-- Each cut-off's lower bound, broadcast from the converted integer 0. -/
theorem call2_zero (i : S32x500.Idx) :
    val_main_call2_v1 (F := Ideal) i = FloatOps.sitofp (F := Ideal) .f32 (0#32 : BitVec 32) := by
  rw [val_main_call2_v1_apply]; rfl
theorem call3_zero (i : S32x500.Idx) :
    val_main_call3_v1 (F := Ideal) i = FloatOps.sitofp (F := Ideal) .f32 (0#32 : BitVec 32) := by
  rw [val_main_call3_v1_apply]; rfl
theorem call4_zero (i : S32x200.Idx) :
    val_main_call4_v1 (F := Ideal) i = FloatOps.sitofp (F := Ideal) .f32 (0#32 : BitVec 32) := by
  rw [val_main_call4_v1_apply]; rfl
theorem call5_zero (i : S32x200.Idx) :
    val_main_call5_v1 (F := Ideal) i = FloatOps.sitofp (F := Ideal) .f32 (0#32 : BitVec 32) := by
  rw [val_main_call5_v1_apply]; rfl
theorem call6_zero (i : S32x500x200x2.Idx) :
    val_main_call6_v1 (F := Ideal) i = FloatOps.sitofp (F := Ideal) .f32 (0#32 : BitVec 32) := by
  rw [val_main_call6_v1_apply]; rfl
theorem call7_zero (i : S32x500x200x2.Idx) :
    val_main_call7_v1 (F := Ideal) i = FloatOps.sitofp (F := Ideal) .f32 (0#32 : BitVec 32) := by
  rw [val_main_call7_v1_apply]; rfl

/-! ### The four sides of each box, read from its array -/

/-- The reshape %65 of the one-column slice %64, read at (b, q): column 2 of row (b, q). -/
theorem v65_at (x1 : (⟨S32x500x16x2, .f32⟩ : BufTy).Contents (Elt Ideal)) (b : Fin 32) (q : Fin 500) :
    val_main_v65 (F := Ideal) x1 (ix2 b q) = val_main_v50 (F := Ideal) x1 (ix3 b q (2 : Fin 4)) := by
  rw [val_main_v65_apply, val_main_v64_apply]
  refine congrArg (val_main_v50 (F := Ideal) x1) ?_
  have hb := b.isLt
  have hr := q.isLt
  funext a
  match a with
  | ⟨0, _⟩ => exact Fin.ext (by show (b.val * 500 + q.val) / 500 = b.val; omega)
  | ⟨1, _⟩ => exact Fin.ext (by show (b.val * 500 + q.val) / 1 % 500 = q.val; omega)
  | ⟨2, _⟩ => exact Fin.ext (by show 2 + (0 : Nat) = 2; rfl)

/-- The reshape %67 of the one-column slice %66, read at (b, q): column 0 of row (b, q). -/
theorem v67_at (x1 : (⟨S32x500x16x2, .f32⟩ : BufTy).Contents (Elt Ideal)) (b : Fin 32) (q : Fin 500) :
    val_main_v67 (F := Ideal) x1 (ix2 b q) = val_main_v50 (F := Ideal) x1 (ix3 b q (0 : Fin 4)) := by
  rw [val_main_v67_apply, val_main_v66_apply]
  refine congrArg (val_main_v50 (F := Ideal) x1) ?_
  have hb := b.isLt
  have hr := q.isLt
  funext a
  match a with
  | ⟨0, _⟩ => exact Fin.ext (by show (b.val * 500 + q.val) / 500 = b.val; omega)
  | ⟨1, _⟩ => exact Fin.ext (by show (b.val * 500 + q.val) / 1 % 500 = q.val; omega)
  | ⟨2, _⟩ => exact Fin.ext (by show (0 : Nat) = 0; rfl)

/-- The reshape %71 of the one-column slice %70, read at (b, q): column 3 of row (b, q). -/
theorem v71_at (x1 : (⟨S32x500x16x2, .f32⟩ : BufTy).Contents (Elt Ideal)) (b : Fin 32) (q : Fin 500) :
    val_main_v71 (F := Ideal) x1 (ix2 b q) = val_main_v50 (F := Ideal) x1 (ix3 b q (3 : Fin 4)) := by
  rw [val_main_v71_apply, val_main_v70_apply]
  refine congrArg (val_main_v50 (F := Ideal) x1) ?_
  have hb := b.isLt
  have hr := q.isLt
  funext a
  match a with
  | ⟨0, _⟩ => exact Fin.ext (by show (b.val * 500 + q.val) / 500 = b.val; omega)
  | ⟨1, _⟩ => exact Fin.ext (by show (b.val * 500 + q.val) / 1 % 500 = q.val; omega)
  | ⟨2, _⟩ => exact Fin.ext (by show 3 + (0 : Nat) = 3; rfl)

/-- The reshape %73 of the one-column slice %72, read at (b, q): column 1 of row (b, q). -/
theorem v73_at (x1 : (⟨S32x500x16x2, .f32⟩ : BufTy).Contents (Elt Ideal)) (b : Fin 32) (q : Fin 500) :
    val_main_v73 (F := Ideal) x1 (ix2 b q) = val_main_v50 (F := Ideal) x1 (ix3 b q (1 : Fin 4)) := by
  rw [val_main_v73_apply, val_main_v72_apply]
  refine congrArg (val_main_v50 (F := Ideal) x1) ?_
  have hb := b.isLt
  have hr := q.isLt
  funext a
  match a with
  | ⟨0, _⟩ => exact Fin.ext (by show (b.val * 500 + q.val) / 500 = b.val; omega)
  | ⟨1, _⟩ => exact Fin.ext (by show (b.val * 500 + q.val) / 1 % 500 = q.val; omega)
  | ⟨2, _⟩ => exact Fin.ext (by show 1 + (0 : Nat) = 1; rfl)

/-- The reshape %78 of the one-column slice %77, read at (b, n): column 2 of row (b, n). -/
theorem v78_at (x3 : (⟨S32x200x16x2, .f32⟩ : BufTy).Contents (Elt Ideal)) (b : Fin 32) (n : Fin 200) :
    val_main_v78 (F := Ideal) x3 (ix2 b n) = val_main_v63 (F := Ideal) x3 (ix3 b n (2 : Fin 4)) := by
  rw [val_main_v78_apply, val_main_v77_apply]
  refine congrArg (val_main_v63 (F := Ideal) x3) ?_
  have hb := b.isLt
  have hr := n.isLt
  funext a
  match a with
  | ⟨0, _⟩ => exact Fin.ext (by show (b.val * 200 + n.val) / 200 = b.val; omega)
  | ⟨1, _⟩ => exact Fin.ext (by show (b.val * 200 + n.val) / 1 % 200 = n.val; omega)
  | ⟨2, _⟩ => exact Fin.ext (by show 2 + (0 : Nat) = 2; rfl)

/-- The reshape %80 of the one-column slice %79, read at (b, n): column 0 of row (b, n). -/
theorem v80_at (x3 : (⟨S32x200x16x2, .f32⟩ : BufTy).Contents (Elt Ideal)) (b : Fin 32) (n : Fin 200) :
    val_main_v80 (F := Ideal) x3 (ix2 b n) = val_main_v63 (F := Ideal) x3 (ix3 b n (0 : Fin 4)) := by
  rw [val_main_v80_apply, val_main_v79_apply]
  refine congrArg (val_main_v63 (F := Ideal) x3) ?_
  have hb := b.isLt
  have hr := n.isLt
  funext a
  match a with
  | ⟨0, _⟩ => exact Fin.ext (by show (b.val * 200 + n.val) / 200 = b.val; omega)
  | ⟨1, _⟩ => exact Fin.ext (by show (b.val * 200 + n.val) / 1 % 200 = n.val; omega)
  | ⟨2, _⟩ => exact Fin.ext (by show (0 : Nat) = 0; rfl)

/-- The reshape %84 of the one-column slice %83, read at (b, n): column 3 of row (b, n). -/
theorem v84_at (x3 : (⟨S32x200x16x2, .f32⟩ : BufTy).Contents (Elt Ideal)) (b : Fin 32) (n : Fin 200) :
    val_main_v84 (F := Ideal) x3 (ix2 b n) = val_main_v63 (F := Ideal) x3 (ix3 b n (3 : Fin 4)) := by
  rw [val_main_v84_apply, val_main_v83_apply]
  refine congrArg (val_main_v63 (F := Ideal) x3) ?_
  have hb := b.isLt
  have hr := n.isLt
  funext a
  match a with
  | ⟨0, _⟩ => exact Fin.ext (by show (b.val * 200 + n.val) / 200 = b.val; omega)
  | ⟨1, _⟩ => exact Fin.ext (by show (b.val * 200 + n.val) / 1 % 200 = n.val; omega)
  | ⟨2, _⟩ => exact Fin.ext (by show 3 + (0 : Nat) = 3; rfl)

/-- The reshape %86 of the one-column slice %85, read at (b, n): column 1 of row (b, n). -/
theorem v86_at (x3 : (⟨S32x200x16x2, .f32⟩ : BufTy).Contents (Elt Ideal)) (b : Fin 32) (n : Fin 200) :
    val_main_v86 (F := Ideal) x3 (ix2 b n) = val_main_v63 (F := Ideal) x3 (ix3 b n (1 : Fin 4)) := by
  rw [val_main_v86_apply, val_main_v85_apply]
  refine congrArg (val_main_v63 (F := Ideal) x3) ?_
  have hb := b.isLt
  have hr := n.isLt
  funext a
  match a with
  | ⟨0, _⟩ => exact Fin.ext (by show (b.val * 200 + n.val) / 200 = b.val; omega)
  | ⟨1, _⟩ => exact Fin.ext (by show (b.val * 200 + n.val) / 1 % 200 = n.val; omega)
  | ⟨2, _⟩ => exact Fin.ext (by show 1 + (0 : Nat) = 1; rfl)

/-- The query box's area %76 at (b, q): width and height, each cut off at 0. -/
theorem v76_at (x1 : (⟨S32x500x16x2, .f32⟩ : BufTy).Contents (Elt Ideal)) (b : Fin 32) (q : Fin 500) :
    val_main_v76 (F := Ideal) x1 (ix2 b q)
      = max (val_main_v50 (F := Ideal) x1 (ix3 b q (2 : Fin 4)) - val_main_v50 (F := Ideal) x1 (ix3 b q (0 : Fin 4))) zeroE
        * max (val_main_v50 (F := Ideal) x1 (ix3 b q (3 : Fin 4)) - val_main_v50 (F := Ideal) x1 (ix3 b q (1 : Fin 4))) zeroE := by
  rw [val_main_v76_apply, val_main_v69_apply, val_main_v75_apply, val_main_v68_apply, val_main_v74_apply,
    call2_zero, call3_zero, clip_zero, clip_zero, v65_at, v67_at, v71_at, v73_at]
  rfl

/-- The target box's area %89 at (b, n). -/
theorem v89_at (x3 : (⟨S32x200x16x2, .f32⟩ : BufTy).Contents (Elt Ideal)) (b : Fin 32) (n : Fin 200) :
    val_main_v89 (F := Ideal) x3 (ix2 b n)
      = max (val_main_v63 (F := Ideal) x3 (ix3 b n (2 : Fin 4)) - val_main_v63 (F := Ideal) x3 (ix3 b n (0 : Fin 4))) zeroE
        * max (val_main_v63 (F := Ideal) x3 (ix3 b n (3 : Fin 4)) - val_main_v63 (F := Ideal) x3 (ix3 b n (1 : Fin 4))) zeroE := by
  rw [val_main_v89_apply, val_main_v82_apply, val_main_v88_apply, val_main_v81_apply, val_main_v87_apply,
    call4_zero, call5_zero, clip_zero, clip_zero, v78_at, v80_at, v84_at, v86_at]
  rfl

/-! ### The corners, over all (query, target) pairs -/

/-- Column c of a two-column slice that starts at column 0 (a least coordinate), and of the one that starts at
    column 2 (a greatest coordinate). -/
abbrev lo (c : Fin 2) : Fin 4 := ⟨c.val, Nat.lt_of_lt_of_le c.isLt (by decide)⟩
abbrev hi (c : Fin 2) : Fin 4 := ⟨2 + c.val, Nat.add_lt_add_left c.isLt 2⟩

/-- The query box's least corner: %94 at (b, q, n, c), through the broadcasts %94, %91 and the slice %90. -/
theorem v94_at (x1 : (⟨S32x500x16x2, .f32⟩ : BufTy).Contents (Elt Ideal)) (b : Fin 32) (q : Fin 500) (n : Fin 200) (c : Fin 2) :
    val_main_v94 (F := Ideal) x1 (ix4 b q n c) = val_main_v50 (F := Ideal) x1 (ix3 b q (lo c)) := by
  rw [val_main_v94_apply, val_main_v91_apply, val_main_v90_apply]
  refine congrArg (val_main_v50 (F := Ideal) x1) ?_
  funext a
  match a with
  | ⟨0, _⟩ => rfl
  | ⟨1, _⟩ => rfl
  | ⟨2, _⟩ => rfl

/-- The target box's least corner: %95 at (b, q, n, c), through the broadcasts %95, %93 and the slice %92. -/
theorem v95_at (x3 : (⟨S32x200x16x2, .f32⟩ : BufTy).Contents (Elt Ideal)) (b : Fin 32) (q : Fin 500) (n : Fin 200) (c : Fin 2) :
    val_main_v95 (F := Ideal) x3 (ix4 b q n c) = val_main_v63 (F := Ideal) x3 (ix3 b n (lo c)) := by
  rw [val_main_v95_apply, val_main_v93_apply, val_main_v92_apply]
  refine congrArg (val_main_v63 (F := Ideal) x3) ?_
  funext a
  match a with
  | ⟨0, _⟩ => rfl
  | ⟨1, _⟩ => rfl
  | ⟨2, _⟩ => rfl

/-- The query box's greatest corner: %101 at (b, q, n, c), through the broadcasts %101, %98 and the slice %97. -/
theorem v101_at (x1 : (⟨S32x500x16x2, .f32⟩ : BufTy).Contents (Elt Ideal)) (b : Fin 32) (q : Fin 500) (n : Fin 200) (c : Fin 2) :
    val_main_v101 (F := Ideal) x1 (ix4 b q n c) = val_main_v50 (F := Ideal) x1 (ix3 b q (hi c)) := by
  rw [val_main_v101_apply, val_main_v98_apply, val_main_v97_apply]
  refine congrArg (val_main_v50 (F := Ideal) x1) ?_
  funext a
  match a with
  | ⟨0, _⟩ => rfl
  | ⟨1, _⟩ => rfl
  | ⟨2, _⟩ => rfl

/-- The target box's greatest corner: %102 at (b, q, n, c), through the broadcasts %102, %100 and the slice %99. -/
theorem v102_at (x3 : (⟨S32x200x16x2, .f32⟩ : BufTy).Contents (Elt Ideal)) (b : Fin 32) (q : Fin 500) (n : Fin 200) (c : Fin 2) :
    val_main_v102 (F := Ideal) x3 (ix4 b q n c) = val_main_v63 (F := Ideal) x3 (ix3 b n (hi c)) := by
  rw [val_main_v102_apply, val_main_v100_apply, val_main_v99_apply]
  refine congrArg (val_main_v63 (F := Ideal) x3) ?_
  funext a
  match a with
  | ⟨0, _⟩ => rfl
  | ⟨1, _⟩ => rfl
  | ⟨2, _⟩ => rfl

/-- The query box's least corner again: %124 at (b, q, n, c), through the broadcasts %124, %121 and the slice %120. -/
theorem v124_at (x1 : (⟨S32x500x16x2, .f32⟩ : BufTy).Contents (Elt Ideal)) (b : Fin 32) (q : Fin 500) (n : Fin 200) (c : Fin 2) :
    val_main_v124 (F := Ideal) x1 (ix4 b q n c) = val_main_v50 (F := Ideal) x1 (ix3 b q (lo c)) := by
  rw [val_main_v124_apply, val_main_v121_apply, val_main_v120_apply]
  refine congrArg (val_main_v50 (F := Ideal) x1) ?_
  funext a
  match a with
  | ⟨0, _⟩ => rfl
  | ⟨1, _⟩ => rfl
  | ⟨2, _⟩ => rfl

/-- The target box's least corner again: %125 at (b, q, n, c), through the broadcasts %125, %123 and the slice %122. -/
theorem v125_at (x3 : (⟨S32x200x16x2, .f32⟩ : BufTy).Contents (Elt Ideal)) (b : Fin 32) (q : Fin 500) (n : Fin 200) (c : Fin 2) :
    val_main_v125 (F := Ideal) x3 (ix4 b q n c) = val_main_v63 (F := Ideal) x3 (ix3 b n (lo c)) := by
  rw [val_main_v125_apply, val_main_v123_apply, val_main_v122_apply]
  refine congrArg (val_main_v63 (F := Ideal) x3) ?_
  funext a
  match a with
  | ⟨0, _⟩ => rfl
  | ⟨1, _⟩ => rfl
  | ⟨2, _⟩ => rfl

/-- The query box's greatest corner again: %131 at (b, q, n, c), through the broadcasts %131, %128 and the slice %127. -/
theorem v131_at (x1 : (⟨S32x500x16x2, .f32⟩ : BufTy).Contents (Elt Ideal)) (b : Fin 32) (q : Fin 500) (n : Fin 200) (c : Fin 2) :
    val_main_v131 (F := Ideal) x1 (ix4 b q n c) = val_main_v50 (F := Ideal) x1 (ix3 b q (hi c)) := by
  rw [val_main_v131_apply, val_main_v128_apply, val_main_v127_apply]
  refine congrArg (val_main_v50 (F := Ideal) x1) ?_
  funext a
  match a with
  | ⟨0, _⟩ => rfl
  | ⟨1, _⟩ => rfl
  | ⟨2, _⟩ => rfl

/-- The target box's greatest corner again: %132 at (b, q, n, c), through the broadcasts %132, %130 and the slice %129. -/
theorem v132_at (x3 : (⟨S32x200x16x2, .f32⟩ : BufTy).Contents (Elt Ideal)) (b : Fin 32) (q : Fin 500) (n : Fin 200) (c : Fin 2) :
    val_main_v132 (F := Ideal) x3 (ix4 b q n c) = val_main_v63 (F := Ideal) x3 (ix3 b n (hi c)) := by
  rw [val_main_v132_apply, val_main_v130_apply, val_main_v129_apply]
  refine congrArg (val_main_v63 (F := Ideal) x3) ?_
  funext a
  match a with
  | ⟨0, _⟩ => rfl
  | ⟨1, _⟩ => rfl
  | ⟨2, _⟩ => rfl

/-- One side of the intersection, cut off at 0: the smaller greatest coordinate less the larger least one. -/
theorem v105_at (x1 : (⟨S32x500x16x2, .f32⟩ : BufTy).Contents (Elt Ideal)) (x3 : (⟨S32x200x16x2, .f32⟩ : BufTy).Contents (Elt Ideal)) (b : Fin 32) (q : Fin 500) (n : Fin 200) (c : Fin 2) :
    val_main_v105 (F := Ideal) x1 x3 (ix4 b q n c)
      = max (min (val_main_v50 (F := Ideal) x1 (ix3 b q (hi c))) (val_main_v63 (F := Ideal) x3 (ix3 b n (hi c))) - max (val_main_v50 (F := Ideal) x1 (ix3 b q (lo c))) (val_main_v63 (F := Ideal) x3 (ix3 b n (lo c)))) zeroE := by
  rw [val_main_v105_apply, val_main_v104_apply, val_main_v103_apply, val_main_v96_apply, call6_zero, clip_zero,
    v101_at, v102_at, v94_at, v95_at]
  rfl

/-- One side of the enclosing box, cut off at 0: the larger greatest coordinate less the smaller least one. -/
theorem v135_at (x1 : (⟨S32x500x16x2, .f32⟩ : BufTy).Contents (Elt Ideal)) (x3 : (⟨S32x200x16x2, .f32⟩ : BufTy).Contents (Elt Ideal)) (b : Fin 32) (q : Fin 500) (n : Fin 200) (c : Fin 2) :
    val_main_v135 (F := Ideal) x1 x3 (ix4 b q n c)
      = max (max (val_main_v50 (F := Ideal) x1 (ix3 b q (hi c))) (val_main_v63 (F := Ideal) x3 (ix3 b n (hi c))) - min (val_main_v50 (F := Ideal) x1 (ix3 b q (lo c))) (val_main_v63 (F := Ideal) x3 (ix3 b n (lo c)))) zeroE := by
  rw [val_main_v135_apply, val_main_v134_apply, val_main_v133_apply, val_main_v126_apply, call7_zero, clip_zero,
    v131_at, v132_at, v124_at, v125_at]
  rfl

/-- The reshape %107 of the one-column slice %106 of %105, read at (b, q, n): column 0 of %105 there. -/
theorem v107_at (x1 : (⟨S32x500x16x2, .f32⟩ : BufTy).Contents (Elt Ideal)) (x3 : (⟨S32x200x16x2, .f32⟩ : BufTy).Contents (Elt Ideal)) (b : Fin 32) (q : Fin 500) (n : Fin 200) :
    val_main_v107 (F := Ideal) x1 x3 (ix3 b q n) = val_main_v105 (F := Ideal) x1 x3 (ix4 b q n (0 : Fin 2)) := by
  rw [val_main_v107_apply, val_main_v106_apply]
  refine congrArg (val_main_v105 (F := Ideal) x1 x3) ?_
  have hb := b.isLt
  have hq := q.isLt
  have hn := n.isLt
  funext a
  match a with
  | ⟨0, _⟩ => exact Fin.ext (by show ((b.val * 500 + q.val) * 200 + n.val) / 100000 = b.val; omega)
  | ⟨1, _⟩ => exact Fin.ext (by show ((b.val * 500 + q.val) * 200 + n.val) / 200 % 500 = q.val; omega)
  | ⟨2, _⟩ => exact Fin.ext (by show ((b.val * 500 + q.val) * 200 + n.val) / 1 % 200 = n.val; omega)
  | ⟨3, _⟩ => exact Fin.ext (by show (0 : Nat) = 0; rfl)

/-- The reshape %109 of the one-column slice %108 of %105, read at (b, q, n): column 1 of %105 there. -/
theorem v109_at (x1 : (⟨S32x500x16x2, .f32⟩ : BufTy).Contents (Elt Ideal)) (x3 : (⟨S32x200x16x2, .f32⟩ : BufTy).Contents (Elt Ideal)) (b : Fin 32) (q : Fin 500) (n : Fin 200) :
    val_main_v109 (F := Ideal) x1 x3 (ix3 b q n) = val_main_v105 (F := Ideal) x1 x3 (ix4 b q n (1 : Fin 2)) := by
  rw [val_main_v109_apply, val_main_v108_apply]
  refine congrArg (val_main_v105 (F := Ideal) x1 x3) ?_
  have hb := b.isLt
  have hq := q.isLt
  have hn := n.isLt
  funext a
  match a with
  | ⟨0, _⟩ => exact Fin.ext (by show ((b.val * 500 + q.val) * 200 + n.val) / 100000 = b.val; omega)
  | ⟨1, _⟩ => exact Fin.ext (by show ((b.val * 500 + q.val) * 200 + n.val) / 200 % 500 = q.val; omega)
  | ⟨2, _⟩ => exact Fin.ext (by show ((b.val * 500 + q.val) * 200 + n.val) / 1 % 200 = n.val; omega)
  | ⟨3, _⟩ => exact Fin.ext (by show 1 + (0 : Nat) = 1; rfl)

/-- The reshape %137 of the one-column slice %136 of %135, read at (b, q, n): column 0 of %135 there. -/
theorem v137_at (x1 : (⟨S32x500x16x2, .f32⟩ : BufTy).Contents (Elt Ideal)) (x3 : (⟨S32x200x16x2, .f32⟩ : BufTy).Contents (Elt Ideal)) (b : Fin 32) (q : Fin 500) (n : Fin 200) :
    val_main_v137 (F := Ideal) x1 x3 (ix3 b q n) = val_main_v135 (F := Ideal) x1 x3 (ix4 b q n (0 : Fin 2)) := by
  rw [val_main_v137_apply, val_main_v136_apply]
  refine congrArg (val_main_v135 (F := Ideal) x1 x3) ?_
  have hb := b.isLt
  have hq := q.isLt
  have hn := n.isLt
  funext a
  match a with
  | ⟨0, _⟩ => exact Fin.ext (by show ((b.val * 500 + q.val) * 200 + n.val) / 100000 = b.val; omega)
  | ⟨1, _⟩ => exact Fin.ext (by show ((b.val * 500 + q.val) * 200 + n.val) / 200 % 500 = q.val; omega)
  | ⟨2, _⟩ => exact Fin.ext (by show ((b.val * 500 + q.val) * 200 + n.val) / 1 % 200 = n.val; omega)
  | ⟨3, _⟩ => exact Fin.ext (by show (0 : Nat) = 0; rfl)

/-- The reshape %139 of the one-column slice %138 of %135, read at (b, q, n): column 1 of %135 there. -/
theorem v139_at (x1 : (⟨S32x500x16x2, .f32⟩ : BufTy).Contents (Elt Ideal)) (x3 : (⟨S32x200x16x2, .f32⟩ : BufTy).Contents (Elt Ideal)) (b : Fin 32) (q : Fin 500) (n : Fin 200) :
    val_main_v139 (F := Ideal) x1 x3 (ix3 b q n) = val_main_v135 (F := Ideal) x1 x3 (ix4 b q n (1 : Fin 2)) := by
  rw [val_main_v139_apply, val_main_v138_apply]
  refine congrArg (val_main_v135 (F := Ideal) x1 x3) ?_
  have hb := b.isLt
  have hq := q.isLt
  have hn := n.isLt
  funext a
  match a with
  | ⟨0, _⟩ => exact Fin.ext (by show ((b.val * 500 + q.val) * 200 + n.val) / 100000 = b.val; omega)
  | ⟨1, _⟩ => exact Fin.ext (by show ((b.val * 500 + q.val) * 200 + n.val) / 200 % 500 = q.val; omega)
  | ⟨2, _⟩ => exact Fin.ext (by show ((b.val * 500 + q.val) * 200 + n.val) / 1 % 200 = n.val; omega)
  | ⟨3, _⟩ => exact Fin.ext (by show 1 + (0 : Nat) = 1; rfl)

/-! ### Intersection, union, enclosing box -/

/-- The intersection's area %110 at (b, q, n). -/
theorem v110_at (x1 : (⟨S32x500x16x2, .f32⟩ : BufTy).Contents (Elt Ideal)) (x3 : (⟨S32x200x16x2, .f32⟩ : BufTy).Contents (Elt Ideal)) (b : Fin 32) (q : Fin 500) (n : Fin 200) :
    val_main_v110 (F := Ideal) x1 x3 (ix3 b q n)
      = max (min (val_main_v50 (F := Ideal) x1 (ix3 b q (2 : Fin 4))) (val_main_v63 (F := Ideal) x3 (ix3 b n (2 : Fin 4))) - max (val_main_v50 (F := Ideal) x1 (ix3 b q (0 : Fin 4))) (val_main_v63 (F := Ideal) x3 (ix3 b n (0 : Fin 4)))) zeroE
          * max (min (val_main_v50 (F := Ideal) x1 (ix3 b q (3 : Fin 4))) (val_main_v63 (F := Ideal) x3 (ix3 b n (3 : Fin 4))) - max (val_main_v50 (F := Ideal) x1 (ix3 b q (1 : Fin 4))) (val_main_v63 (F := Ideal) x3 (ix3 b n (1 : Fin 4)))) zeroE := by
  rw [val_main_v110_apply, v107_at, v109_at, v105_at, v105_at]
  rfl

/-- The enclosing box's area %140 at (b, q, n). -/
theorem v140_at (x1 : (⟨S32x500x16x2, .f32⟩ : BufTy).Contents (Elt Ideal)) (x3 : (⟨S32x200x16x2, .f32⟩ : BufTy).Contents (Elt Ideal)) (b : Fin 32) (q : Fin 500) (n : Fin 200) :
    val_main_v140 (F := Ideal) x1 x3 (ix3 b q n)
      = max (max (val_main_v50 (F := Ideal) x1 (ix3 b q (2 : Fin 4))) (val_main_v63 (F := Ideal) x3 (ix3 b n (2 : Fin 4))) - min (val_main_v50 (F := Ideal) x1 (ix3 b q (0 : Fin 4))) (val_main_v63 (F := Ideal) x3 (ix3 b n (0 : Fin 4)))) zeroE
          * max (max (val_main_v50 (F := Ideal) x1 (ix3 b q (3 : Fin 4))) (val_main_v63 (F := Ideal) x3 (ix3 b n (3 : Fin 4))) - min (val_main_v50 (F := Ideal) x1 (ix3 b q (1 : Fin 4))) (val_main_v63 (F := Ideal) x3 (ix3 b n (1 : Fin 4)))) zeroE := by
  rw [val_main_v140_apply, v137_at, v139_at, v135_at, v135_at]
  rfl

/-- The query box's area, broadcast over the targets: %113 at (b, q, n) is %76 at (b, q). -/
theorem v113_at (x1 : (⟨S32x500x16x2, .f32⟩ : BufTy).Contents (Elt Ideal)) (b : Fin 32) (q : Fin 500) (n : Fin 200) :
    val_main_v113 (F := Ideal) x1 (ix3 b q n) = val_main_v76 (F := Ideal) x1 (ix2 b q) := by
  rw [val_main_v113_apply, val_main_v111_apply]
  refine congrArg (val_main_v76 (F := Ideal) x1) ?_
  funext a
  match a with
  | ⟨0, _⟩ => rfl
  | ⟨1, _⟩ => rfl

/-- The target box's area, broadcast over the queries: %114 at (b, q, n) is %89 at (b, n). -/
theorem v114_at (x3 : (⟨S32x200x16x2, .f32⟩ : BufTy).Contents (Elt Ideal)) (b : Fin 32) (q : Fin 500) (n : Fin 200) :
    val_main_v114 (F := Ideal) x3 (ix3 b q n) = val_main_v89 (F := Ideal) x3 (ix2 b n) := by
  rw [val_main_v114_apply, val_main_v112_apply]
  refine congrArg (val_main_v89 (F := Ideal) x3) ?_
  funext a
  match a with
  | ⟨0, _⟩ => rfl
  | ⟨1, _⟩ => rfl

/-- The union's area %116 at (b, q, n): the two areas' sum less the intersection's. -/
theorem v116_at (x1 : (⟨S32x500x16x2, .f32⟩ : BufTy).Contents (Elt Ideal)) (x3 : (⟨S32x200x16x2, .f32⟩ : BufTy).Contents (Elt Ideal)) (b : Fin 32) (q : Fin 500) (n : Fin 200) :
    val_main_v116 (F := Ideal) x1 x3 (ix3 b q n)
      = max (val_main_v50 (F := Ideal) x1 (ix3 b q (2 : Fin 4)) - val_main_v50 (F := Ideal) x1 (ix3 b q (0 : Fin 4))) zeroE * max (val_main_v50 (F := Ideal) x1 (ix3 b q (3 : Fin 4)) - val_main_v50 (F := Ideal) x1 (ix3 b q (1 : Fin 4))) zeroE
        + max (val_main_v63 (F := Ideal) x3 (ix3 b n (2 : Fin 4)) - val_main_v63 (F := Ideal) x3 (ix3 b n (0 : Fin 4))) zeroE * max (val_main_v63 (F := Ideal) x3 (ix3 b n (3 : Fin 4)) - val_main_v63 (F := Ideal) x3 (ix3 b n (1 : Fin 4))) zeroE
        - max (min (val_main_v50 (F := Ideal) x1 (ix3 b q (2 : Fin 4))) (val_main_v63 (F := Ideal) x3 (ix3 b n (2 : Fin 4))) - max (val_main_v50 (F := Ideal) x1 (ix3 b q (0 : Fin 4))) (val_main_v63 (F := Ideal) x3 (ix3 b n (0 : Fin 4)))) zeroE
          * max (min (val_main_v50 (F := Ideal) x1 (ix3 b q (3 : Fin 4))) (val_main_v63 (F := Ideal) x3 (ix3 b n (3 : Fin 4))) - max (val_main_v50 (F := Ideal) x1 (ix3 b q (1 : Fin 4))) (val_main_v63 (F := Ideal) x3 (ix3 b n (1 : Fin 4)))) zeroE := by
  rw [val_main_v116_apply, val_main_v115_apply, v113_at, v114_at, v76_at, v89_at, v110_at]
  rfl

/-- The two divisors' guard, broadcast from its constant. -/
theorem v117_eps (i : S32x500x200.Idx) : val_main_v117 (F := Ideal) i = epsE := by
  rw [val_main_v117_apply]; rfl
theorem v142_eps (i : S32x500x200.Idx) : val_main_v142 (F := Ideal) i = epsE := by
  rw [val_main_v142_apply]; rfl

/-- The box term at (b, q, n), from the two box arrays. -/
theorem ref_box_apply (x1 : (⟨S32x500x16x2, .f32⟩ : BufTy).Contents (Elt Ideal)) (x3 : (⟨S32x200x16x2, .f32⟩ : BufTy).Contents (Elt Ideal))
    (b : Fin 32) (q : Fin 500) (n : Fin 200) :
    val_main_v146 (F := Ideal) x1 x3 (ix3 b q n)
      = -(giouE (val_main_v50 (F := Ideal) x1 (ix3 b q (0 : Fin 4))) (val_main_v50 (F := Ideal) x1 (ix3 b q (1 : Fin 4)))
            (val_main_v50 (F := Ideal) x1 (ix3 b q (2 : Fin 4))) (val_main_v50 (F := Ideal) x1 (ix3 b q (3 : Fin 4)))
            (val_main_v63 (F := Ideal) x3 (ix3 b n (0 : Fin 4))) (val_main_v63 (F := Ideal) x3 (ix3 b n (1 : Fin 4)))
            (val_main_v63 (F := Ideal) x3 (ix3 b n (2 : Fin 4))) (val_main_v63 (F := Ideal) x3 (ix3 b n (3 : Fin 4)))) := by
  rw [val_main_v146_apply, val_main_v145_apply, val_main_v119_apply, val_main_v144_apply, val_main_v118_apply,
    val_main_v143_apply, val_main_v141_apply, v117_eps, v142_eps, v140_at, v116_at, v110_at]
  rfl

end Cert.ReferenceIdeal.RefValue

end
-- ==== Proof.RefIsG.lean ====
/-
  The reference's result, read at batch element b, query q and target n, is the matching cost of the specification,
  taken of the logits, the flattened query polylines, the flattened target polylines and their reversals, the two box
  arrays and the labels, whenever every label is a class number (below 92): the result is the class term plus five
  times the polyline term plus the box term, each weighted as the specification weights it, and minus a number is 0
  less that number.
-/
import proofs.«402434_j86990267613642_3_alg».proof.Proof.RefClass
import proofs.«402434_j86990267613642_3_alg».proof.Proof.RefPoly
import proofs.«402434_j86990267613642_3_alg».proof.Proof.RefBox

noncomputable section

open scoped BigOperators

namespace Cert.ReferenceIdeal.RefValue

open Idealize.ShloMosaic Idealize.ShloMosaic.ValueIdx Cert.CostSpec Cert.ReferenceIdeal Cert.ReferenceIdeal.Gen Cert.ReferenceIdeal.Read

/-- 0 less a number is minus the number. -/
theorem zeroE_sub (x : EReal) : zeroE - x = -x := by
  show Ideal.ofBits .f32 0x00000000#32 - x = -x
  rw [Ideal.ofBits_zero_f32, zero_sub]

/-- The reference's result at (b, q, n). -/
theorem ref_apply (x0 : (⟨S32x500x92, .f32⟩ : BufTy).Contents (Elt Ideal)) (x1 : (⟨S32x500x16x2, .f32⟩ : BufTy).Contents (Elt Ideal))
    (x2 : (⟨S32x200, .i32⟩ : BufTy).Contents (Elt Ideal)) (x3 : (⟨S32x200x16x2, .f32⟩ : BufTy).Contents (Elt Ideal))
    (hlab : ∀ (b : Fin 32) (n : Fin 200), (x2 (ix2 b n)).toNat < 92) (b : Fin 32) (q : Fin 500) (n : Fin 200) :
    val_main_v154 (F := Ideal) x0 x1 x2 x3 (ix3 b q n)
      = G x0 (val_main_v15 (F := Ideal) x1) (val_main_v16 (F := Ideal) x3) (val_main_v18 (F := Ideal) x3)
          (val_main_v50 (F := Ideal) x1) (val_main_v63 (F := Ideal) x3) x2 b q n := by
  -- the last seven operations: 1 · (class term) + 5 · (polyline term) + 1 · (box term)
  rw [val_main_v154_apply, val_main_v151_apply, val_main_v148_apply, val_main_v150_apply, val_main_v153_apply,
    val_main_v147_apply, val_main_v149_apply, val_main_v152_apply, val_main_cst_21_apply, val_main_cst_22_apply, val_main_cst_23_apply,
    ref_cls_apply x0 x2 hlab b q n, ref_poly_apply x1 x3 b q n, ref_box_apply x1 x3 b q n, ← zeroE_sub]
  rfl

end Cert.ReferenceIdeal.RefValue

end
-- ==== Proof.PreDecode.lean ====
/-
  What the precondition says of the labels: its last conjunct is "every label is at least 0 and below 92" (two signed
  comparisons of the label words against 0 and 92, joined by "and" and reduced by "and" over the whole array), so under
  the precondition every label word, read as a natural number, is below 92.
-/
import proofs.«402434_j86990267613642_3_alg».proof.Pre_finite_inputs
import Idealize.ShloMosaic.PureOps.Ideal
import Idealize.ShloMosaic.Lib.ReduceAll
import Idealize.ShloMosaic.Lib.Affine
import Idealize.ShloMosaic.Lib.StableHlo.Predicate
import Idealize.ShloMosaic.Lib.ValueIdx

noncomputable section

namespace Cert.PreDecode

open Idealize.ShloMosaic Idealize.ShloMosaic.ValueIdx

/-- A 32-bit word that is at least 0 and below 92 as a signed number is below 92 as a natural number. -/
theorem word_lt (w : BitVec 32) (h0 : IntOp.cmpi .sge w 0#32 = 1#1) (h1 : IntOp.cmpi .slt w 92#32 = 1#1) : w.toNat < 92 := by
  rw [IntOp.cmpi_sge] at h0
  rw [IntOp.cmpi_slt] at h1
  have e0 : (0#32 : BitVec 32).toInt = 0 := by decide
  have e92 : (92#32 : BitVec 32).toInt = 92 := by decide
  rw [e0] at h0
  rw [e92] at h1
  have hlt := w.isLt
  have hi : w.toInt = if 2 * w.toNat < 2 ^ 32 then (w.toNat : ℤ) else (w.toNat : ℤ) - 2 ^ 32 := BitVec.toInt_eq_toNat_cond w
  by_cases hc : 2 * w.toNat < 2 ^ 32
  · rw [if_pos hc] at hi; omega
  · rw [if_neg hc] at hi; omega

variable [Cert.Pre_finite_inputs.Facts]

open Cert.Pre_finite_inputs Cert.Pre_finite_inputs.Facts

instance : Subsingleton S_.Idx := ⟨fun a b => funext fun d => d.elim0⟩

/-- Under the precondition every label word is below 92. -/
theorem labels_lt (a0 : FVec Ideal S32x500x92 .f32) (a1 : FVec Ideal S32x500x16x2 .f32) (a2 : IVec S32x200 32)
    (a3 : FVec Ideal S32x200x16x2 .f32) (h : fn (F := Ideal) a0 a1 a2 a3 = fun _ => 1#1) (b : Fin 32) (n : Fin 200) :
    (a2 (ix2 b n)).toNat < 92 := by
  have h0 := congrFun h ix0
  dsimp only [fn, fn_part1] at h0
  -- the whole predicate is the first three conjuncts "and" the reduction of the labels' mask
  have h1 := (IntOp.andi_eq_one.mp h0).2
  -- a reduction by "and" that is 1 had a 1 at every index
  have h2 := Host.reduce_andi_all _ _ _ _ ix0 h1 (ix2 b n)
  obtain ⟨hge, hlt⟩ := IntOp.andi_eq_one.mp h2
  refine word_lt _ ?_ ?_
  · have e : broadcastInDim S32x200 ![] bcast_S_S32x200 (constantI S_ 32 0#32) (ix2 b n) = 0#32 :=
      StableHlo.Predicate.bcast_scalar _ h_S_ _ _
    rw [← e]; exact hge
  · have e : broadcastInDim S32x200 ![] bcast_S_S32x200 (constantI S_ 32 92#32) (ix2 b n) = 92#32 :=
      StableHlo.Predicate.bcast_scalar _ h_S_ _ _
    rw [← e]; exact hlt

end Cert.PreDecode

end
-- ==== Proof.Bridge.lean ====
/-
  The two programs meet. The arrays the kernel's grid finds — the flattened query polylines, the flattened target
  polylines and their point-reversed flattening, the query boxes and the target boxes — are computed from the arguments
  by the same host operations the reference applies to them, so they are the reference's own stages of the same
  arguments; the logits and the labels are the arguments themselves. Under the precondition every label is below 92,
  so the reference's result is the specification's cost array of those arrays, entry by entry: the kernel's result.
-/
import proofs.«402434_j86990267613642_3_alg».proof.Proof.KernelValue
import proofs.«402434_j86990267613642_3_alg».proof.Proof.RefIsG
import proofs.«402434_j86990267613642_3_alg».proof.Proof.PreDecode
import Idealize.ShloMosaic.Lib.StableHlo.Run

set_option maxRecDepth 16384

noncomputable section

namespace Cert.Bridge

open Idealize.ShloMosaic Idealize.ShloMosaic.TcCoe Idealize.ShloMosaic.ValueIdx Idealize.ShloMosaic.StableHlo
open Idealize.SL.Sem
open Cert.CostSpec Cert.KernelIdeal Cert.KernelIdeal.Gen Cert.KernelIdeal.Frm

section Arrays

variable {F : FTy → Type} [FloatOps F] (m : (ℓ : Loc nD τ sig) → Buf (Elt F) ℓ)

/-- The flattened query polylines. -/
theorem V_v0_eq (c : Dev nD) : (V m c main_v0 : S32x500x32.Idx → Elt F .f32)
    = Cert.ReferenceIdeal.Read.val_main_v15 (F := F) (m ((c.tc : Thread nD τ).loc main_arg1)) := by
  dsimp only [V]
  simp only [hostOps0, hostOps0_1, hostOps0_2, List.flatten_cons, List.flatten_nil, List.append_nil, List.cons_append, List.nil_append]
  after_results_simp <;> (try simp only [TRef.ofBuf, TRef.toBuf, cast_eq]) <;> rfl

/-- The flattened target polylines. -/
theorem V_v1_eq (c : Dev nD) : (V m c main_v1 : S32x200x32.Idx → Elt F .f32)
    = Cert.ReferenceIdeal.Read.val_main_v16 (F := F) (m ((c.tc : Thread nD τ).loc main_arg3)) := by
  dsimp only [V]
  simp only [hostOps0, hostOps0_1, hostOps0_2, List.flatten_cons, List.flatten_nil, List.append_nil, List.cons_append, List.nil_append]
  after_results_simp <;> (try simp only [TRef.ofBuf, TRef.toBuf, cast_eq]) <;> rfl

/-- The flattened target polylines, each with its points in reversed order. -/
theorem V_v3_eq (c : Dev nD) : (V m c main_v3 : S32x200x32.Idx → Elt F .f32)
    = Cert.ReferenceIdeal.Read.val_main_v18 (F := F) (m ((c.tc : Thread nD τ).loc main_arg3)) := by
  dsimp only [V]
  simp only [hostOps0, hostOps0_1, hostOps0_2, List.flatten_cons, List.flatten_nil, List.append_nil, List.cons_append, List.nil_append]
  after_results_simp <;> (try simp only [TRef.ofBuf, TRef.toBuf, cast_eq]) <;> rfl

/-- The query polylines' least x, as a column. -/
theorem V_v18_eq (c : Dev nD) : (V m c main_v18 : S32x500x1.Idx → Elt F .f32)
    = Cert.ReferenceIdeal.Read.val_main_v46 (F := F) (m ((c.tc : Thread nD τ).loc main_arg1)) := by
  dsimp only [V]
  simp only [hostOps0, hostOps0_1, hostOps0_2, List.flatten_cons, List.flatten_nil, List.append_nil, List.cons_append, List.nil_append]
  after_results_simp <;> (try simp only [TRef.ofBuf, TRef.toBuf, cast_eq]) <;> rfl
/-- The query polylines' least y, as a column. -/
theorem V_v19_eq (c : Dev nD) : (V m c main_v19 : S32x500x1.Idx → Elt F .f32)
    = Cert.ReferenceIdeal.Read.val_main_v47 (F := F) (m ((c.tc : Thread nD τ).loc main_arg1)) := by
  dsimp only [V]
  simp only [hostOps0, hostOps0_1, hostOps0_2, List.flatten_cons, List.flatten_nil, List.append_nil, List.cons_append, List.nil_append]
  after_results_simp <;> (try simp only [TRef.ofBuf, TRef.toBuf, cast_eq]) <;> rfl
/-- The query polylines' greatest x, as a column. -/
theorem V_v20_eq (c : Dev nD) : (V m c main_v20 : S32x500x1.Idx → Elt F .f32)
    = Cert.ReferenceIdeal.Read.val_main_v48 (F := F) (m ((c.tc : Thread nD τ).loc main_arg1)) := by
  dsimp only [V]
  simp only [hostOps0, hostOps0_1, hostOps0_2, List.flatten_cons, List.flatten_nil, List.append_nil, List.cons_append, List.nil_append]
  after_results_simp <;> (try simp only [TRef.ofBuf, TRef.toBuf, cast_eq]) <;> rfl
/-- The query polylines' greatest y, as a column. -/
theorem V_v21_eq (c : Dev nD) : (V m c main_v21 : S32x500x1.Idx → Elt F .f32)
    = Cert.ReferenceIdeal.Read.val_main_v49 (F := F) (m ((c.tc : Thread nD τ).loc main_arg1)) := by
  dsimp only [V]
  simp only [hostOps0, hostOps0_1, hostOps0_2, List.flatten_cons, List.flatten_nil, List.append_nil, List.cons_append, List.nil_append]
  after_results_simp <;> (try simp only [TRef.ofBuf, TRef.toBuf, cast_eq]) <;> rfl

/-- The query polylines' bounding boxes are the four columns side by side. -/
theorem V_v22_concat (c : Dev nD) : (V m c main_v22 : S32x500x4.Idx → Elt F .f32)
    = concatenate S32x500x4 2 [⟨S32x500x1, V m c main_v18⟩, ⟨S32x500x1, V m c main_v19⟩, ⟨S32x500x1, V m c main_v20⟩, ⟨S32x500x1, V m c main_v21⟩]
        concatenates_S32x500x1_S32x500x1_S32x500x1_S32x500x1_S32x500x4_d2 := by
  dsimp only [V]
  simp only [hostOps0, hostOps0_1, hostOps0_2, List.flatten_cons, List.flatten_nil, List.append_nil, List.cons_append, List.nil_append]
  -- the concatenate reads its k-th operand at the k-th of its four references: the literal one, whose own operations are read in turn
  simp (disch := decide) only [after_cons, after_nil, nullary_result', unary_result', binary_result', ternary_result', quaternary_result', reshape_result', nary_result',
    unaryIndexed_result', binaryIndexed_result', nullary_result_ne', unary_result_ne', binary_result_ne', ternary_result_ne', quaternary_result_ne', reshape_result_ne',
    nary_result_ne', unaryIndexed_result_ne', binaryIndexed_result_ne', Matrix.cons_val_zero, Matrix.cons_val_one, Matrix.cons_val_two, Matrix.cons_val_three, Matrix.head_cons, Matrix.cons_val_succ]
  rfl

/-- The query polylines' bounding boxes are the reference's: the four columns side by side. -/
theorem V_v22_eq (c : Dev nD) : (V m c main_v22 : S32x500x4.Idx → Elt F .f32)
    = Cert.ReferenceIdeal.Read.val_main_v50 (F := F) (m ((c.tc : Thread nD τ).loc main_arg1)) := by
  rw [V_v22_concat, V_v18_eq, V_v19_eq, V_v20_eq, V_v21_eq]
  rfl

/-- The target polylines' least x, as a column. -/
theorem V_v27_eq (c : Dev nD) : (V m c main_v27 : S32x200x1.Idx → Elt F .f32)
    = Cert.ReferenceIdeal.Read.val_main_v59 (F := F) (m ((c.tc : Thread nD τ).loc main_arg3)) := by
  dsimp only [V]
  simp only [hostOps0, hostOps0_1, hostOps0_2, List.flatten_cons, List.flatten_nil, List.append_nil, List.cons_append, List.nil_append]
  after_results_simp <;> (try simp only [TRef.ofBuf, TRef.toBuf, cast_eq]) <;> rfl
/-- The target polylines' least y, as a column. -/
theorem V_v28_eq (c : Dev nD) : (V m c main_v28 : S32x200x1.Idx → Elt F .f32)
    = Cert.ReferenceIdeal.Read.val_main_v60 (F := F) (m ((c.tc : Thread nD τ).loc main_arg3)) := by
  dsimp only [V]
  simp only [hostOps0, hostOps0_1, hostOps0_2, List.flatten_cons, List.flatten_nil, List.append_nil, List.cons_append, List.nil_append]
  after_results_simp <;> (try simp only [TRef.ofBuf, TRef.toBuf, cast_eq]) <;> rfl
/-- The target polylines' greatest x, as a column. -/
theorem V_v29_eq (c : Dev nD) : (V m c main_v29 : S32x200x1.Idx → Elt F .f32)
    = Cert.ReferenceIdeal.Read.val_main_v61 (F := F) (m ((c.tc : Thread nD τ).loc main_arg3)) := by
  dsimp only [V]
  simp only [hostOps0, hostOps0_1, hostOps0_2, List.flatten_cons, List.flatten_nil, List.append_nil, List.cons_append, List.nil_append]
  after_results_simp <;> (try simp only [TRef.ofBuf, TRef.toBuf, cast_eq]) <;> rfl
/-- The target polylines' greatest y, as a column. -/
theorem V_v30_eq (c : Dev nD) : (V m c main_v30 : S32x200x1.Idx → Elt F .f32)
    = Cert.ReferenceIdeal.Read.val_main_v62 (F := F) (m ((c.tc : Thread nD τ).loc main_arg3)) := by
  dsimp only [V]
  simp only [hostOps0, hostOps0_1, hostOps0_2, List.flatten_cons, List.flatten_nil, List.append_nil, List.cons_append, List.nil_append]
  after_results_simp <;> (try simp only [TRef.ofBuf, TRef.toBuf, cast_eq]) <;> rfl

/-- The target polylines' bounding boxes are the four columns side by side. -/
theorem V_v31_concat (c : Dev nD) : (V m c main_v31 : S32x200x4.Idx → Elt F .f32)
    = concatenate S32x200x4 2 [⟨S32x200x1, V m c main_v27⟩, ⟨S32x200x1, V m c main_v28⟩, ⟨S32x200x1, V m c main_v29⟩, ⟨S32x200x1, V m c main_v30⟩]
        concatenates_S32x200x1_S32x200x1_S32x200x1_S32x200x1_S32x200x4_d2 := by
  dsimp only [V]
  simp only [hostOps0, hostOps0_1, hostOps0_2, List.flatten_cons, List.flatten_nil, List.append_nil, List.cons_append, List.nil_append]
  -- the concatenate reads its k-th operand at the k-th of its four references: the literal one, whose own operations are read in turn
  simp (disch := decide) only [after_cons, after_nil, nullary_result', unary_result', binary_result', ternary_result', quaternary_result', reshape_result', nary_result',
    unaryIndexed_result', binaryIndexed_result', nullary_result_ne', unary_result_ne', binary_result_ne', ternary_result_ne', quaternary_result_ne', reshape_result_ne',
    nary_result_ne', unaryIndexed_result_ne', binaryIndexed_result_ne', Matrix.cons_val_zero, Matrix.cons_val_one, Matrix.cons_val_two, Matrix.cons_val_three, Matrix.head_cons, Matrix.cons_val_succ]
  rfl

/-- The target polylines' bounding boxes are the reference's: the four columns side by side. -/
theorem V_v31_eq (c : Dev nD) : (V m c main_v31 : S32x200x4.Idx → Elt F .f32)
    = Cert.ReferenceIdeal.Read.val_main_v63 (F := F) (m ((c.tc : Thread nD τ).loc main_arg3)) := by
  rw [V_v31_concat, V_v27_eq, V_v28_eq, V_v29_eq, V_v30_eq]
  rfl

end Arrays

variable [Cert.Pre_finite_inputs.Facts]

/-- Under the precondition the reference's result, taken of the kernel program's arguments, is the kernel's cost array. -/
theorem result_eq (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    Cert.ReferenceIdeal.Read.val_main_v154 (F := Ideal) (m ((c.tc : Thread nD τ).loc main_arg0)) (m ((c.tc : Thread nD τ).loc main_arg1))
      (m ((c.tc : Thread nD τ).loc main_arg2)) (m ((c.tc : Thread nD τ).loc main_arg3))
      = Cert.KernelIdeal.KValue.Gk m c := by
  funext i
  obtain ⟨b, q, n, rfl⟩ : ∃ (b : Fin 32) (q : Fin 500) (n : Fin 200), i = ix3 b q n := ⟨i 0, i 1, i 2, eq_ix3 i⟩
  rw [Cert.ReferenceIdeal.RefValue.ref_apply _ _ _ _ (fun b n => Cert.PreDecode.labels_lt _ _ _ _ hpre b n) b q n]
  unfold Cert.KernelIdeal.KValue.Gk
  rw [V_main_arg0, V_main_arg2, V_v0_eq, V_v1_eq, V_v3_eq, V_v22_eq, V_v31_eq]

end Cert.Bridge

end
-- ==== Proof.lean ====
/-
  The cost-matrix kernel against its reference, over the extended reals. Both programs compute, for every batch
  element b, query q and target n, minus the softmax probability of target n's label at query q, plus five times the
  smaller of the two mean absolute coordinate differences between the query's polyline and the target's (points in
  given and in reversed order), minus the generalized intersection-over-union of the two polylines' bounding boxes.
  The kernel gets the class term by contracting the softmax against the label's indicator, the reference by gathering
  at the label; the two agree when every label is a class number (at least 0, below 92), which the precondition says.
  The kernel adds the 32 coordinate terms one after the other where the reference sums them, reads the target polylines
  transposed, and works on one batch element per grid point; everything else is the same arithmetic.
  The three frames: the kernel program, at either number format, runs its host operations and its grid of 32 points to
  the end and leaves the arguments as launched; the reference is host operations only.
-/
import proofs.«402434_j86990267613642_3_alg».proof.Defs
import proofs.«402434_j86990267613642_3_alg».proof.Proof.Gen.Kernel
import proofs.«402434_j86990267613642_3_alg».proof.Proof.Gen.KernelIdeal
import proofs.«402434_j86990267613642_3_alg».proof.Proof.Gen.ReferenceIdeal
import proofs.«402434_j86990267613642_3_alg».proof.Proof.Gen.Pre_finite_inputs
import proofs.«402434_j86990267613642_3_alg».proof.Proof.FrameBits
import proofs.«402434_j86990267613642_3_alg».proof.Proof.FrameIdeal
import proofs.«402434_j86990267613642_3_alg».proof.Proof.RefRunStages
import proofs.«402434_j86990267613642_3_alg».proof.Proof.KernelValue
import proofs.«402434_j86990267613642_3_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Frm.frame m ρ

/-- So does the idealized kernel program. -/
theorem frame_ki : Cert.frame_KernelIdeal := fun m ρ _ => Cert.KernelIdeal.Frm.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Stages.run (F := Ideal) m ρ)

/-- From memories agreeing on the arguments both programs end with the same cost array. -/
theorem algebraic : Cert.algebraic_KernelIdeal_ReferenceIdeal := by
  intro m ρ m' ρ' hpre hagree
  refine ⟨fun c => Cert.KernelIdeal.KValue.Gk m c, Cert.KernelIdeal.KValue.run m ρ, ?_⟩
  refine (θ_run Cert.ReferenceIdeal.defs _ _).mono (fun r h c => ⟨(h c).1.trans ?_, (h c).2⟩)
    (Cert.ReferenceIdeal.Stages.run (F := Ideal) m' ρ')
  rw [(hagree c).1, (hagree c).2.1, (hagree c).2.2.1, (hagree c).2.2.2]
  exact Cert.Bridge.result_eq m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
